-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S4x512x3 : Shape := ⟨3, ![4, 512, 3]⟩
abbrev S4x512x1 : Shape := ⟨3, ![4, 512, 1]⟩
abbrev S4x1x512 : Shape := ⟨3, ![4, 1, 512]⟩
abbrev S4x512x512 : Shape := ⟨3, ![4, 512, 512]⟩
abbrev S4x512 : Shape := ⟨2, ![4, 512]⟩

abbrev nBuf : Space → Nat
  | .hbm => 31
  | .vmem => 22
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S4x8192x3, .f32⟩
  | .hbm, ⟨7, _⟩ => ⟨S_, .f32⟩
  | .hbm, ⟨8, _⟩ => ⟨S4x8192, .f32⟩
  | .hbm, ⟨9, _⟩ => ⟨S4x1x8192, .f32⟩
  | .hbm, ⟨10, _⟩ => ⟨S4x8192x1, .f32⟩
  | .hbm, ⟨11, _⟩ => ⟨S4x8192, .f32⟩
  | .hbm, ⟨12, _⟩ => ⟨S4x8192x3, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x3, .f32⟩
  | .hbm, ⟨17, _⟩ => ⟨S_, .f32⟩
  | .hbm, ⟨18, _⟩ => ⟨S4x8192, .f32⟩
  | .hbm, ⟨19, _⟩ => ⟨S4x1x8192, .f32⟩
  | .hbm, ⟨20, _⟩ => ⟨S4x8192x1, .f32⟩
  | .hbm, ⟨21, _⟩ => ⟨S4x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S4x512x3, .f32⟩
  | .local _ .vmem, ⟨1, _⟩ => ⟨S4x512x3, .f32⟩
  | .local _ .vmem, ⟨2, _⟩ => ⟨S4x512x3, .f32⟩
  | .local _ .vmem, ⟨3, _⟩ => ⟨S4x512x3, .f32⟩
  | .local _ .vmem, ⟨4, _⟩ => ⟨S4x512x1, .f32⟩
  | .local _ .vmem, ⟨5, _⟩ => ⟨S4x512x1, .f32⟩
  | .local _ .vmem, ⟨6, _⟩ => ⟨S4x1x512, .f32⟩
  | .local _ .vmem, ⟨7, _⟩ => ⟨S4x1x512, .f32⟩
  | .local _ .vmem, ⟨8, _⟩ => ⟨S4x512x1, .f32⟩
  | .local _ .vmem, ⟨9, _⟩ => ⟨S4x512x1, .f32⟩
  | .local _ .vmem, ⟨10, _⟩ => ⟨S4x512x1, .f32⟩
  | .local _ .vmem, ⟨11, _⟩ => ⟨S4x512x3, .f32⟩
  | .local _ .vmem, ⟨12, _⟩ => ⟨S4x512x3, .f32⟩
  | .local _ .vmem, ⟨13, _⟩ => ⟨S4x512x3, .f32⟩
  | .local _ .vmem, ⟨14, _⟩ => ⟨S4x512x3, .f32⟩
  | .local _ .vmem, ⟨15, _⟩ => ⟨S4x512x1, .f32⟩
  | .local _ .vmem, ⟨16, _⟩ => ⟨S4x512x1, .f32⟩
  | .local _ .vmem, ⟨17, _⟩ => ⟨S4x1x512, .f32⟩
  | .local _ .vmem, ⟨18, _⟩ => ⟨S4x1x512, .f32⟩
  | .local _ .vmem, ⟨19, _⟩ => ⟨S4x512x1, .f32⟩
  | .local _ .vmem, ⟨20, _⟩ => ⟨S4x512x1, .f32⟩
  | .local _ .vmem, ⟨21, _⟩ => ⟨S4x512x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v25 : BitVec 1 := Scalar.cmpi .eq arg1 c15_i32
  let v26 : BitVec 32 := Scalar.extui v25
  let c0_i32_21 : BitVec 32 := 0#32
  let v27 : BitVec 1 := Scalar.cmpi .ne v26 c0_i32_21
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v25 : BitVec 1 := Scalar.cmpi .eq arg1 c15_i32
  let v26 : BitVec 32 := Scalar.extui v25
  let c0_i32_21 : BitVec 32 := 0#32
  let v27 : BitVec 1 := Scalar.cmpi .ne v26 c0_i32_21
  v27

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S4x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S4x512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  inb_S4x512x1_S4x512x1_0_0_0 : ∀ a, (![0, 0, 0] : Fin 3 → Nat) a + S4x512x1.size a ≤ S4x512x1.size a
  h_S4x512x1 : 0 < S4x512x1.numel
  shapeCasts_S4x512x1_S4x512x1 : S4x512x1.ShapeCasts S4x512x1
  inb_S4x512x3_S4x512x3_0_0_0 : ∀ a, (![0, 0, 0] : Fin 3 → Nat) a + S4x512x3.size a ≤ S4x512x3.size a
  h_S4x512x3 : 0 < S4x512x3.numel
  inb_S4x1x512_S4x1x512_0_0_0 : ∀ a, (![0, 0, 0] : Fin 3 → Nat) a + S4x1x512.size a ≤ S4x1x512.size a
  h_S4x1x512 : 0 < S4x1x512.numel
  shapeCasts_S4x1x512_S4x1x512 : S4x1x512.ShapeCasts S4x1x512
  broadcasts_S4x512x1_S4x512x512 : S4x512x1.Broadcasts S4x512x512
  broadcasts_S4x1x512_S4x512x512 : S4x1x512.Broadcasts S4x512x512
  reduces_S4x512x512_S4x512 : S4x512x512.Reduces [2] S4x512
  shapeCasts_S4x512_S4x512x1 : S4x512.ShapeCasts S4x512x1
  shapeCasts_S4x8192x1_S4x8192 : S4x8192x1.ShapeCasts S4x8192
  reducesTo_S4x8192_S_d0_1 : S4x8192.ReducesTo [0, 1] S_
  dot_S4x512x3_S4x512x3_S4x512x512_2_2_1_1_0_0_wf : DotDims.WF S4x512x3 S4x512x3 S4x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x8192x3.size a
  hwx0_0 : ∀ i : grid0.Coords, EltTy.bits .f32 = 32 ∨ (Rect.block (s := S4x8192x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S4x8192x3.size a
  hwx0_1 : ∀ i : grid0.Coords, EltTy.bits .f32 = 32 ∨ (Rect.block (s := S4x8192x3) S4x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x1.size a ≤ S4x8192x1.size a
  hwx0_2 : ∀ i : grid0.Coords, EltTy.bits .f32 = 32 ∨ (Rect.block (s := S4x8192x1) S4x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x512.size a ≤ S4x1x8192.size a
  hwx0_3 : ∀ i : grid0.Coords, EltTy.bits .f32 = 32 ∨ (Rect.block (s := S4x1x8192) S4x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512x1.size a ≤ S4x8192x1.size a
  hwx0_4 : ∀ i : grid0.Coords, EltTy.bits .f32 = 32 ∨ (Rect.block (s := S4x8192x1) S4x512x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x3.size a ≤ S4x8192x3.size a
  hwx1_0 : ∀ i : grid1.Coords, EltTy.bits .f32 = 32 ∨ (Rect.block (s := S4x8192x3) S4x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x3.size a ≤ S4x8192x3.size a
  hwx1_1 : ∀ i : grid1.Coords, EltTy.bits .f32 = 32 ∨ (Rect.block (s := S4x8192x3) S4x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512x1.size a ≤ S4x8192x1.size a
  hwx1_2 : ∀ i : grid1.Coords, EltTy.bits .f32 = 32 ∨ (Rect.block (s := S4x8192x1) S4x512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x1x512.size a ≤ S4x1x8192.size a
  hwx1_3 : ∀ i : grid1.Coords, EltTy.bits .f32 = 32 ∨ (Rect.block (s := S4x1x8192) S4x1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x512x1.size a ≤ S4x8192x1.size a
  hwx1_4 : ∀ i : grid1.Coords, EltTy.bits .f32 = 32 ∨ (Rect.block (s := S4x8192x1) S4x512x1.size (cc1_transform_4 i) (hinb1_4 i)).WholeWords (EltTy.packing .f32)

variable [Facts₀]

def dot_S4x512x3_S4x512x3_S4x512x512_2_2_1_1_0_0 : DotDims S4x512x3 S4x512x3 S4x512x512 where
  lhsContracting := [2]
  rhsContracting := [2]
  lhsNonContracting := [1]
  rhsNonContracting := [1]
  lhsBatch := [0]
  rhsBatch := [0]
  wf := dot_S4x512x3_S4x512x3_S4x512x512_2_2_1_1_0_0_wf

abbrev win0_0 : Pipeline.Window sig grid0 :=
  Pipeline.Window.ofSpec (Memref.whole main_arg0) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S4x512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S4x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S4x512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S4x1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14) S4x512x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 34
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Bits.TileStep0.lean ====
/-
  One grid point of the first call. The grid is 16 row blocks by 16 column tiles, the point t at row block t / 16
  and column tile t % 16. At a point the body resets its scratch to +∞ when the tile is the row block's first,
  then replaces the scratch by the minimum of the scratch and the tile's row minima (the payload `k0_pay2` of the four
  blocks it loads and of what the scratch held), and copies the scratch to the output block when the tile is the row
  block's last. Here: the two branch conditions in closed form over the grid, where the output window is idle, and the
  body's run in each of the three cases a point can be in, each output stated as a payload of the loaded blocks.
-/
import proofs.«103544_j85478439125595_1_alg».proof.Proof.Gen.Kernel.Launch
import proofs.«103544_j85478439125595_1_alg».proof.Proof.Gen.Kernel.Skeleton
import proofs.«103544_j85478439125595_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Call0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, over the grid -/

/-- "This tile is the first of its row block": the body's first `scf.if`, its scalar chain substituted. -/
abbrev atFirst (i : grid0.Coords) : Prop :=
  (Scalar.cmpi .ne (Scalar.extui (Scalar.cmpi .eq (BitVec.ofNat 32 (i 1).val) 0#32)) 0#32) = 1#1
/-- "This tile is the last of its row block": the body's second `scf.if`. -/
abbrev atLast (i : grid0.Coords) : Prop := k0_cond2 i = 1#1

/-- The first tile of a row block is the point ≡ 0 (mod 16); decided over the 256 points. -/
theorem atFirst_iff : ∀ t : Fin cfg0.N, atFirst (grid0.coords t) ↔ t.val % 16 = 0 :=
  (by decide +kernel : ∀ t : Fin grid0.N, atFirst (grid0.coords t) ↔ t.val % 16 = 0)
/-- The last is the point ≡ 15 (mod 16). -/
theorem atLast_iff : ∀ t : Fin cfg0.N, atLast (grid0.coords t) ↔ t.val % 16 = 15 :=
  (by decide +kernel : ∀ t : Fin grid0.N, atLast (grid0.coords t) ↔ t.val % 16 = 15)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
/-- The output window is idle, and not written back, at every tile but a row block's last; -/
theorem idle_out : ∀ t : Fin cfg0.N, ¬atLast (grid0.coords t) → cfg0.idle 4 (grid0.coords t) = true := by decide +kernel
theorem noFlush_out : ∀ t : Fin cfg0.N, ¬atLast (grid0.coords t) → (cfg0.win 4).flush t = false := by decide +kernel
/-- and live at the last. -/
theorem live_out : ∀ t : Fin cfg0.N, atLast (grid0.coords t) → cfg0.idle 4 (grid0.coords t) = false := by decide +kernel

/-! ## The scratch -/

/-- The body's scratch operand: the running minimum of the current row block, one value per row. -/
abbrev scratch : Memref sig .tc .vmem S4x512x1 .f32 := Memref.whole cc0_scratch0

/-- Every load and store of the body is through the whole-buffer rectangle at zero offsets. -/
theorem zero3 : (![0, 0, 0] : Fin 3 → Nat) = fun _ => 0 := by
  funext a; match a with | ⟨0, _⟩ => rfl | ⟨1, _⟩ => rfl | ⟨2, _⟩ => rfl

/-! ## The body, case by case -/

set_option maxHeartbeats 1000000 in
/-- A middle tile (neither first nor last): the scratch, found at `s`, is left at the payload of the four blocks and `s`;
    the output block is not touched. -/
theorem run_middle (c : Dev nD) (E : Set ℕ) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4x512x1 .f32) (harg4 : arg4.IsWhole) (arg5 : Memref sig .tc .vmem S4x1x512 .f32) (harg5 : arg5.IsWhole)
    (arg6 : Memref sig .tc .vmem S4x512x1 .f32) (harg6 : arg6.IsWhole) (arg7 : Memref sig .tc .vmem S4x512x1 .f32) (harg7 : arg7.IsWhole)
    (h1 : ¬atFirst i) (h2 : ¬atLast i)
    (x0 x1 : Vec F S4x512x3 .f32) (x2 : Vec F S4x512x1 .f32) (x3 : Vec F S4x1x512 .f32) (s : Vec F S4x512x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare (k0_pay2 x0 x1 x2 x3 s)) -∗ K ⟨⟩))
      ⊢ wp frame (wpE (defs₀ (F := F)) Variants.none c none) E
          (cc0__nn_min_kernel i arg2 harg2 arg3 harg3 arg4 harg4 arg5 harg5 arg6 harg6 arg7 harg7) K := by
  simp only [cc0__nn_min_kernel_eq_skeleton]; unfold cc0__nn_min_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [View.read_writes_eq_canon _ _ _ (fun y => ⟨_, List.mem_singleton_self _, View.mem_set_unit_zero zero3 Facts₀.inb_S4x512x1_S4x512x1_0_0_0 y⟩),
    View.canon_unit_zero zero3]
  simp only [View.readAt_eq_ld, harg2.read_unread, harg3.read_unread, harg4.read_unread, harg5.read_unread, harg7.read_unread,
      View.ld_unit_zero (S := S4x512x3) zero3, View.ld_unit_zero (S := S4x512x1) zero3, View.ld_unit_zero (S := S4x1x512) zero3]

set_option maxHeartbeats 1000000 in
/-- The first tile of a row block: the scratch, found at anything, is reset to `k0_pay1` (the +∞ word everywhere) and
    then left at the payload of the four blocks and that reset value. -/
theorem run_first (c : Dev nD) (E : Set ℕ) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4x512x1 .f32) (harg4 : arg4.IsWhole) (arg5 : Memref sig .tc .vmem S4x1x512 .f32) (harg5 : arg5.IsWhole)
    (arg6 : Memref sig .tc .vmem S4x512x1 .f32) (harg6 : arg6.IsWhole) (arg7 : Memref sig .tc .vmem S4x512x1 .f32) (harg7 : arg7.IsWhole)
    (h1 : atFirst i) (h2 : ¬atLast i)
    (x0 x1 : Vec F S4x512x3 .f32) (x2 : Vec F S4x512x1 .f32) (x3 : Vec F S4x1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare (k0_pay2 x0 x1 x2 x3 (k0_pay1 (F := F)))) -∗ K ⟨⟩))
      ⊢ wp frame (wpE (defs₀ (F := F)) Variants.none c none) E
          (cc0__nn_min_kernel i arg2 harg2 arg3 harg3 arg4 harg4 arg5 harg5 arg6 harg6 arg7 harg7) K := by
  simp only [cc0__nn_min_kernel_eq_skeleton]; unfold cc0__nn_min_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (fun y => ⟨_, List.mem_cons_self, View.mem_set_unit_zero zero3 Facts₀.inb_S4x512x1_S4x512x1_0_0_0 y⟩),
    View.canon_cons_unit_zero zero3]
  simp only [View.readAt_eq_ld, harg2.read_unread, harg3.read_unread, harg4.read_unread, harg5.read_unread,
      View.ld_unit_zero (S := S4x512x3) zero3, View.ld_unit_zero (S := S4x512x1) zero3, View.ld_unit_zero (S := S4x1x512) zero3]
  exact congrArg (k0_pay2 x0 x1 x2 x3) (View.readCov_unit_zero (S := S4x512x1) _ zero3 _ _)

set_option maxHeartbeats 1000000 in
/-- The last tile of a row block: the scratch is updated as at a middle tile, and the output block, found at anything,
    is left at the updated scratch. -/
theorem run_last (c : Dev nD) (E : Set ℕ) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4x512x1 .f32) (harg4 : arg4.IsWhole) (arg5 : Memref sig .tc .vmem S4x1x512 .f32) (harg5 : arg5.IsWhole)
    (arg6 : Memref sig .tc .vmem S4x512x1 .f32) (harg6 : arg6.IsWhole) (arg7 : Memref sig .tc .vmem S4x512x1 .f32) (harg7 : arg7.IsWhole)
    (h1 : ¬atFirst i) (h2 : atLast i)
    (x0 x1 : Vec F S4x512x3 .f32) (x2 : Vec F S4x512x1 .f32) (x3 : Vec F S4x1x512 .f32) (s : Vec F S4x512x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k0_pay2 x0 x1 x2 x3 s)
            ∗ owns (c : Thread nD τ) arg7 fullShare (k0_pay2 x0 x1 x2 x3 s)) -∗ K ⟨⟩))
      ⊢ wp frame (wpE (defs₀ (F := F)) Variants.none c none) E
          (cc0__nn_min_kernel i arg2 harg2 arg3 harg3 arg4 harg4 arg5 harg5 arg6 harg6 arg7 harg7) K := by
  simp only [cc0__nn_min_kernel_eq_skeleton]; unfold cc0__nn_min_kernel_skel
  unfold owns
  iintro ⟨⟨%f0, %hf0, H0⟩, ⟨%f1, %hf1, H1⟩, ⟨%f2, %hf2, H2⟩, ⟨%f3, %hf3, H3⟩, ⟨%d6, %f6, -, H6⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    sl_unfold_words
    rw [View.read_writes_eq_canon _ _ _ (fun y => ⟨_, List.mem_singleton_self _, View.mem_set_unit_zero zero3 Facts₀.inb_S4x512x1_S4x512x1_0_0_0 y⟩),
      View.canon_unit_zero zero3]
    simp only [View.readAt_eq_ld, harg2.read_unread, harg3.read_unread, harg4.read_unread, harg5.read_unread, harg7.read_unread,
      View.ld_unit_zero (S := S4x512x3) zero3, View.ld_unit_zero (S := S4x512x1) zero3, View.ld_unit_zero (S := S4x1x512) zero3]
    exact View.readCov_unit_zero (S := S4x512x1) _ zero3 _ _
  iexists _; isplitr
  swap; · iexact HS
  ipureintro
  sl_unfold_words
  rw [View.read_writes_eq_canon _ _ _ (fun y => ⟨_, List.mem_singleton_self _, View.mem_set_unit_zero zero3 Facts₀.inb_S4x512x1_S4x512x1_0_0_0 y⟩),
    View.canon_unit_zero zero3]
  simp only [View.readAt_eq_ld, harg2.read_unread, harg3.read_unread, harg4.read_unread, harg5.read_unread, harg7.read_unread,
      View.ld_unit_zero (S := S4x512x3) zero3, View.ld_unit_zero (S := S4x512x1) zero3, View.ld_unit_zero (S := S4x1x512) zero3]

end Cert.Kernel.Call0

end
-- ==== Proof.Bits.RunningMin0.lean ====
/-
  The first call across its grid. Over a row block's 16 tiles the scratch holds a running minimum: reset at the first
  tile, lowered by each tile's row minima, copied to the output block at the last. Here: the four blocks a point
  loads, read off the arrays as the call finds them; the running minimum after each point as a recursion on the point
  (`runMin`); the invariant that keeps the scratch at it between points (`carried`); the call's proof data; and the body
  obligation, by the three cases of a point.
-/
import proofs.«103544_j85478439125595_1_alg».proof.Proof.Bits.TileStep0

set_option maxRecDepth 16384

noncomputable section

namespace Cert.Kernel.Call0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The blocks a point loads -/

/-- Window `w`'s block at point `t`, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's points, the column tile's points, and their squared norms, at their literal types. -/
abbrev rowPts (c : Dev nD) (t : Fin cfg0.N) : Vec F S4x512x3 .f32 := blockAt V c 0 t
abbrev colPts (c : Dev nD) (t : Fin cfg0.N) : Vec F S4x512x3 .f32 := blockAt V c 1 t
abbrev rowSq (c : Dev nD) (t : Fin cfg0.N) : Vec F S4x512x1 .f32 := blockAt V c 2 t
abbrev colSq (c : Dev nD) (t : Fin cfg0.N) : Vec F S4x1x512 .f32 := blockAt V c 3 t

/-! An input window's staging buffer holds its block whenever the body runs, fetched at that point or not (an unfetched
    window's block index has not moved), for any proof data over these arrays whose body leaves the block in place. -/
theorem found_rowPts {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found_colPts {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found_rowSq {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found_colSq {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The running minimum -/

/-- One point's update of a running minimum `s`: the minimum of `s` and the tile's row minima. -/
def update (c : Dev nD) (t : Fin cfg0.N) (s : Vec F S4x512x1 .f32) : Vec F S4x512x1 .f32 :=
  k0_pay2 (rowPts V c t) (colPts V c t) (rowSq V c t) (colSq V c t) s

/-- What the scratch holds after point `n`: the update of the reset value at a row block's first tile, of what the
    point before left otherwise. -/
def runMin (c : Dev nD) : (n : ℕ) → n < cfg0.N → Vec F S4x512x1 .f32
  | 0, hn => update V c ⟨0, hn⟩ (k0_pay1 (F := F))
  | n + 1, hn => update V c ⟨n + 1, hn⟩ (if (n + 1) % 16 = 0 then k0_pay1 (F := F) else runMin c n (Nat.lt_of_succ_lt hn))

theorem runMin_first (c : Dev nD) (t : Fin cfg0.N) (h : t.val % 16 = 0) :
    runMin V c t.val t.isLt = update V c t (k0_pay1 (F := F)) := by
  obtain ⟨n, hn⟩ := t
  cases n with
  | zero => rfl
  | succ n =>
    show update V c ⟨n + 1, hn⟩ (if (n + 1) % 16 = 0 then k0_pay1 (F := F) else runMin V c n (Nat.lt_of_succ_lt hn)) = _
    rw [if_pos h]

theorem runMin_later (c : Dev nD) (t : Fin cfg0.N) (h : ¬t.val % 16 = 0) :
    runMin V c t.val t.isLt = update V c t (runMin V c (t.val - 1) (Nat.lt_of_le_of_lt (Nat.sub_le _ _) t.isLt)) := by
  obtain ⟨n, hn⟩ := t
  cases n with
  | zero => exact absurd (Nat.zero_mod _) h
  | succ n =>
    show update V c ⟨n + 1, hn⟩ (if (n + 1) % 16 = 0 then k0_pay1 (F := F) else runMin V c n (Nat.lt_of_succ_lt hn)) = _
    rw [if_neg h]; rfl

/-! ## The invariant between points -/

/-- The core's scoped buffers that are no staging buffer of this call: the scratch, at some contents, and the others. -/
theorem scoped_split (c : Dev nD) :
    (Pipeline.scopedRest (Ix := Unit) (Name := ℕ) (U := UR sig nD τ) (Lvl := ℕ) (Val := Elt F) spec0 c : sProp 𝕄)
      = iprop((∃ d, owns (c : Thread nD τ) scratch fullShare d) ∗ Pipeline.scopedRestBut (Ix := Unit) (Name := ℕ) (U := UR sig nD τ) (Lvl := ℕ) (Val := Elt F) spec0 c [cc0_scratch0]) := by
  rw [Pipeline.scopedRest_split_of_list spec0 c [cc0_scratch0] (by decide) (by decide)]
  simp only [BI.bigSepL_singleton, scratch, owns_whole]; try rfl

/-- Before position `n`: before the first point what the call is handed (every scoped buffer at anything, the generator
    register at some state); afterwards the same with the scratch at the running minimum the point before left. -/
def carried (c : Dev nD) : (n : ℕ) → n ≤ cfg0.N → sProp 𝕄
  | 0, _ => Pipeline.ΦA spec0 c
  | n + 1, hn => iprop(owns (c : Thread nD τ) scratch fullShare (runMin V c n hn) ∗ Pipeline.scopedRestBut (Ix := Unit) (Name := ℕ) (U := UR sig nD τ) (Lvl := ℕ) (Val := Elt F) spec0 c [cc0_scratch0] ∗ (∃ r, prngReg c r))

theorem carried_zero (c : Dev nD) (n : ℕ) (h : n ≤ cfg0.N) (hz : n = 0) : carried V c n h = Pipeline.ΦA spec0 c := by
  subst hz; rfl

theorem carried_succ (c : Dev nD) (n : ℕ) (hn : n < cfg0.N) :
    carried V c (n + 1) hn = iprop(owns (c : Thread nD τ) scratch fullShare (runMin V c n hn) ∗ Pipeline.scopedRestBut (Ix := Unit) (Name := ℕ) (U := UR sig nD τ) (Lvl := ℕ) (Val := Elt F) spec0 c [cc0_scratch0] ∗ (∃ r, prngReg c r)) := rfl

theorem carried_pos (c : Dev nD) (n : ℕ) (h : n ≤ cfg0.N) (hz : n ≠ 0) :
    carried V c n h = iprop(owns (c : Thread nD τ) scratch fullShare (runMin V c (n - 1) (by omega)) ∗ Pipeline.scopedRestBut (Ix := Unit) (Name := ℕ) (U := UR sig nD τ) (Lvl := ℕ) (Val := Elt F) spec0 c [cc0_scratch0] ∗ (∃ r, prngReg c r)) := by
  cases n with
  | zero => exact absurd rfl hz
  | succ n => rfl

/-- At any position the invariant yields the scratch at SOME contents beside the rest: all a row block's first tile needs. -/
theorem carried_forget (c : Dev nD) (n : ℕ) (h : n ≤ cfg0.N) :
    carried V c n h ⊢ (iprop((∃ d, owns (c : Thread nD τ) scratch fullShare d) ∗ Pipeline.scopedRestBut (Ix := Unit) (Name := ℕ) (U := UR sig nD τ) (Lvl := ℕ) (Val := Elt F) spec0 c [cc0_scratch0] ∗ (∃ r, prngReg c r)) : sProp 𝕄) := by
  cases n with
  | zero =>
    show Pipeline.ΦA spec0 c ⊢ _
    unfold Pipeline.ΦA; rw [scoped_split]
    iintro ⟨⟨HS, Hb⟩, Hg⟩
    isplitl [HS]; · iexact HS
    isplitl [Hb]; · iexact Hb
    iexact Hg
  | succ n =>
    rw [carried_succ]
    iintro ⟨HS, Hb, Hg⟩
    isplitl [HS]; · iexists _; iexact HS
    isplitl [Hb]; · iexact Hb
    iexact Hg

/-- And so gives back what the call was handed. -/
theorem carried_close (c : Dev nD) (n : ℕ) (h : n ≤ cfg0.N) : carried V c n h ⊢ (Pipeline.ΦA spec0 c : sProp 𝕄) := by
  refine (carried_forget V c n h).trans ?_
  unfold Pipeline.ΦA; rw [scoped_split]
  iintro ⟨HS, Hb, Hg⟩
  isplitl [HS Hb]
  · isplitl [HS]; · iexact HS
    iexact Hb
  iexact Hg

/-! ## The call's proof data -/

/-- The arrays as the call finds them; after the body at point `t` each input's buffer at its block and the output's at
    the running minimum (written back only at a row block's last tile, not consulted elsewhere); the invariant
    `carried`; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => runMin V c t.val t.isLt
  Φ t := carried V c t.val (Nat.le_of_lt_succ t.isLt)
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blockAt V c 0 t := by dsimp only [dat]
theorem after_1 (c : Dev nD) (t : Fin cfg0.N) : (dat V c).after 1 t = blockAt V c 1 t := by dsimp only [dat]
theorem after_2 (c : Dev nD) (t : Fin cfg0.N) : (dat V c).after 2 t = blockAt V c 2 t := by dsimp only [dat]
theorem after_3 (c : Dev nD) (t : Fin cfg0.N) : (dat V c).after 3 t = blockAt V c 3 t := by dsimp only [dat]
theorem after_4 (c : Dev nD) (t : Fin cfg0.N) : (dat V c).after 4 t = runMin V c t.val t.isLt := by dsimp only [dat]

theorem before_0 (c : Dev nD) (t : Fin cfg0.N) (d) : (dat V c).before 0 t d = blockAt V c 0 t :=
  found_rowPts V (dat V c) (A_eq V c 0) (after_0 V c) t d
theorem before_1 (c : Dev nD) (t : Fin cfg0.N) (d) : (dat V c).before 1 t d = blockAt V c 1 t :=
  found_colPts V (dat V c) (A_eq V c 1) (after_1 V c) t d
theorem before_2 (c : Dev nD) (t : Fin cfg0.N) (d) : (dat V c).before 2 t d = blockAt V c 2 t :=
  found_rowSq V (dat V c) (A_eq V c 2) (after_2 V c) t d
theorem before_3 (c : Dev nD) (t : Fin cfg0.N) (d) : (dat V c).before 3 t d = blockAt V c 3 t :=
  found_colSq V (dat V c) (A_eq V c 3) (after_3 V c) t d

theorem Phi_castSucc (c : Dev nD) (t : Fin cfg0.N) : (dat V c).Φ t.castSucc = carried V c t.val (Nat.le_of_lt t.isLt) := by
  dsimp only [dat]; simp only [Fin.coe_castSucc]

theorem Phi_zero (c : Dev nD) : (dat V c).Φ 0 = Pipeline.ΦA spec0 c := rfl

theorem Phi_last_close (c : Dev nD) : (dat V c).Φ (Fin.last cfg0.N) ⊢ (Pipeline.ΦA spec0 c : sProp 𝕄) := by
  rw [show (dat V c).Φ (Fin.last cfg0.N) = carried V c (Fin.last cfg0.N).val (Nat.le_of_lt_succ (Fin.last cfg0.N).isLt) from rfl]
  exact carried_close V c _ _

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves_0 (c : Dev nD) (t : Fin cfg0.N) :
    (dat V c).leavesExact 0 t = owns (c : Thread nD τ) (st0_0 t) fullShare (blockAt V c 0 t) := by
  unfold Dat.leavesExact; rw [live_0 t, after_0]
theorem leaves_1 (c : Dev nD) (t : Fin cfg0.N) :
    (dat V c).leavesExact 1 t = owns (c : Thread nD τ) (st0_1 t) fullShare (blockAt V c 1 t) := by
  unfold Dat.leavesExact; rw [live_1 t, after_1]
theorem leaves_2 (c : Dev nD) (t : Fin cfg0.N) :
    (dat V c).leavesExact 2 t = owns (c : Thread nD τ) (st0_2 t) fullShare (blockAt V c 2 t) := by
  unfold Dat.leavesExact; rw [live_2 t, after_2]
theorem leaves_3 (c : Dev nD) (t : Fin cfg0.N) :
    (dat V c).leavesExact 3 t = owns (c : Thread nD τ) (st0_3 t) fullShare (blockAt V c 3 t) := by
  unfold Dat.leavesExact; rw [live_3 t, after_3]

set_option maxHeartbeats 4000000 in
/-- The body at any point. Its inputs' buffers hold their blocks; the point's position in its row block says which case it
    is in. At a first tile the invariant is asked only for the scratch at some contents, elsewhere for the running
    minimum the point before left; either way it takes the scratch back at this point's running minimum. The output
    block is handed back untouched but at a last tile, where it is left at the running minimum. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl,
    show (dat V c).Φ t.succ = carried V c (t.val + 1) t.isLt from rfl, carried_succ,
    leaves_0, leaves_1, leaves_2, leaves_3, Phi_castSucc]
  have hN : t.val < 256 := lt_of_lt_of_eq t.isLt (show cfg0.N = 256 from N_0)
  by_cases hF : t.val % 16 = 0
  · -- a row block's first tile
    have hL : ¬t.val % 16 = 15 := by omega
    have hl : ¬atLast (grid0.coords t) := fun h => hL ((atLast_iff t).mp h)
    rw [Dat.leavesExact_idle (dat V c) 4 t (idle_out t hl) (noFlush_out t hl), runMin_first V c t hF]
    iintro ⟨HΦ, Ho, ⟨%d0, H0⟩, ⟨%d1, H1⟩, ⟨%d2, H2⟩, ⟨%d3, H3⟩, ⟨%d4, H4⟩⟩
    ihave HΦ' := (carried_forget V c t.val (Nat.le_of_lt t.isLt)) $$ HΦ
    icases HΦ' with ⟨HS, Hb, Hg⟩
    iapply (run_first c Set.univ (grid0.coords t) _ _ _ _ _ _ _ _ _ _ _ _ ((atFirst_iff t).mpr hF) hl (rowPts V c t) (colPts V c t) (rowSq V c t) (colSq V c t) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hb Hg]
    · isplitl [HS]; · iexact HS
      isplitl [Hb]; · iexact Hb
      iexact Hg
    isplitl [Ho]; · iexact Ho
    isplitl [H0]; · iexact H0
    isplitl [H1]; · iexact H1
    isplitl [H2]; · iexact H2
    isplitl [H3]; · iexact H3
    iexists _; iexact H4
  · have hf : ¬atFirst (grid0.coords t) := fun h => hF ((atFirst_iff t).mp h)
    have hz : t.val ≠ 0 := fun h => hF (by rw [h])
    rw [carried_pos V c _ _ hz, runMin_later V c t hF]
    by_cases hL : t.val % 16 = 15
    · -- a row block's last tile
      have hl : atLast (grid0.coords t) := (atLast_iff t).mpr hL
      rw [show (dat V c).leavesExact 4 t = owns (c : Thread nD τ) (st0_4 t) fullShare ((dat V c).after 4 t) from by
        unfold Dat.leavesExact; rw [live_out t hl], after_4, runMin_later V c t hF]
      iintro ⟨⟨HS, Hb, Hg⟩, Ho, ⟨%d0, H0⟩, ⟨%d1, H1⟩, ⟨%d2, H2⟩, ⟨%d3, H3⟩, ⟨%d4, H4⟩⟩
      iapply (run_last c Set.univ (grid0.coords t) _ _ _ _ _ _ _ _ _ _ _ _ hf hl (rowPts V c t) (colPts V c t) (rowSq V c t) (colSq V c t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hb Hg]
      · isplitl [HS]; · iexact HS
        isplitl [Hb]; · iexact Hb
        iexact Hg
      isplitl [Ho]; · iexact Ho
      isplitl [H0]; · iexact H0
      isplitl [H1]; · iexact H1
      isplitl [H2]; · iexact H2
      isplitl [H3]; · iexact H3
      iexact H4
    · -- a middle tile
      have hl : ¬atLast (grid0.coords t) := fun h => hL ((atLast_iff t).mp h)
      rw [Dat.leavesExact_idle (dat V c) 4 t (idle_out t hl) (noFlush_out t hl)]
      iintro ⟨⟨HS, Hb, Hg⟩, Ho, ⟨%d0, H0⟩, ⟨%d1, H1⟩, ⟨%d2, H2⟩, ⟨%d3, H3⟩, ⟨%d4, H4⟩⟩
      iapply (run_middle c Set.univ (grid0.coords t) _ _ _ _ _ _ _ _ _ _ _ _ hf hl (rowPts V c t) (colPts V c t) (rowSq V c t) (colSq V c t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hb Hg]
      · isplitl [HS]; · iexact HS
        isplitl [Hb]; · iexact Hb
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Call0

end
-- ==== Proof.Bits.TileStep1.lean ====
/-
  One grid point of the second call. The grid is 16 row blocks by 16 column tiles, the point t at row block t / 16
  and column tile t % 16. At a point the body resets its scratch to +∞ when the tile is the row block's first,
  then replaces the scratch by the minimum of the scratch and the tile's row minima (the payload `k1_pay2` of the four
  blocks it loads and of what the scratch held), and copies the scratch to the output block when the tile is the row
  block's last. Here: the two branch conditions in closed form over the grid, where the output window is idle, and the
  body's run in each of the three cases a point can be in, each output stated as a payload of the loaded blocks.
-/
import proofs.«103544_j85478439125595_1_alg».proof.Proof.Gen.Kernel.Launch
import proofs.«103544_j85478439125595_1_alg».proof.Proof.Gen.Kernel.Skeleton
import proofs.«103544_j85478439125595_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Call1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, over the grid -/

/-- "This tile is the first of its row block": the body's first `scf.if`, its scalar chain substituted. -/
abbrev atFirst (i : grid1.Coords) : Prop :=
  (Scalar.cmpi .ne (Scalar.extui (Scalar.cmpi .eq (BitVec.ofNat 32 (i 1).val) 0#32)) 0#32) = 1#1
/-- "This tile is the last of its row block": the body's second `scf.if`. -/
abbrev atLast (i : grid1.Coords) : Prop := k1_cond2 i = 1#1

/-- The first tile of a row block is the point ≡ 0 (mod 16); decided over the 256 points. -/
theorem atFirst_iff : ∀ t : Fin cfg1.N, atFirst (grid1.coords t) ↔ t.val % 16 = 0 :=
  (by decide +kernel : ∀ t : Fin grid1.N, atFirst (grid1.coords t) ↔ t.val % 16 = 0)
/-- The last is the point ≡ 15 (mod 16). -/
theorem atLast_iff : ∀ t : Fin cfg1.N, atLast (grid1.coords t) ↔ t.val % 16 = 15 :=
  (by decide +kernel : ∀ t : Fin grid1.N, atLast (grid1.coords t) ↔ t.val % 16 = 15)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
/-- The output window is idle, and not written back, at every tile but a row block's last; -/
theorem idle_out : ∀ t : Fin cfg1.N, ¬atLast (grid1.coords t) → cfg1.idle 4 (grid1.coords t) = true := by decide +kernel
theorem noFlush_out : ∀ t : Fin cfg1.N, ¬atLast (grid1.coords t) → (cfg1.win 4).flush t = false := by decide +kernel
/-- and live at the last. -/
theorem live_out : ∀ t : Fin cfg1.N, atLast (grid1.coords t) → cfg1.idle 4 (grid1.coords t) = false := by decide +kernel

/-! ## The scratch -/

/-- The body's scratch operand: the running minimum of the current row block, one value per row. -/
abbrev scratch : Memref sig .tc .vmem S4x512x1 .f32 := Memref.whole cc1_scratch0

/-- Every load and store of the body is through the whole-buffer rectangle at zero offsets. -/
theorem zero3 : (![0, 0, 0] : Fin 3 → Nat) = fun _ => 0 := by
  funext a; match a with | ⟨0, _⟩ => rfl | ⟨1, _⟩ => rfl | ⟨2, _⟩ => rfl

/-! ## The body, case by case -/

set_option maxHeartbeats 1000000 in
/-- A middle tile (neither first nor last): the scratch, found at `s`, is left at the payload of the four blocks and `s`;
    the output block is not touched. -/
theorem run_middle (c : Dev nD) (E : Set ℕ) (i : grid1.Coords)
    (arg2 : Memref sig .tc .vmem S4x512x3 .f32) (harg2 : arg2.IsWhole) (arg3 : Memref sig .tc .vmem S4x512x3 .f32) (harg3 : arg3.IsWhole)
    (arg4 : Memref sig .tc .vmem S4x512x1 .f32) (harg4 : arg4.IsWhole) (arg5 : Memref sig .tc .vmem S4x1x512 .f32) (harg5 : arg5.IsWhole)
    (arg6 : Memref sig .tc .vmem S4x512x1 .f32) (harg6 : arg6.IsWhole) (arg7 : Memref sig .tc .vmem S4x512x1 .f32) (harg7 : arg7.IsWhole)
    (h1 : ¬atFirst i) (h2 : ¬atLast i)
    (x0 x1 : Vec F S4x512x3 .f32) (x2 : Vec F S4x512x1 .f32) (x3 : Vec F S4x1x512 .f32) (s : Vec F S4x512x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare (k1_pay2 x0 x1 x2 x3 s)) -∗ K ⟨⟩))
      ⊢ wp frame (wpE (defs₀ (F := F)) Variants.none c none) E
          (cc1__nn_min_kernel i arg2 harg2 arg3 harg3 arg4 harg4 arg5 harg5 arg6 harg6 arg7 harg7) K := by
  simp only [cc1__nn_min_kernel_eq_skeleton]; unfold cc1__nn_min_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [View.read_writes_eq_canon _ _ _ (fun y => ⟨_, List.mem_singleton_self _, View.mem_set_unit_zero zero3 Facts₀.inb_S4x512x1_S4x512x1_0_0_0 y⟩),
    View.canon_unit_zero zero3]
  simp only [View.readAt_eq_ld, harg2.read_unread, harg3.read_unread, harg4.read_unread, harg5.read_unread, harg7.read_unread,
      View.ld_unit_zero (S := S4x512x3) zero3, View.ld_unit_zero (S := S4x512x1) zero3, View.ld_unit_zero (S := S4x1x512) zero3]

set_option maxHeartbeats 1000000 in
/-- The first tile of a row block: the scratch, found at anything, is reset to `k1_pay1` (the +∞ word everywhere) and
    then left at the payload of the four blocks and that reset value. -/
theorem run_first (c : Dev nD) (E : Set ℕ) (i : grid1.Coords)
    (arg2 : Memref sig .tc .vmem S4x512x3 .f32) (harg2 : arg2.IsWhole) (arg3 : Memref sig .tc .vmem S4x512x3 .f32) (harg3 : arg3.IsWhole)
    (arg4 : Memref sig .tc .vmem S4x512x1 .f32) (harg4 : arg4.IsWhole) (arg5 : Memref sig .tc .vmem S4x1x512 .f32) (harg5 : arg5.IsWhole)
    (arg6 : Memref sig .tc .vmem S4x512x1 .f32) (harg6 : arg6.IsWhole) (arg7 : Memref sig .tc .vmem S4x512x1 .f32) (harg7 : arg7.IsWhole)
    (h1 : atFirst i) (h2 : ¬atLast i)
    (x0 x1 : Vec F S4x512x3 .f32) (x2 : Vec F S4x512x1 .f32) (x3 : Vec F S4x1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare (k1_pay2 x0 x1 x2 x3 (k1_pay1 (F := F)))) -∗ K ⟨⟩))
      ⊢ wp frame (wpE (defs₀ (F := F)) Variants.none c none) E
          (cc1__nn_min_kernel i arg2 harg2 arg3 harg3 arg4 harg4 arg5 harg5 arg6 harg6 arg7 harg7) K := by
  simp only [cc1__nn_min_kernel_eq_skeleton]; unfold cc1__nn_min_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (fun y => ⟨_, List.mem_cons_self, View.mem_set_unit_zero zero3 Facts₀.inb_S4x512x1_S4x512x1_0_0_0 y⟩),
    View.canon_cons_unit_zero zero3]
  simp only [View.readAt_eq_ld, harg2.read_unread, harg3.read_unread, harg4.read_unread, harg5.read_unread,
      View.ld_unit_zero (S := S4x512x3) zero3, View.ld_unit_zero (S := S4x512x1) zero3, View.ld_unit_zero (S := S4x1x512) zero3]
  exact congrArg (k1_pay2 x0 x1 x2 x3) (View.readCov_unit_zero (S := S4x512x1) _ zero3 _ _)

set_option maxHeartbeats 1000000 in
/-- The last tile of a row block: the scratch is updated as at a middle tile, and the output block, found at anything,
    is left at the updated scratch. -/
theorem run_last (c : Dev nD) (E : Set ℕ) (i : grid1.Coords)
    (arg2 : Memref sig .tc .vmem S4x512x3 .f32) (harg2 : arg2.IsWhole) (arg3 : Memref sig .tc .vmem S4x512x3 .f32) (harg3 : arg3.IsWhole)
    (arg4 : Memref sig .tc .vmem S4x512x1 .f32) (harg4 : arg4.IsWhole) (arg5 : Memref sig .tc .vmem S4x1x512 .f32) (harg5 : arg5.IsWhole)
    (arg6 : Memref sig .tc .vmem S4x512x1 .f32) (harg6 : arg6.IsWhole) (arg7 : Memref sig .tc .vmem S4x512x1 .f32) (harg7 : arg7.IsWhole)
    (h1 : ¬atFirst i) (h2 : atLast i)
    (x0 x1 : Vec F S4x512x3 .f32) (x2 : Vec F S4x512x1 .f32) (x3 : Vec F S4x1x512 .f32) (s : Vec F S4x512x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k1_pay2 x0 x1 x2 x3 s)
            ∗ owns (c : Thread nD τ) arg7 fullShare (k1_pay2 x0 x1 x2 x3 s)) -∗ K ⟨⟩))
      ⊢ wp frame (wpE (defs₀ (F := F)) Variants.none c none) E
          (cc1__nn_min_kernel i arg2 harg2 arg3 harg3 arg4 harg4 arg5 harg5 arg6 harg6 arg7 harg7) K := by
  simp only [cc1__nn_min_kernel_eq_skeleton]; unfold cc1__nn_min_kernel_skel
  unfold owns
  iintro ⟨⟨%f0, %hf0, H0⟩, ⟨%f1, %hf1, H1⟩, ⟨%f2, %hf2, H2⟩, ⟨%f3, %hf3, H3⟩, ⟨%d6, %f6, -, H6⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    sl_unfold_words
    rw [View.read_writes_eq_canon _ _ _ (fun y => ⟨_, List.mem_singleton_self _, View.mem_set_unit_zero zero3 Facts₀.inb_S4x512x1_S4x512x1_0_0_0 y⟩),
      View.canon_unit_zero zero3]
    simp only [View.readAt_eq_ld, harg2.read_unread, harg3.read_unread, harg4.read_unread, harg5.read_unread, harg7.read_unread,
      View.ld_unit_zero (S := S4x512x3) zero3, View.ld_unit_zero (S := S4x512x1) zero3, View.ld_unit_zero (S := S4x1x512) zero3]
    exact View.readCov_unit_zero (S := S4x512x1) _ zero3 _ _
  iexists _; isplitr
  swap; · iexact HS
  ipureintro
  sl_unfold_words
  rw [View.read_writes_eq_canon _ _ _ (fun y => ⟨_, List.mem_singleton_self _, View.mem_set_unit_zero zero3 Facts₀.inb_S4x512x1_S4x512x1_0_0_0 y⟩),
    View.canon_unit_zero zero3]
  simp only [View.readAt_eq_ld, harg2.read_unread, harg3.read_unread, harg4.read_unread, harg5.read_unread, harg7.read_unread,
      View.ld_unit_zero (S := S4x512x3) zero3, View.ld_unit_zero (S := S4x512x1) zero3, View.ld_unit_zero (S := S4x1x512) zero3]

end Cert.Kernel.Call1

end
-- ==== Proof.Bits.RunningMin1.lean ====
/-
  The second call across its grid. Over a row block's 16 tiles the scratch holds a running minimum: reset at the first
  tile, lowered by each tile's row minima, copied to the output block at the last. Here: the four blocks a point
  loads, read off the arrays as the call finds them; the running minimum after each point as a recursion on the point
  (`runMin`); the invariant that keeps the scratch at it between points (`carried`); the call's proof data; and the body
  obligation, by the three cases of a point.
-/
import proofs.«103544_j85478439125595_1_alg».proof.Proof.Bits.TileStep1

set_option maxRecDepth 16384

noncomputable section

namespace Cert.Kernel.Call1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The blocks a point loads -/

/-- Window `w`'s block at point `t`, read off its array as the call finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's points, the column tile's points, and their squared norms, at their literal types. -/
abbrev rowPts (c : Dev nD) (t : Fin cfg1.N) : Vec F S4x512x3 .f32 := blockAt V c 0 t
abbrev colPts (c : Dev nD) (t : Fin cfg1.N) : Vec F S4x512x3 .f32 := blockAt V c 1 t
abbrev rowSq (c : Dev nD) (t : Fin cfg1.N) : Vec F S4x512x1 .f32 := blockAt V c 2 t
abbrev colSq (c : Dev nD) (t : Fin cfg1.N) : Vec F S4x1x512 .f32 := blockAt V c 3 t

/-! An input window's staging buffer holds its block whenever the body runs, fetched at that point or not (an unfetched
    window's block index has not moved), for any proof data over these arrays whose body leaves the block in place. -/
theorem found_rowPts {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found_colPts {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found_rowSq {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found_colSq {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The running minimum -/

/-- One point's update of a running minimum `s`: the minimum of `s` and the tile's row minima. -/
def update (c : Dev nD) (t : Fin cfg1.N) (s : Vec F S4x512x1 .f32) : Vec F S4x512x1 .f32 :=
  k1_pay2 (rowPts V c t) (colPts V c t) (rowSq V c t) (colSq V c t) s

/-- What the scratch holds after point `n`: the update of the reset value at a row block's first tile, of what the
    point before left otherwise. -/
def runMin (c : Dev nD) : (n : ℕ) → n < cfg1.N → Vec F S4x512x1 .f32
  | 0, hn => update V c ⟨0, hn⟩ (k1_pay1 (F := F))
  | n + 1, hn => update V c ⟨n + 1, hn⟩ (if (n + 1) % 16 = 0 then k1_pay1 (F := F) else runMin c n (Nat.lt_of_succ_lt hn))

theorem runMin_first (c : Dev nD) (t : Fin cfg1.N) (h : t.val % 16 = 0) :
    runMin V c t.val t.isLt = update V c t (k1_pay1 (F := F)) := by
  obtain ⟨n, hn⟩ := t
  cases n with
  | zero => rfl
  | succ n =>
    show update V c ⟨n + 1, hn⟩ (if (n + 1) % 16 = 0 then k1_pay1 (F := F) else runMin V c n (Nat.lt_of_succ_lt hn)) = _
    rw [if_pos h]

theorem runMin_later (c : Dev nD) (t : Fin cfg1.N) (h : ¬t.val % 16 = 0) :
    runMin V c t.val t.isLt = update V c t (runMin V c (t.val - 1) (Nat.lt_of_le_of_lt (Nat.sub_le _ _) t.isLt)) := by
  obtain ⟨n, hn⟩ := t
  cases n with
  | zero => exact absurd (Nat.zero_mod _) h
  | succ n =>
    show update V c ⟨n + 1, hn⟩ (if (n + 1) % 16 = 0 then k1_pay1 (F := F) else runMin V c n (Nat.lt_of_succ_lt hn)) = _
    rw [if_neg h]; rfl

/-! ## The invariant between points -/

/-- The core's scoped buffers that are no staging buffer of this call: the scratch, at some contents, and the others. -/
theorem scoped_split (c : Dev nD) :
    (Pipeline.scopedRest (Ix := Unit) (Name := ℕ) (U := UR sig nD τ) (Lvl := ℕ) (Val := Elt F) spec1 c : sProp 𝕄)
      = iprop((∃ d, owns (c : Thread nD τ) scratch fullShare d) ∗ Pipeline.scopedRestBut (Ix := Unit) (Name := ℕ) (U := UR sig nD τ) (Lvl := ℕ) (Val := Elt F) spec1 c [cc1_scratch0]) := by
  rw [Pipeline.scopedRest_split_of_list spec1 c [cc1_scratch0] (by decide) (by decide)]
  simp only [BI.bigSepL_singleton, scratch, owns_whole]; try rfl

/-- Before position `n`: before the first point what the call is handed (every scoped buffer at anything, the generator
    register at some state); afterwards the same with the scratch at the running minimum the point before left. -/
def carried (c : Dev nD) : (n : ℕ) → n ≤ cfg1.N → sProp 𝕄
  | 0, _ => Pipeline.ΦA spec1 c
  | n + 1, hn => iprop(owns (c : Thread nD τ) scratch fullShare (runMin V c n hn) ∗ Pipeline.scopedRestBut (Ix := Unit) (Name := ℕ) (U := UR sig nD τ) (Lvl := ℕ) (Val := Elt F) spec1 c [cc1_scratch0] ∗ (∃ r, prngReg c r))

theorem carried_zero (c : Dev nD) (n : ℕ) (h : n ≤ cfg1.N) (hz : n = 0) : carried V c n h = Pipeline.ΦA spec1 c := by
  subst hz; rfl

theorem carried_succ (c : Dev nD) (n : ℕ) (hn : n < cfg1.N) :
    carried V c (n + 1) hn = iprop(owns (c : Thread nD τ) scratch fullShare (runMin V c n hn) ∗ Pipeline.scopedRestBut (Ix := Unit) (Name := ℕ) (U := UR sig nD τ) (Lvl := ℕ) (Val := Elt F) spec1 c [cc1_scratch0] ∗ (∃ r, prngReg c r)) := rfl

theorem carried_pos (c : Dev nD) (n : ℕ) (h : n ≤ cfg1.N) (hz : n ≠ 0) :
    carried V c n h = iprop(owns (c : Thread nD τ) scratch fullShare (runMin V c (n - 1) (by omega)) ∗ Pipeline.scopedRestBut (Ix := Unit) (Name := ℕ) (U := UR sig nD τ) (Lvl := ℕ) (Val := Elt F) spec1 c [cc1_scratch0] ∗ (∃ r, prngReg c r)) := by
  cases n with
  | zero => exact absurd rfl hz
  | succ n => rfl

/-- At any position the invariant yields the scratch at SOME contents beside the rest: all a row block's first tile needs. -/
theorem carried_forget (c : Dev nD) (n : ℕ) (h : n ≤ cfg1.N) :
    carried V c n h ⊢ (iprop((∃ d, owns (c : Thread nD τ) scratch fullShare d) ∗ Pipeline.scopedRestBut (Ix := Unit) (Name := ℕ) (U := UR sig nD τ) (Lvl := ℕ) (Val := Elt F) spec1 c [cc1_scratch0] ∗ (∃ r, prngReg c r)) : sProp 𝕄) := by
  cases n with
  | zero =>
    show Pipeline.ΦA spec1 c ⊢ _
    unfold Pipeline.ΦA; rw [scoped_split]
    iintro ⟨⟨HS, Hb⟩, Hg⟩
    isplitl [HS]; · iexact HS
    isplitl [Hb]; · iexact Hb
    iexact Hg
  | succ n =>
    rw [carried_succ]
    iintro ⟨HS, Hb, Hg⟩
    isplitl [HS]; · iexists _; iexact HS
    isplitl [Hb]; · iexact Hb
    iexact Hg

/-- And so gives back what the call was handed. -/
theorem carried_close (c : Dev nD) (n : ℕ) (h : n ≤ cfg1.N) : carried V c n h ⊢ (Pipeline.ΦA spec1 c : sProp 𝕄) := by
  refine (carried_forget V c n h).trans ?_
  unfold Pipeline.ΦA; rw [scoped_split]
  iintro ⟨HS, Hb, Hg⟩
  isplitl [HS Hb]
  · isplitl [HS]; · iexact HS
    iexact Hb
  iexact Hg

/-! ## The call's proof data -/

/-- The arrays as the call finds them; after the body at point `t` each input's buffer at its block and the output's at
    the running minimum (written back only at a row block's last tile, not consulted elsewhere); the invariant
    `carried`; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => runMin V c t.val t.isLt
  Φ t := carried V c t.val (Nat.le_of_lt_succ t.isLt)
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blockAt V c 0 t := by dsimp only [dat]
theorem after_1 (c : Dev nD) (t : Fin cfg1.N) : (dat V c).after 1 t = blockAt V c 1 t := by dsimp only [dat]
theorem after_2 (c : Dev nD) (t : Fin cfg1.N) : (dat V c).after 2 t = blockAt V c 2 t := by dsimp only [dat]
theorem after_3 (c : Dev nD) (t : Fin cfg1.N) : (dat V c).after 3 t = blockAt V c 3 t := by dsimp only [dat]
theorem after_4 (c : Dev nD) (t : Fin cfg1.N) : (dat V c).after 4 t = runMin V c t.val t.isLt := by dsimp only [dat]

theorem before_0 (c : Dev nD) (t : Fin cfg1.N) (d) : (dat V c).before 0 t d = blockAt V c 0 t :=
  found_rowPts V (dat V c) (A_eq V c 0) (after_0 V c) t d
theorem before_1 (c : Dev nD) (t : Fin cfg1.N) (d) : (dat V c).before 1 t d = blockAt V c 1 t :=
  found_colPts V (dat V c) (A_eq V c 1) (after_1 V c) t d
theorem before_2 (c : Dev nD) (t : Fin cfg1.N) (d) : (dat V c).before 2 t d = blockAt V c 2 t :=
  found_rowSq V (dat V c) (A_eq V c 2) (after_2 V c) t d
theorem before_3 (c : Dev nD) (t : Fin cfg1.N) (d) : (dat V c).before 3 t d = blockAt V c 3 t :=
  found_colSq V (dat V c) (A_eq V c 3) (after_3 V c) t d

theorem Phi_castSucc (c : Dev nD) (t : Fin cfg1.N) : (dat V c).Φ t.castSucc = carried V c t.val (Nat.le_of_lt t.isLt) := by
  dsimp only [dat]; simp only [Fin.coe_castSucc]

theorem Phi_zero (c : Dev nD) : (dat V c).Φ 0 = Pipeline.ΦA spec1 c := rfl

theorem Phi_last_close (c : Dev nD) : (dat V c).Φ (Fin.last cfg1.N) ⊢ (Pipeline.ΦA spec1 c : sProp 𝕄) := by
  rw [show (dat V c).Φ (Fin.last cfg1.N) = carried V c (Fin.last cfg1.N).val (Nat.le_of_lt_succ (Fin.last cfg1.N).isLt) from rfl]
  exact carried_close V c _ _

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves_0 (c : Dev nD) (t : Fin cfg1.N) :
    (dat V c).leavesExact 0 t = owns (c : Thread nD τ) (st1_0 t) fullShare (blockAt V c 0 t) := by
  unfold Dat.leavesExact; rw [live_0 t, after_0]
theorem leaves_1 (c : Dev nD) (t : Fin cfg1.N) :
    (dat V c).leavesExact 1 t = owns (c : Thread nD τ) (st1_1 t) fullShare (blockAt V c 1 t) := by
  unfold Dat.leavesExact; rw [live_1 t, after_1]
theorem leaves_2 (c : Dev nD) (t : Fin cfg1.N) :
    (dat V c).leavesExact 2 t = owns (c : Thread nD τ) (st1_2 t) fullShare (blockAt V c 2 t) := by
  unfold Dat.leavesExact; rw [live_2 t, after_2]
theorem leaves_3 (c : Dev nD) (t : Fin cfg1.N) :
    (dat V c).leavesExact 3 t = owns (c : Thread nD τ) (st1_3 t) fullShare (blockAt V c 3 t) := by
  unfold Dat.leavesExact; rw [live_3 t, after_3]

set_option maxHeartbeats 4000000 in
/-- The body at any point. Its inputs' buffers hold their blocks; the point's position in its row block says which case it
    is in. At a first tile the invariant is asked only for the scratch at some contents, elsewhere for the running
    minimum the point before left; either way it takes the scratch back at this point's running minimum. The output
    block is handed back untouched but at a last tile, where it is left at the running minimum. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl,
    show (dat V c).Φ t.succ = carried V c (t.val + 1) t.isLt from rfl, carried_succ,
    leaves_0, leaves_1, leaves_2, leaves_3, Phi_castSucc]
  have hN : t.val < 256 := lt_of_lt_of_eq t.isLt (show cfg1.N = 256 from N_1)
  by_cases hF : t.val % 16 = 0
  · -- a row block's first tile
    have hL : ¬t.val % 16 = 15 := by omega
    have hl : ¬atLast (grid1.coords t) := fun h => hL ((atLast_iff t).mp h)
    rw [Dat.leavesExact_idle (dat V c) 4 t (idle_out t hl) (noFlush_out t hl), runMin_first V c t hF]
    iintro ⟨HΦ, Ho, ⟨%d0, H0⟩, ⟨%d1, H1⟩, ⟨%d2, H2⟩, ⟨%d3, H3⟩, ⟨%d4, H4⟩⟩
    ihave HΦ' := (carried_forget V c t.val (Nat.le_of_lt t.isLt)) $$ HΦ
    icases HΦ' with ⟨HS, Hb, Hg⟩
    iapply (run_first c Set.univ (grid1.coords t) _ _ _ _ _ _ _ _ _ _ _ _ ((atFirst_iff t).mpr hF) hl (rowPts V c t) (colPts V c t) (rowSq V c t) (colSq V c t) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hb Hg]
    · isplitl [HS]; · iexact HS
      isplitl [Hb]; · iexact Hb
      iexact Hg
    isplitl [Ho]; · iexact Ho
    isplitl [H0]; · iexact H0
    isplitl [H1]; · iexact H1
    isplitl [H2]; · iexact H2
    isplitl [H3]; · iexact H3
    iexists _; iexact H4
  · have hf : ¬atFirst (grid1.coords t) := fun h => hF ((atFirst_iff t).mp h)
    have hz : t.val ≠ 0 := fun h => hF (by rw [h])
    rw [carried_pos V c _ _ hz, runMin_later V c t hF]
    by_cases hL : t.val % 16 = 15
    · -- a row block's last tile
      have hl : atLast (grid1.coords t) := (atLast_iff t).mpr hL
      rw [show (dat V c).leavesExact 4 t = owns (c : Thread nD τ) (st1_4 t) fullShare ((dat V c).after 4 t) from by
        unfold Dat.leavesExact; rw [live_out t hl], after_4, runMin_later V c t hF]
      iintro ⟨⟨HS, Hb, Hg⟩, Ho, ⟨%d0, H0⟩, ⟨%d1, H1⟩, ⟨%d2, H2⟩, ⟨%d3, H3⟩, ⟨%d4, H4⟩⟩
      iapply (run_last c Set.univ (grid1.coords t) _ _ _ _ _ _ _ _ _ _ _ _ hf hl (rowPts V c t) (colPts V c t) (rowSq V c t) (colSq V c t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hb Hg]
      · isplitl [HS]; · iexact HS
        isplitl [Hb]; · iexact Hb
        iexact Hg
      isplitl [Ho]; · iexact Ho
      isplitl [H0]; · iexact H0
      isplitl [H1]; · iexact H1
      isplitl [H2]; · iexact H2
      isplitl [H3]; · iexact H3
      iexact H4
    · -- a middle tile
      have hl : ¬atLast (grid1.coords t) := fun h => hL ((atLast_iff t).mp h)
      rw [Dat.leavesExact_idle (dat V c) 4 t (idle_out t hl) (noFlush_out t hl)]
      iintro ⟨⟨HS, Hb, Hg⟩, Ho, ⟨%d0, H0⟩, ⟨%d1, H1⟩, ⟨%d2, H2⟩, ⟨%d3, H3⟩, ⟨%d4, H4⟩⟩
      iapply (run_middle c Set.univ (grid1.coords t) _ _ _ _ _ _ _ _ _ _ _ _ hf hl (rowPts V c t) (colPts V c t) (rowSq V c t) (colSq V c t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hb Hg]
      · isplitl [HS]; · iexact HS
        isplitl [Hb]; · iexact Hb
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Call1

end
-- ==== Proof.Bits.TwoCalls.lean ====
/-
  The whole program: host operations, the first call, host operations, the second call, host operations. Each call is a
  record of the several-calls launch: its layout, its body obligation, and how the thread state "every unscoped buffer at
  known contents, the generator register at some state, nothing owed" passes into its invariant and out. The contents
  between items are the generated valuations `V0 … V5`, with what the two calls leave in their result arrays
  (`left0`, `left1`: the write-backs of their running minima) in the places of the unknowns. The launch then says that
  every execution ends with every unscoped buffer at `V5`: the arguments as launched (the frame), the result named.
-/
import proofs.«103544_j85478439125595_1_alg».proof.Proof.Bits.RunningMin0
import proofs.«103544_j85478439125595_1_alg».proof.Proof.Bits.RunningMin1
import proofs.«103544_j85478439125595_1_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (HostSeg RegionSeg Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two calls leave in their result arrays -/

/-- The buffers as the first call finds them: the launch memory after the first stretch of host operations. -/
abbrev entry0 : (c : Dev nD) → (b : Ref sig .tc) → Buf (Elt F) ((c : Thread nD τ).loc b) := fun c b => V1 m c b
/-- What the first call leaves in its result array: its output window's write-backs, folded. -/
def left0 (c : Dev nD) : Buf (Elt F) ((c : Thread nD τ).loc main_v6) := (Call0.dat (entry0 m) c).arrAt 4 cfg0.N
/-- The unknowns of the generated valuations with the first call's result in place. -/
def outs₀ : Outs (F := F) := fun _ r c => if h : r = main_v6 then h ▸ left0 m c else m ((c : Thread nD τ).loc r)
/-- The buffers as the second call finds them. -/
abbrev entry1 : (c : Dev nD) → (b : Ref sig .tc) → Buf (Elt F) ((c : Thread nD τ).loc b) := fun c b => V3 m (outs₀ m) c b
/-- What the second call leaves in its result array. -/
def left1 (c : Dev nD) : Buf (Elt F) ((c : Thread nD τ).loc main_v14) := (Call1.dat (entry1 m) c).arrAt 4 cfg1.N
/-- The unknowns with both results in place. -/
def outs : Outs (F := F) := fun j r c =>
  if j = 4 then (if h : r = main_v14 then h ▸ left1 m c else m ((c : Thread nD τ).loc r)) else outs₀ m j r c

theorem outs₀_at (j : ℕ) (c : Dev nD) : outs₀ m j main_v6 c = left0 m c := by
  unfold outs₀; exact dif_pos rfl
theorem outs_at2 (c : Dev nD) : outs m 2 main_v6 c = left0 m c := by
  unfold outs; rw [if_neg (by decide)]; exact outs₀_at m 2 c
theorem outs_at4 (c : Dev nD) : outs m 4 main_v14 c = left1 m c := by
  unfold outs; rw [if_pos rfl]; exact dif_pos rfl
/-- The second call's entry contents do not depend on what it will leave. -/
theorem V2_outs (c : Dev nD) : V2 m (outs m) c = V2 m (outs₀ m) c := by
  show Function.update (V1 m c) main_v6 (outs m 2 main_v6 c) = Function.update (V1 m c) main_v6 (outs₀ m 2 main_v6 c)
  rw [outs_at2, outs₀_at]
theorem V3_outs (c : Dev nD) : V3 m (outs m) c = V3 m (outs₀ m) c := by
  show StableHlo.after hostOps1 (V2 m (outs m) c) = StableHlo.after hostOps1 (V2 m (outs₀ m) c)
  rw [V2_outs]

/-! ## The proof data family and the thread state -/

/-- Every call's proof data, each at its entry contents. -/
def pdats : (p : Fin 2) → (c : Dev nD) → Dat τ (Elt F) Unit ℕ (UR sig nD τ) ℕ (cfgs p) c
  | ⟨0, _⟩ => fun c => Call0.dat (entry0 m) c
  | ⟨1, _⟩ => fun c => Call1.dat (entry1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)

/-! ## Each call's arrays at its exit -/

/-- After the first call each of its arrays holds what the write-backs leave: an input what it held, the result `left0`. -/
theorem left_by0 (c : Dev nD) (w : Fin cfg0.W) :
    (pdats m 0 c).arrAt w cfg0.N = (fun b : Ref sig .tc => V2 m (outs m) c b) (Pipeline.arrRef spec0 w) := by
  show (Call0.dat (entry0 m) c).arrAt w cfg0.N = _
  match w with
  | ⟨0, _⟩ => exact ((Call0.dat _ c).arrAt_in 0 rfl _).trans ((Call0.A_eq _ c 0).trans (V2_of m (outs m) c main_arg0 (by decide)).symm)
  | ⟨1, _⟩ => exact ((Call0.dat _ c).arrAt_in 1 rfl _).trans ((Call0.A_eq _ c 1).trans (V2_of m (outs m) c main_arg1 (by decide)).symm)
  | ⟨2, _⟩ => exact ((Call0.dat _ c).arrAt_in 2 rfl _).trans ((Call0.A_eq _ c 2).trans (V2_of m (outs m) c main_v2 (by decide)).symm)
  | ⟨3, _⟩ => exact ((Call0.dat _ c).arrAt_in 3 rfl _).trans ((Call0.A_eq _ c 3).trans (V2_of m (outs m) c main_v5 (by decide)).symm)
  | ⟨4, _⟩ =>
    show _ = Function.update (V1 m c) main_v6 (outs m 2 main_v6 c) main_v6
    rw [Function.update_self, outs_at2]; rfl
/-- and every other unscoped buffer what it held. -/
theorem kept_by0 (c : Dev nD) : ∀ b : Ref sig .tc, b ∉ Finset.univ.image (Pipeline.arrRef spec0) → V2 m (outs m) c b = entry0 m c b :=
  fun b hb => V2_of m (outs m) c b (by
    intro h; rw [List.mem_singleton] at h; subst h
    exact hb (Finset.mem_image.mpr ⟨4, Finset.mem_univ _, rfl⟩))

/-- The same for the second call. -/
theorem left_by1 (c : Dev nD) (w : Fin cfg1.W) :
    (pdats m 1 c).arrAt w cfg1.N = (fun b : Ref sig .tc => V4 m (outs m) c b) (Pipeline.arrRef spec1 w) := by
  show (Call1.dat (entry1 m) c).arrAt w cfg1.N = _
  match w with
  | ⟨0, _⟩ => exact ((Call1.dat _ c).arrAt_in 0 rfl _).trans ((Call1.A_eq _ c 0).trans (((V4_of m (outs m) c main_arg1 (by decide)).trans (congrFun (V3_outs m c) _)).symm))
  | ⟨1, _⟩ => exact ((Call1.dat _ c).arrAt_in 1 rfl _).trans ((Call1.A_eq _ c 1).trans (((V4_of m (outs m) c main_arg0 (by decide)).trans (congrFun (V3_outs m c) _)).symm))
  | ⟨2, _⟩ => exact ((Call1.dat _ c).arrAt_in 2 rfl _).trans ((Call1.A_eq _ c 2).trans (((V4_of m (outs m) c main_v10 (by decide)).trans (congrFun (V3_outs m c) _)).symm))
  | ⟨3, _⟩ => exact ((Call1.dat _ c).arrAt_in 3 rfl _).trans ((Call1.A_eq _ c 3).trans (((V4_of m (outs m) c main_v13 (by decide)).trans (congrFun (V3_outs m c) _)).symm))
  | ⟨4, _⟩ =>
    show _ = Function.update (V3 m (outs m) c) main_v14 (outs m 4 main_v14 c) main_v14
    rw [Function.update_self, outs_at4]; rfl
theorem kept_by1 (c : Dev nD) : ∀ b : Ref sig .tc, b ∉ Finset.univ.image (Pipeline.arrRef spec1) → V4 m (outs m) c b = entry1 m c b :=
  fun b hb => (V4_of m (outs m) c b (by
    intro h; rw [List.mem_singleton] at h; subst h
    exact hb (Finset.mem_image.mpr ⟨4, Finset.mem_univ _, rfl⟩))).trans (congrFun (V3_outs m c) _)

/-! ## The calls as segments -/

set_option backward.isDefEq.respectTransparency.types false in
/-- Call 0 as a segment of @main: entered with every unscoped buffer at `V1 m`, left with them at `V2 m (outs m)`. Its
    arrays are split out of the unscoped buffers and put back at what the write-backs leave; the generator register
    goes into the call's invariant and comes back; nothing is owed; the kernel has no semaphore of its own. -/
def call0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Call0.body_obligation (entry0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from Call0.Phi_last_close (entry0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b : Ref sig .tc => V2 m (outs m) c b) ((pdats m 0 c).arrAt · cfg0.N) (left_by0 m c) (kept_by0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of @main: entered with every unscoped buffer at `V3 m (outs₀ m)`, left with them at `V4 m (outs m)`. Its
    arrays are split out of the unscoped buffers and put back at what the write-backs leave; the generator register
    goes into the call's invariant and comes back; nothing is owed; the kernel has no semaphore of its own. -/
def call1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Call1.body_obligation (entry1 m) c).loose
  hwaits := Pipeline.hwaits_of_owed_zero _ _ _ _ L lv 1 fun _ _ => rfl
  pre c := iprop(StableHlo.held (c : Thread nD τ) (Pipeline.ucRefs τ sig) (V3 m (outs₀ m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from Call1.Phi_last_close (entry1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (fun b : Ref sig .tc => V4 m (outs m) c b) ((pdats m 1 c).arrAt · cfg1.N) (left_by1 m c) (kept_by1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The second call is entered from what the host operations before it leave: those contents do not depend on what the
    second call will leave. -/
theorem enter1_eq (c : Dev nD) :
    (iprop(StableHlo.held (c : Thread nD τ) (Pipeline.ucRefs τ sig) (V3 m (outs m) c) ∗ R c) : sProp 𝕄)
      = iprop(StableHlo.held (c : Thread nD τ) (Pipeline.ucRefs τ sig) (V3 m (outs₀ m) c) ∗ R c) := by
  rw [V3_outs m c]

set_option backward.isDefEq.respectTransparency.types false in
/-- From any memory with zero counters every weakly fair execution of @main terminates, nothing faulting, and ends with
    every unscoped buffer of every core at `V5`: the launch memory carried through the three stretches of host
    operations and the two calls. -/
theorem run_all : θ_run defs (onTc (τ := τ) (main (F := F))) ⟨m, fun _ => 0, ρ⟩
    (fun r => ∀ c : Dev nD, ∀ b ∈ Pipeline.ucRefs τ sig, r.2.mem (((c : Thread nD τ)).1, b) = V5 m (outs m) c b) :=
  Pipeline.θ_run_regions_kit_dev (pcfgs (F := F)) adm (pdats m) () cellOf_inj emb₁ defs₀ 𝒱₀ L lv m ρ main
    (segs m (outs m) 𝒱₀ L lv (fun _ => R) () (pdats m) (call0 m) (call1 m))
    (fun c Q => by
      rewrite [main_chain c, Seg.run_eq_chain,
        show (segs m (outs m) 𝒱₀ L lv (fun _ => R) () (pdats m) (call0 m) (call1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V5 m (outs m) c) ∗ ∃ r, prngReg c r))
    (hch := fun c => ⟨.rfl, .rfl, .rfl, BIBase.Entails.of_eq (enter1_eq m c), .rfl, by
      show (iprop(StableHlo.held (c : Thread nD τ) (Pipeline.ucRefs τ sig) (V5 m (outs m) c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V5 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V5 m (outs m) c) s')
      isplitl [Hh] <;> iassumption)
    (hQ := fun _ h => h)

/-- THE FRAME: the arguments end as launched — no host operation writes one and no call may change one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (V5_main_arg0 m (outs m) c),
      (h c _ (mem_uc main_arg1 (by decide))).trans (V5_main_arg1 m (outs m) c)⟩) (run_all m ρ)

/-- The same run with the result named: it ends at `V5`'s value of the result buffer, the arguments as launched. -/
theorem run_result : θ_run defs (onTc (τ := τ) (main (F := F))) ⟨m, fun _ => 0, ρ⟩ (fun r => ∀ c : Dev nD,
      r.2.mem ((c.tc : Thread nD τ).loc main_v20) = V5 m (outs m) c main_v20
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v20 (by decide)),
      (h c _ (mem_uc main_arg0 (by decide))).trans (V5_main_arg0 m (outs m) c),
      (h c _ (mem_uc main_arg1 (by decide))).trans (V5_main_arg1 m (outs m) c)⟩) (run_all m ρ)

end Cert.Kernel.Whole

end
-- ==== Proof.TileStep0.lean ====
/-
  One grid point of the first call. The grid is 16 row blocks by 16 column tiles, the point t at row block t / 16
  and column tile t % 16. At a point the body resets its scratch to +∞ when the tile is the row block's first,
  then replaces the scratch by the minimum of the scratch and the tile's row minima (the payload `k0_pay2` of the four
  blocks it loads and of what the scratch held), and copies the scratch to the output block when the tile is the row
  block's last. Here: the two branch conditions in closed form over the grid, where the output window is idle, and the
  body's run in each of the three cases a point can be in, each output stated as a payload of the loaded blocks.
-/
import proofs.«103544_j85478439125595_1_alg».proof.Proof.Gen.KernelIdeal.Launch
import proofs.«103544_j85478439125595_1_alg».proof.Proof.Gen.KernelIdeal.Skeleton
import proofs.«103544_j85478439125595_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, over the grid -/

/-- "This tile is the first of its row block": the body's first `scf.if`, its scalar chain substituted. -/
abbrev atFirst (i : grid0.Coords) : Prop :=
  (Scalar.cmpi .ne (Scalar.extui (Scalar.cmpi .eq (BitVec.ofNat 32 (i 1).val) 0#32)) 0#32) = 1#1
/-- "This tile is the last of its row block": the body's second `scf.if`. -/
abbrev atLast (i : grid0.Coords) : Prop := k0_cond2 i = 1#1

/-- The first tile of a row block is the point ≡ 0 (mod 16); decided over the 256 points. -/
theorem atFirst_iff : ∀ t : Fin cfg0.N, atFirst (grid0.coords t) ↔ t.val % 16 = 0 :=
  (by decide +kernel : ∀ t : Fin grid0.N, atFirst (grid0.coords t) ↔ t.val % 16 = 0)
/-- The last is the point ≡ 15 (mod 16). -/
theorem atLast_iff : ∀ t : Fin cfg0.N, atLast (grid0.coords t) ↔ t.val % 16 = 15 :=
  (by decide +kernel : ∀ t : Fin grid0.N, atLast (grid0.coords t) ↔ t.val % 16 = 15)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
/-- The output window is idle, and not written back, at every tile but a row block's last; -/
theorem idle_out : ∀ t : Fin cfg0.N, ¬atLast (grid0.coords t) → cfg0.idle 4 (grid0.coords t) = true := by decide +kernel
theorem noFlush_out : ∀ t : Fin cfg0.N, ¬atLast (grid0.coords t) → (cfg0.win 4).flush t = false := by decide +kernel
/-- and live at the last. -/
theorem live_out : ∀ t : Fin cfg0.N, atLast (grid0.coords t) → cfg0.idle 4 (grid0.coords t) = false := by decide +kernel

/-! ## The scratch -/

/-- The body's scratch operand: the running minimum of the current row block, one value per row. -/
abbrev scratch : Memref sig .tc .vmem S4x512x1 .f32 := Memref.whole cc0_scratch0

/-- Every load and store of the body is through the whole-buffer rectangle at zero offsets. -/
theorem zero3 : (![0, 0, 0] : Fin 3 → Nat) = fun _ => 0 := by
  funext a; match a with | ⟨0, _⟩ => rfl | ⟨1, _⟩ => rfl | ⟨2, _⟩ => rfl

/-! ## The body, case by case -/

set_option maxHeartbeats 1000000 in
/-- A middle tile (neither first nor last): the scratch, found at `s`, is left at the payload of the four blocks and `s`;
    the output block is not touched. -/
theorem run_middle (c : Dev nD) (E : Set ℕ) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4x512x1 .f32) (harg4 : arg4.IsWhole) (arg5 : Memref sig .tc .vmem S4x1x512 .f32) (harg5 : arg5.IsWhole)
    (arg6 : Memref sig .tc .vmem S4x512x1 .f32) (harg6 : arg6.IsWhole) (arg7 : Memref sig .tc .vmem S4x512x1 .f32) (harg7 : arg7.IsWhole)
    (h1 : ¬atFirst i) (h2 : ¬atLast i)
    (x0 x1 : Vec F S4x512x3 .f32) (x2 : Vec F S4x512x1 .f32) (x3 : Vec F S4x1x512 .f32) (s : Vec F S4x512x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare (k0_pay2 x0 x1 x2 x3 s)) -∗ K ⟨⟩))
      ⊢ wp frame (wpE (defs₀ (F := F)) Variants.none c none) E
          (cc0__nn_min_kernel i arg2 harg2 arg3 harg3 arg4 harg4 arg5 harg5 arg6 harg6 arg7 harg7) K := by
  simp only [cc0__nn_min_kernel_eq_skeleton]; unfold cc0__nn_min_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [View.read_writes_eq_canon _ _ _ (fun y => ⟨_, List.mem_singleton_self _, View.mem_set_unit_zero zero3 Facts₀.inb_S4x512x1_S4x512x1_0_0_0 y⟩),
    View.canon_unit_zero zero3]
  simp only [View.readAt_eq_ld, harg2.read_unread, harg3.read_unread, harg4.read_unread, harg5.read_unread, harg7.read_unread,
      View.ld_unit_zero (S := S4x512x3) zero3, View.ld_unit_zero (S := S4x512x1) zero3, View.ld_unit_zero (S := S4x1x512) zero3]

set_option maxHeartbeats 1000000 in
/-- The first tile of a row block: the scratch, found at anything, is reset to `k0_pay1` (the +∞ word everywhere) and
    then left at the payload of the four blocks and that reset value. -/
theorem run_first (c : Dev nD) (E : Set ℕ) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4x512x1 .f32) (harg4 : arg4.IsWhole) (arg5 : Memref sig .tc .vmem S4x1x512 .f32) (harg5 : arg5.IsWhole)
    (arg6 : Memref sig .tc .vmem S4x512x1 .f32) (harg6 : arg6.IsWhole) (arg7 : Memref sig .tc .vmem S4x512x1 .f32) (harg7 : arg7.IsWhole)
    (h1 : atFirst i) (h2 : ¬atLast i)
    (x0 x1 : Vec F S4x512x3 .f32) (x2 : Vec F S4x512x1 .f32) (x3 : Vec F S4x1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare (k0_pay2 x0 x1 x2 x3 (k0_pay1 (F := F)))) -∗ K ⟨⟩))
      ⊢ wp frame (wpE (defs₀ (F := F)) Variants.none c none) E
          (cc0__nn_min_kernel i arg2 harg2 arg3 harg3 arg4 harg4 arg5 harg5 arg6 harg6 arg7 harg7) K := by
  simp only [cc0__nn_min_kernel_eq_skeleton]; unfold cc0__nn_min_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (fun y => ⟨_, List.mem_cons_self, View.mem_set_unit_zero zero3 Facts₀.inb_S4x512x1_S4x512x1_0_0_0 y⟩),
    View.canon_cons_unit_zero zero3]
  simp only [View.readAt_eq_ld, harg2.read_unread, harg3.read_unread, harg4.read_unread, harg5.read_unread,
      View.ld_unit_zero (S := S4x512x3) zero3, View.ld_unit_zero (S := S4x512x1) zero3, View.ld_unit_zero (S := S4x1x512) zero3]
  exact congrArg (k0_pay2 x0 x1 x2 x3) (View.readCov_unit_zero (S := S4x512x1) _ zero3 _ _)

set_option maxHeartbeats 1000000 in
/-- The last tile of a row block: the scratch is updated as at a middle tile, and the output block, found at anything,
    is left at the updated scratch. -/
theorem run_last (c : Dev nD) (E : Set ℕ) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4x512x1 .f32) (harg4 : arg4.IsWhole) (arg5 : Memref sig .tc .vmem S4x1x512 .f32) (harg5 : arg5.IsWhole)
    (arg6 : Memref sig .tc .vmem S4x512x1 .f32) (harg6 : arg6.IsWhole) (arg7 : Memref sig .tc .vmem S4x512x1 .f32) (harg7 : arg7.IsWhole)
    (h1 : ¬atFirst i) (h2 : atLast i)
    (x0 x1 : Vec F S4x512x3 .f32) (x2 : Vec F S4x512x1 .f32) (x3 : Vec F S4x1x512 .f32) (s : Vec F S4x512x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k0_pay2 x0 x1 x2 x3 s)
            ∗ owns (c : Thread nD τ) arg7 fullShare (k0_pay2 x0 x1 x2 x3 s)) -∗ K ⟨⟩))
      ⊢ wp frame (wpE (defs₀ (F := F)) Variants.none c none) E
          (cc0__nn_min_kernel i arg2 harg2 arg3 harg3 arg4 harg4 arg5 harg5 arg6 harg6 arg7 harg7) K := by
  simp only [cc0__nn_min_kernel_eq_skeleton]; unfold cc0__nn_min_kernel_skel
  unfold owns
  iintro ⟨⟨%f0, %hf0, H0⟩, ⟨%f1, %hf1, H1⟩, ⟨%f2, %hf2, H2⟩, ⟨%f3, %hf3, H3⟩, ⟨%d6, %f6, -, H6⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    sl_unfold_words
    rw [View.read_writes_eq_canon _ _ _ (fun y => ⟨_, List.mem_singleton_self _, View.mem_set_unit_zero zero3 Facts₀.inb_S4x512x1_S4x512x1_0_0_0 y⟩),
      View.canon_unit_zero zero3]
    simp only [View.readAt_eq_ld, harg2.read_unread, harg3.read_unread, harg4.read_unread, harg5.read_unread, harg7.read_unread,
      View.ld_unit_zero (S := S4x512x3) zero3, View.ld_unit_zero (S := S4x512x1) zero3, View.ld_unit_zero (S := S4x1x512) zero3]
    exact View.readCov_unit_zero (S := S4x512x1) _ zero3 _ _
  iexists _; isplitr
  swap; · iexact HS
  ipureintro
  sl_unfold_words
  rw [View.read_writes_eq_canon _ _ _ (fun y => ⟨_, List.mem_singleton_self _, View.mem_set_unit_zero zero3 Facts₀.inb_S4x512x1_S4x512x1_0_0_0 y⟩),
    View.canon_unit_zero zero3]
  simp only [View.readAt_eq_ld, harg2.read_unread, harg3.read_unread, harg4.read_unread, harg5.read_unread, harg7.read_unread,
      View.ld_unit_zero (S := S4x512x3) zero3, View.ld_unit_zero (S := S4x512x1) zero3, View.ld_unit_zero (S := S4x1x512) zero3]

end Cert.KernelIdeal.Call0

end
-- ==== Proof.RunningMin0.lean ====
/-
  The first call across its grid. Over a row block's 16 tiles the scratch holds a running minimum: reset at the first
  tile, lowered by each tile's row minima, copied to the output block at the last. Here: the four blocks a point
  loads, read off the arrays as the call finds them; the running minimum after each point as a recursion on the point
  (`runMin`); the invariant that keeps the scratch at it between points (`carried`); the call's proof data; and the body
  obligation, by the three cases of a point.
-/
import proofs.«103544_j85478439125595_1_alg».proof.Proof.TileStep0

set_option maxRecDepth 16384

noncomputable section

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The blocks a point loads -/

/-- Window `w`'s block at point `t`, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's points, the column tile's points, and their squared norms, at their literal types. -/
abbrev rowPts (c : Dev nD) (t : Fin cfg0.N) : Vec F S4x512x3 .f32 := blockAt V c 0 t
abbrev colPts (c : Dev nD) (t : Fin cfg0.N) : Vec F S4x512x3 .f32 := blockAt V c 1 t
abbrev rowSq (c : Dev nD) (t : Fin cfg0.N) : Vec F S4x512x1 .f32 := blockAt V c 2 t
abbrev colSq (c : Dev nD) (t : Fin cfg0.N) : Vec F S4x1x512 .f32 := blockAt V c 3 t

/-! An input window's staging buffer holds its block whenever the body runs, fetched at that point or not (an unfetched
    window's block index has not moved), for any proof data over these arrays whose body leaves the block in place. -/
theorem found_rowPts {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found_colPts {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found_rowSq {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found_colSq {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The running minimum -/

/-- One point's update of a running minimum `s`: the minimum of `s` and the tile's row minima. -/
def update (c : Dev nD) (t : Fin cfg0.N) (s : Vec F S4x512x1 .f32) : Vec F S4x512x1 .f32 :=
  k0_pay2 (rowPts V c t) (colPts V c t) (rowSq V c t) (colSq V c t) s

/-- What the scratch holds after point `n`: the update of the reset value at a row block's first tile, of what the
    point before left otherwise. -/
def runMin (c : Dev nD) : (n : ℕ) → n < cfg0.N → Vec F S4x512x1 .f32
  | 0, hn => update V c ⟨0, hn⟩ (k0_pay1 (F := F))
  | n + 1, hn => update V c ⟨n + 1, hn⟩ (if (n + 1) % 16 = 0 then k0_pay1 (F := F) else runMin c n (Nat.lt_of_succ_lt hn))

theorem runMin_first (c : Dev nD) (t : Fin cfg0.N) (h : t.val % 16 = 0) :
    runMin V c t.val t.isLt = update V c t (k0_pay1 (F := F)) := by
  obtain ⟨n, hn⟩ := t
  cases n with
  | zero => rfl
  | succ n =>
    show update V c ⟨n + 1, hn⟩ (if (n + 1) % 16 = 0 then k0_pay1 (F := F) else runMin V c n (Nat.lt_of_succ_lt hn)) = _
    rw [if_pos h]

theorem runMin_later (c : Dev nD) (t : Fin cfg0.N) (h : ¬t.val % 16 = 0) :
    runMin V c t.val t.isLt = update V c t (runMin V c (t.val - 1) (Nat.lt_of_le_of_lt (Nat.sub_le _ _) t.isLt)) := by
  obtain ⟨n, hn⟩ := t
  cases n with
  | zero => exact absurd (Nat.zero_mod _) h
  | succ n =>
    show update V c ⟨n + 1, hn⟩ (if (n + 1) % 16 = 0 then k0_pay1 (F := F) else runMin V c n (Nat.lt_of_succ_lt hn)) = _
    rw [if_neg h]; rfl

/-! ## The invariant between points -/

/-- The core's scoped buffers that are no staging buffer of this call: the scratch, at some contents, and the others. -/
theorem scoped_split (c : Dev nD) :
    (Pipeline.scopedRest (Ix := Unit) (Name := ℕ) (U := UR sig nD τ) (Lvl := ℕ) (Val := Elt F) spec0 c : sProp 𝕄)
      = iprop((∃ d, owns (c : Thread nD τ) scratch fullShare d) ∗ Pipeline.scopedRestBut (Ix := Unit) (Name := ℕ) (U := UR sig nD τ) (Lvl := ℕ) (Val := Elt F) spec0 c [cc0_scratch0]) := by
  rw [Pipeline.scopedRest_split_of_list spec0 c [cc0_scratch0] (by decide) (by decide)]
  simp only [BI.bigSepL_singleton, scratch, owns_whole]; try rfl

/-- Before position `n`: before the first point what the call is handed (every scoped buffer at anything, the generator
    register at some state); afterwards the same with the scratch at the running minimum the point before left. -/
def carried (c : Dev nD) : (n : ℕ) → n ≤ cfg0.N → sProp 𝕄
  | 0, _ => Pipeline.ΦA spec0 c
  | n + 1, hn => iprop(owns (c : Thread nD τ) scratch fullShare (runMin V c n hn) ∗ Pipeline.scopedRestBut (Ix := Unit) (Name := ℕ) (U := UR sig nD τ) (Lvl := ℕ) (Val := Elt F) spec0 c [cc0_scratch0] ∗ (∃ r, prngReg c r))

theorem carried_zero (c : Dev nD) (n : ℕ) (h : n ≤ cfg0.N) (hz : n = 0) : carried V c n h = Pipeline.ΦA spec0 c := by
  subst hz; rfl

theorem carried_succ (c : Dev nD) (n : ℕ) (hn : n < cfg0.N) :
    carried V c (n + 1) hn = iprop(owns (c : Thread nD τ) scratch fullShare (runMin V c n hn) ∗ Pipeline.scopedRestBut (Ix := Unit) (Name := ℕ) (U := UR sig nD τ) (Lvl := ℕ) (Val := Elt F) spec0 c [cc0_scratch0] ∗ (∃ r, prngReg c r)) := rfl

theorem carried_pos (c : Dev nD) (n : ℕ) (h : n ≤ cfg0.N) (hz : n ≠ 0) :
    carried V c n h = iprop(owns (c : Thread nD τ) scratch fullShare (runMin V c (n - 1) (by omega)) ∗ Pipeline.scopedRestBut (Ix := Unit) (Name := ℕ) (U := UR sig nD τ) (Lvl := ℕ) (Val := Elt F) spec0 c [cc0_scratch0] ∗ (∃ r, prngReg c r)) := by
  cases n with
  | zero => exact absurd rfl hz
  | succ n => rfl

/-- At any position the invariant yields the scratch at SOME contents beside the rest: all a row block's first tile needs. -/
theorem carried_forget (c : Dev nD) (n : ℕ) (h : n ≤ cfg0.N) :
    carried V c n h ⊢ (iprop((∃ d, owns (c : Thread nD τ) scratch fullShare d) ∗ Pipeline.scopedRestBut (Ix := Unit) (Name := ℕ) (U := UR sig nD τ) (Lvl := ℕ) (Val := Elt F) spec0 c [cc0_scratch0] ∗ (∃ r, prngReg c r)) : sProp 𝕄) := by
  cases n with
  | zero =>
    show Pipeline.ΦA spec0 c ⊢ _
    unfold Pipeline.ΦA; rw [scoped_split]
    iintro ⟨⟨HS, Hb⟩, Hg⟩
    isplitl [HS]; · iexact HS
    isplitl [Hb]; · iexact Hb
    iexact Hg
  | succ n =>
    rw [carried_succ]
    iintro ⟨HS, Hb, Hg⟩
    isplitl [HS]; · iexists _; iexact HS
    isplitl [Hb]; · iexact Hb
    iexact Hg

/-- And so gives back what the call was handed. -/
theorem carried_close (c : Dev nD) (n : ℕ) (h : n ≤ cfg0.N) : carried V c n h ⊢ (Pipeline.ΦA spec0 c : sProp 𝕄) := by
  refine (carried_forget V c n h).trans ?_
  unfold Pipeline.ΦA; rw [scoped_split]
  iintro ⟨HS, Hb, Hg⟩
  isplitl [HS Hb]
  · isplitl [HS]; · iexact HS
    iexact Hb
  iexact Hg

/-! ## The call's proof data -/

/-- The arrays as the call finds them; after the body at point `t` each input's buffer at its block and the output's at
    the running minimum (written back only at a row block's last tile, not consulted elsewhere); the invariant
    `carried`; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => runMin V c t.val t.isLt
  Φ t := carried V c t.val (Nat.le_of_lt_succ t.isLt)
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blockAt V c 0 t := by dsimp only [dat]
theorem after_1 (c : Dev nD) (t : Fin cfg0.N) : (dat V c).after 1 t = blockAt V c 1 t := by dsimp only [dat]
theorem after_2 (c : Dev nD) (t : Fin cfg0.N) : (dat V c).after 2 t = blockAt V c 2 t := by dsimp only [dat]
theorem after_3 (c : Dev nD) (t : Fin cfg0.N) : (dat V c).after 3 t = blockAt V c 3 t := by dsimp only [dat]
theorem after_4 (c : Dev nD) (t : Fin cfg0.N) : (dat V c).after 4 t = runMin V c t.val t.isLt := by dsimp only [dat]

theorem before_0 (c : Dev nD) (t : Fin cfg0.N) (d) : (dat V c).before 0 t d = blockAt V c 0 t :=
  found_rowPts V (dat V c) (A_eq V c 0) (after_0 V c) t d
theorem before_1 (c : Dev nD) (t : Fin cfg0.N) (d) : (dat V c).before 1 t d = blockAt V c 1 t :=
  found_colPts V (dat V c) (A_eq V c 1) (after_1 V c) t d
theorem before_2 (c : Dev nD) (t : Fin cfg0.N) (d) : (dat V c).before 2 t d = blockAt V c 2 t :=
  found_rowSq V (dat V c) (A_eq V c 2) (after_2 V c) t d
theorem before_3 (c : Dev nD) (t : Fin cfg0.N) (d) : (dat V c).before 3 t d = blockAt V c 3 t :=
  found_colSq V (dat V c) (A_eq V c 3) (after_3 V c) t d

theorem Phi_castSucc (c : Dev nD) (t : Fin cfg0.N) : (dat V c).Φ t.castSucc = carried V c t.val (Nat.le_of_lt t.isLt) := by
  dsimp only [dat]; simp only [Fin.coe_castSucc]

theorem Phi_zero (c : Dev nD) : (dat V c).Φ 0 = Pipeline.ΦA spec0 c := rfl

theorem Phi_last_close (c : Dev nD) : (dat V c).Φ (Fin.last cfg0.N) ⊢ (Pipeline.ΦA spec0 c : sProp 𝕄) := by
  rw [show (dat V c).Φ (Fin.last cfg0.N) = carried V c (Fin.last cfg0.N).val (Nat.le_of_lt_succ (Fin.last cfg0.N).isLt) from rfl]
  exact carried_close V c _ _

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves_0 (c : Dev nD) (t : Fin cfg0.N) :
    (dat V c).leavesExact 0 t = owns (c : Thread nD τ) (st0_0 t) fullShare (blockAt V c 0 t) := by
  unfold Dat.leavesExact; rw [live_0 t, after_0]
theorem leaves_1 (c : Dev nD) (t : Fin cfg0.N) :
    (dat V c).leavesExact 1 t = owns (c : Thread nD τ) (st0_1 t) fullShare (blockAt V c 1 t) := by
  unfold Dat.leavesExact; rw [live_1 t, after_1]
theorem leaves_2 (c : Dev nD) (t : Fin cfg0.N) :
    (dat V c).leavesExact 2 t = owns (c : Thread nD τ) (st0_2 t) fullShare (blockAt V c 2 t) := by
  unfold Dat.leavesExact; rw [live_2 t, after_2]
theorem leaves_3 (c : Dev nD) (t : Fin cfg0.N) :
    (dat V c).leavesExact 3 t = owns (c : Thread nD τ) (st0_3 t) fullShare (blockAt V c 3 t) := by
  unfold Dat.leavesExact; rw [live_3 t, after_3]

set_option maxHeartbeats 4000000 in
/-- The body at any point. Its inputs' buffers hold their blocks; the point's position in its row block says which case it
    is in. At a first tile the invariant is asked only for the scratch at some contents, elsewhere for the running
    minimum the point before left; either way it takes the scratch back at this point's running minimum. The output
    block is handed back untouched but at a last tile, where it is left at the running minimum. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl,
    show (dat V c).Φ t.succ = carried V c (t.val + 1) t.isLt from rfl, carried_succ,
    leaves_0, leaves_1, leaves_2, leaves_3, Phi_castSucc]
  have hN : t.val < 256 := lt_of_lt_of_eq t.isLt (show cfg0.N = 256 from N_0)
  by_cases hF : t.val % 16 = 0
  · -- a row block's first tile
    have hL : ¬t.val % 16 = 15 := by omega
    have hl : ¬atLast (grid0.coords t) := fun h => hL ((atLast_iff t).mp h)
    rw [Dat.leavesExact_idle (dat V c) 4 t (idle_out t hl) (noFlush_out t hl), runMin_first V c t hF]
    iintro ⟨HΦ, Ho, ⟨%d0, H0⟩, ⟨%d1, H1⟩, ⟨%d2, H2⟩, ⟨%d3, H3⟩, ⟨%d4, H4⟩⟩
    ihave HΦ' := (carried_forget V c t.val (Nat.le_of_lt t.isLt)) $$ HΦ
    icases HΦ' with ⟨HS, Hb, Hg⟩
    iapply (run_first c Set.univ (grid0.coords t) _ _ _ _ _ _ _ _ _ _ _ _ ((atFirst_iff t).mpr hF) hl (rowPts V c t) (colPts V c t) (rowSq V c t) (colSq V c t) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hb Hg]
    · isplitl [HS]; · iexact HS
      isplitl [Hb]; · iexact Hb
      iexact Hg
    isplitl [Ho]; · iexact Ho
    isplitl [H0]; · iexact H0
    isplitl [H1]; · iexact H1
    isplitl [H2]; · iexact H2
    isplitl [H3]; · iexact H3
    iexists _; iexact H4
  · have hf : ¬atFirst (grid0.coords t) := fun h => hF ((atFirst_iff t).mp h)
    have hz : t.val ≠ 0 := fun h => hF (by rw [h])
    rw [carried_pos V c _ _ hz, runMin_later V c t hF]
    by_cases hL : t.val % 16 = 15
    · -- a row block's last tile
      have hl : atLast (grid0.coords t) := (atLast_iff t).mpr hL
      rw [show (dat V c).leavesExact 4 t = owns (c : Thread nD τ) (st0_4 t) fullShare ((dat V c).after 4 t) from by
        unfold Dat.leavesExact; rw [live_out t hl], after_4, runMin_later V c t hF]
      iintro ⟨⟨HS, Hb, Hg⟩, Ho, ⟨%d0, H0⟩, ⟨%d1, H1⟩, ⟨%d2, H2⟩, ⟨%d3, H3⟩, ⟨%d4, H4⟩⟩
      iapply (run_last c Set.univ (grid0.coords t) _ _ _ _ _ _ _ _ _ _ _ _ hf hl (rowPts V c t) (colPts V c t) (rowSq V c t) (colSq V c t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hb Hg]
      · isplitl [HS]; · iexact HS
        isplitl [Hb]; · iexact Hb
        iexact Hg
      isplitl [Ho]; · iexact Ho
      isplitl [H0]; · iexact H0
      isplitl [H1]; · iexact H1
      isplitl [H2]; · iexact H2
      isplitl [H3]; · iexact H3
      iexact H4
    · -- a middle tile
      have hl : ¬atLast (grid0.coords t) := fun h => hL ((atLast_iff t).mp h)
      rw [Dat.leavesExact_idle (dat V c) 4 t (idle_out t hl) (noFlush_out t hl)]
      iintro ⟨⟨HS, Hb, Hg⟩, Ho, ⟨%d0, H0⟩, ⟨%d1, H1⟩, ⟨%d2, H2⟩, ⟨%d3, H3⟩, ⟨%d4, H4⟩⟩
      iapply (run_middle c Set.univ (grid0.coords t) _ _ _ _ _ _ _ _ _ _ _ _ hf hl (rowPts V c t) (colPts V c t) (rowSq V c t) (colSq V c t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hb Hg]
      · isplitl [HS]; · iexact HS
        isplitl [Hb]; · iexact Hb
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Call0

end
-- ==== Proof.TileStep1.lean ====
/-
  One grid point of the second call. The grid is 16 row blocks by 16 column tiles, the point t at row block t / 16
  and column tile t % 16. At a point the body resets its scratch to +∞ when the tile is the row block's first,
  then replaces the scratch by the minimum of the scratch and the tile's row minima (the payload `k1_pay2` of the four
  blocks it loads and of what the scratch held), and copies the scratch to the output block when the tile is the row
  block's last. Here: the two branch conditions in closed form over the grid, where the output window is idle, and the
  body's run in each of the three cases a point can be in, each output stated as a payload of the loaded blocks.
-/
import proofs.«103544_j85478439125595_1_alg».proof.Proof.Gen.KernelIdeal.Launch
import proofs.«103544_j85478439125595_1_alg».proof.Proof.Gen.KernelIdeal.Skeleton
import proofs.«103544_j85478439125595_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, over the grid -/

/-- "This tile is the first of its row block": the body's first `scf.if`, its scalar chain substituted. -/
abbrev atFirst (i : grid1.Coords) : Prop :=
  (Scalar.cmpi .ne (Scalar.extui (Scalar.cmpi .eq (BitVec.ofNat 32 (i 1).val) 0#32)) 0#32) = 1#1
/-- "This tile is the last of its row block": the body's second `scf.if`. -/
abbrev atLast (i : grid1.Coords) : Prop := k1_cond2 i = 1#1

/-- The first tile of a row block is the point ≡ 0 (mod 16); decided over the 256 points. -/
theorem atFirst_iff : ∀ t : Fin cfg1.N, atFirst (grid1.coords t) ↔ t.val % 16 = 0 :=
  (by decide +kernel : ∀ t : Fin grid1.N, atFirst (grid1.coords t) ↔ t.val % 16 = 0)
/-- The last is the point ≡ 15 (mod 16). -/
theorem atLast_iff : ∀ t : Fin cfg1.N, atLast (grid1.coords t) ↔ t.val % 16 = 15 :=
  (by decide +kernel : ∀ t : Fin grid1.N, atLast (grid1.coords t) ↔ t.val % 16 = 15)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
/-- The output window is idle, and not written back, at every tile but a row block's last; -/
theorem idle_out : ∀ t : Fin cfg1.N, ¬atLast (grid1.coords t) → cfg1.idle 4 (grid1.coords t) = true := by decide +kernel
theorem noFlush_out : ∀ t : Fin cfg1.N, ¬atLast (grid1.coords t) → (cfg1.win 4).flush t = false := by decide +kernel
/-- and live at the last. -/
theorem live_out : ∀ t : Fin cfg1.N, atLast (grid1.coords t) → cfg1.idle 4 (grid1.coords t) = false := by decide +kernel

/-! ## The scratch -/

/-- The body's scratch operand: the running minimum of the current row block, one value per row. -/
abbrev scratch : Memref sig .tc .vmem S4x512x1 .f32 := Memref.whole cc1_scratch0

/-- Every load and store of the body is through the whole-buffer rectangle at zero offsets. -/
theorem zero3 : (![0, 0, 0] : Fin 3 → Nat) = fun _ => 0 := by
  funext a; match a with | ⟨0, _⟩ => rfl | ⟨1, _⟩ => rfl | ⟨2, _⟩ => rfl

/-! ## The body, case by case -/

set_option maxHeartbeats 1000000 in
/-- A middle tile (neither first nor last): the scratch, found at `s`, is left at the payload of the four blocks and `s`;
    the output block is not touched. -/
theorem run_middle (c : Dev nD) (E : Set ℕ) (i : grid1.Coords)
    (arg2 : Memref sig .tc .vmem S4x512x3 .f32) (harg2 : arg2.IsWhole) (arg3 : Memref sig .tc .vmem S4x512x3 .f32) (harg3 : arg3.IsWhole)
    (arg4 : Memref sig .tc .vmem S4x512x1 .f32) (harg4 : arg4.IsWhole) (arg5 : Memref sig .tc .vmem S4x1x512 .f32) (harg5 : arg5.IsWhole)
    (arg6 : Memref sig .tc .vmem S4x512x1 .f32) (harg6 : arg6.IsWhole) (arg7 : Memref sig .tc .vmem S4x512x1 .f32) (harg7 : arg7.IsWhole)
    (h1 : ¬atFirst i) (h2 : ¬atLast i)
    (x0 x1 : Vec F S4x512x3 .f32) (x2 : Vec F S4x512x1 .f32) (x3 : Vec F S4x1x512 .f32) (s : Vec F S4x512x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare (k1_pay2 x0 x1 x2 x3 s)) -∗ K ⟨⟩))
      ⊢ wp frame (wpE (defs₀ (F := F)) Variants.none c none) E
          (cc1__nn_min_kernel i arg2 harg2 arg3 harg3 arg4 harg4 arg5 harg5 arg6 harg6 arg7 harg7) K := by
  simp only [cc1__nn_min_kernel_eq_skeleton]; unfold cc1__nn_min_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  rw [View.read_writes_eq_canon _ _ _ (fun y => ⟨_, List.mem_singleton_self _, View.mem_set_unit_zero zero3 Facts₀.inb_S4x512x1_S4x512x1_0_0_0 y⟩),
    View.canon_unit_zero zero3]
  simp only [View.readAt_eq_ld, harg2.read_unread, harg3.read_unread, harg4.read_unread, harg5.read_unread, harg7.read_unread,
      View.ld_unit_zero (S := S4x512x3) zero3, View.ld_unit_zero (S := S4x512x1) zero3, View.ld_unit_zero (S := S4x1x512) zero3]

set_option maxHeartbeats 1000000 in
/-- The first tile of a row block: the scratch, found at anything, is reset to `k1_pay1` (the +∞ word everywhere) and
    then left at the payload of the four blocks and that reset value. -/
theorem run_first (c : Dev nD) (E : Set ℕ) (i : grid1.Coords)
    (arg2 : Memref sig .tc .vmem S4x512x3 .f32) (harg2 : arg2.IsWhole) (arg3 : Memref sig .tc .vmem S4x512x3 .f32) (harg3 : arg3.IsWhole)
    (arg4 : Memref sig .tc .vmem S4x512x1 .f32) (harg4 : arg4.IsWhole) (arg5 : Memref sig .tc .vmem S4x1x512 .f32) (harg5 : arg5.IsWhole)
    (arg6 : Memref sig .tc .vmem S4x512x1 .f32) (harg6 : arg6.IsWhole) (arg7 : Memref sig .tc .vmem S4x512x1 .f32) (harg7 : arg7.IsWhole)
    (h1 : atFirst i) (h2 : ¬atLast i)
    (x0 x1 : Vec F S4x512x3 .f32) (x2 : Vec F S4x512x1 .f32) (x3 : Vec F S4x1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare (k1_pay2 x0 x1 x2 x3 (k1_pay1 (F := F)))) -∗ K ⟨⟩))
      ⊢ wp frame (wpE (defs₀ (F := F)) Variants.none c none) E
          (cc1__nn_min_kernel i arg2 harg2 arg3 harg3 arg4 harg4 arg5 harg5 arg6 harg6 arg7 harg7) K := by
  simp only [cc1__nn_min_kernel_eq_skeleton]; unfold cc1__nn_min_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_words
  rw [View.read_writes_eq_canon _ _ _ (fun y => ⟨_, List.mem_cons_self, View.mem_set_unit_zero zero3 Facts₀.inb_S4x512x1_S4x512x1_0_0_0 y⟩),
    View.canon_cons_unit_zero zero3]
  simp only [View.readAt_eq_ld, harg2.read_unread, harg3.read_unread, harg4.read_unread, harg5.read_unread,
      View.ld_unit_zero (S := S4x512x3) zero3, View.ld_unit_zero (S := S4x512x1) zero3, View.ld_unit_zero (S := S4x1x512) zero3]
  exact congrArg (k1_pay2 x0 x1 x2 x3) (View.readCov_unit_zero (S := S4x512x1) _ zero3 _ _)

set_option maxHeartbeats 1000000 in
/-- The last tile of a row block: the scratch is updated as at a middle tile, and the output block, found at anything,
    is left at the updated scratch. -/
theorem run_last (c : Dev nD) (E : Set ℕ) (i : grid1.Coords)
    (arg2 : Memref sig .tc .vmem S4x512x3 .f32) (harg2 : arg2.IsWhole) (arg3 : Memref sig .tc .vmem S4x512x3 .f32) (harg3 : arg3.IsWhole)
    (arg4 : Memref sig .tc .vmem S4x512x1 .f32) (harg4 : arg4.IsWhole) (arg5 : Memref sig .tc .vmem S4x1x512 .f32) (harg5 : arg5.IsWhole)
    (arg6 : Memref sig .tc .vmem S4x512x1 .f32) (harg6 : arg6.IsWhole) (arg7 : Memref sig .tc .vmem S4x512x1 .f32) (harg7 : arg7.IsWhole)
    (h1 : ¬atFirst i) (h2 : atLast i)
    (x0 x1 : Vec F S4x512x3 .f32) (x2 : Vec F S4x512x1 .f32) (x3 : Vec F S4x1x512 .f32) (s : Vec F S4x512x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (k1_pay2 x0 x1 x2 x3 s)
            ∗ owns (c : Thread nD τ) arg7 fullShare (k1_pay2 x0 x1 x2 x3 s)) -∗ K ⟨⟩))
      ⊢ wp frame (wpE (defs₀ (F := F)) Variants.none c none) E
          (cc1__nn_min_kernel i arg2 harg2 arg3 harg3 arg4 harg4 arg5 harg5 arg6 harg6 arg7 harg7) K := by
  simp only [cc1__nn_min_kernel_eq_skeleton]; unfold cc1__nn_min_kernel_skel
  unfold owns
  iintro ⟨⟨%f0, %hf0, H0⟩, ⟨%f1, %hf1, H1⟩, ⟨%f2, %hf2, H2⟩, ⟨%f3, %hf3, H3⟩, ⟨%d6, %f6, -, H6⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    sl_unfold_words
    rw [View.read_writes_eq_canon _ _ _ (fun y => ⟨_, List.mem_singleton_self _, View.mem_set_unit_zero zero3 Facts₀.inb_S4x512x1_S4x512x1_0_0_0 y⟩),
      View.canon_unit_zero zero3]
    simp only [View.readAt_eq_ld, harg2.read_unread, harg3.read_unread, harg4.read_unread, harg5.read_unread, harg7.read_unread,
      View.ld_unit_zero (S := S4x512x3) zero3, View.ld_unit_zero (S := S4x512x1) zero3, View.ld_unit_zero (S := S4x1x512) zero3]
    exact View.readCov_unit_zero (S := S4x512x1) _ zero3 _ _
  iexists _; isplitr
  swap; · iexact HS
  ipureintro
  sl_unfold_words
  rw [View.read_writes_eq_canon _ _ _ (fun y => ⟨_, List.mem_singleton_self _, View.mem_set_unit_zero zero3 Facts₀.inb_S4x512x1_S4x512x1_0_0_0 y⟩),
    View.canon_unit_zero zero3]
  simp only [View.readAt_eq_ld, harg2.read_unread, harg3.read_unread, harg4.read_unread, harg5.read_unread, harg7.read_unread,
      View.ld_unit_zero (S := S4x512x3) zero3, View.ld_unit_zero (S := S4x512x1) zero3, View.ld_unit_zero (S := S4x1x512) zero3]

end Cert.KernelIdeal.Call1

end
-- ==== Proof.RunningMin1.lean ====
/-
  The second call across its grid. Over a row block's 16 tiles the scratch holds a running minimum: reset at the first
  tile, lowered by each tile's row minima, copied to the output block at the last. Here: the four blocks a point
  loads, read off the arrays as the call finds them; the running minimum after each point as a recursion on the point
  (`runMin`); the invariant that keeps the scratch at it between points (`carried`); the call's proof data; and the body
  obligation, by the three cases of a point.
-/
import proofs.«103544_j85478439125595_1_alg».proof.Proof.TileStep1

set_option maxRecDepth 16384

noncomputable section

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The blocks a point loads -/

/-- Window `w`'s block at point `t`, read off its array as the call finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's points, the column tile's points, and their squared norms, at their literal types. -/
abbrev rowPts (c : Dev nD) (t : Fin cfg1.N) : Vec F S4x512x3 .f32 := blockAt V c 0 t
abbrev colPts (c : Dev nD) (t : Fin cfg1.N) : Vec F S4x512x3 .f32 := blockAt V c 1 t
abbrev rowSq (c : Dev nD) (t : Fin cfg1.N) : Vec F S4x512x1 .f32 := blockAt V c 2 t
abbrev colSq (c : Dev nD) (t : Fin cfg1.N) : Vec F S4x1x512 .f32 := blockAt V c 3 t

/-! An input window's staging buffer holds its block whenever the body runs, fetched at that point or not (an unfetched
    window's block index has not moved), for any proof data over these arrays whose body leaves the block in place. -/
theorem found_rowPts {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found_colPts {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found_rowSq {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found_colSq {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The running minimum -/

/-- One point's update of a running minimum `s`: the minimum of `s` and the tile's row minima. -/
def update (c : Dev nD) (t : Fin cfg1.N) (s : Vec F S4x512x1 .f32) : Vec F S4x512x1 .f32 :=
  k1_pay2 (rowPts V c t) (colPts V c t) (rowSq V c t) (colSq V c t) s

/-- What the scratch holds after point `n`: the update of the reset value at a row block's first tile, of what the
    point before left otherwise. -/
def runMin (c : Dev nD) : (n : ℕ) → n < cfg1.N → Vec F S4x512x1 .f32
  | 0, hn => update V c ⟨0, hn⟩ (k1_pay1 (F := F))
  | n + 1, hn => update V c ⟨n + 1, hn⟩ (if (n + 1) % 16 = 0 then k1_pay1 (F := F) else runMin c n (Nat.lt_of_succ_lt hn))

theorem runMin_first (c : Dev nD) (t : Fin cfg1.N) (h : t.val % 16 = 0) :
    runMin V c t.val t.isLt = update V c t (k1_pay1 (F := F)) := by
  obtain ⟨n, hn⟩ := t
  cases n with
  | zero => rfl
  | succ n =>
    show update V c ⟨n + 1, hn⟩ (if (n + 1) % 16 = 0 then k1_pay1 (F := F) else runMin V c n (Nat.lt_of_succ_lt hn)) = _
    rw [if_pos h]

theorem runMin_later (c : Dev nD) (t : Fin cfg1.N) (h : ¬t.val % 16 = 0) :
    runMin V c t.val t.isLt = update V c t (runMin V c (t.val - 1) (Nat.lt_of_le_of_lt (Nat.sub_le _ _) t.isLt)) := by
  obtain ⟨n, hn⟩ := t
  cases n with
  | zero => exact absurd (Nat.zero_mod _) h
  | succ n =>
    show update V c ⟨n + 1, hn⟩ (if (n + 1) % 16 = 0 then k1_pay1 (F := F) else runMin V c n (Nat.lt_of_succ_lt hn)) = _
    rw [if_neg h]; rfl

/-! ## The invariant between points -/

/-- The core's scoped buffers that are no staging buffer of this call: the scratch, at some contents, and the others. -/
theorem scoped_split (c : Dev nD) :
    (Pipeline.scopedRest (Ix := Unit) (Name := ℕ) (U := UR sig nD τ) (Lvl := ℕ) (Val := Elt F) spec1 c : sProp 𝕄)
      = iprop((∃ d, owns (c : Thread nD τ) scratch fullShare d) ∗ Pipeline.scopedRestBut (Ix := Unit) (Name := ℕ) (U := UR sig nD τ) (Lvl := ℕ) (Val := Elt F) spec1 c [cc1_scratch0]) := by
  rw [Pipeline.scopedRest_split_of_list spec1 c [cc1_scratch0] (by decide) (by decide)]
  simp only [BI.bigSepL_singleton, scratch, owns_whole]; try rfl

/-- Before position `n`: before the first point what the call is handed (every scoped buffer at anything, the generator
    register at some state); afterwards the same with the scratch at the running minimum the point before left. -/
def carried (c : Dev nD) : (n : ℕ) → n ≤ cfg1.N → sProp 𝕄
  | 0, _ => Pipeline.ΦA spec1 c
  | n + 1, hn => iprop(owns (c : Thread nD τ) scratch fullShare (runMin V c n hn) ∗ Pipeline.scopedRestBut (Ix := Unit) (Name := ℕ) (U := UR sig nD τ) (Lvl := ℕ) (Val := Elt F) spec1 c [cc1_scratch0] ∗ (∃ r, prngReg c r))

theorem carried_zero (c : Dev nD) (n : ℕ) (h : n ≤ cfg1.N) (hz : n = 0) : carried V c n h = Pipeline.ΦA spec1 c := by
  subst hz; rfl

theorem carried_succ (c : Dev nD) (n : ℕ) (hn : n < cfg1.N) :
    carried V c (n + 1) hn = iprop(owns (c : Thread nD τ) scratch fullShare (runMin V c n hn) ∗ Pipeline.scopedRestBut (Ix := Unit) (Name := ℕ) (U := UR sig nD τ) (Lvl := ℕ) (Val := Elt F) spec1 c [cc1_scratch0] ∗ (∃ r, prngReg c r)) := rfl

theorem carried_pos (c : Dev nD) (n : ℕ) (h : n ≤ cfg1.N) (hz : n ≠ 0) :
    carried V c n h = iprop(owns (c : Thread nD τ) scratch fullShare (runMin V c (n - 1) (by omega)) ∗ Pipeline.scopedRestBut (Ix := Unit) (Name := ℕ) (U := UR sig nD τ) (Lvl := ℕ) (Val := Elt F) spec1 c [cc1_scratch0] ∗ (∃ r, prngReg c r)) := by
  cases n with
  | zero => exact absurd rfl hz
  | succ n => rfl

/-- At any position the invariant yields the scratch at SOME contents beside the rest: all a row block's first tile needs. -/
theorem carried_forget (c : Dev nD) (n : ℕ) (h : n ≤ cfg1.N) :
    carried V c n h ⊢ (iprop((∃ d, owns (c : Thread nD τ) scratch fullShare d) ∗ Pipeline.scopedRestBut (Ix := Unit) (Name := ℕ) (U := UR sig nD τ) (Lvl := ℕ) (Val := Elt F) spec1 c [cc1_scratch0] ∗ (∃ r, prngReg c r)) : sProp 𝕄) := by
  cases n with
  | zero =>
    show Pipeline.ΦA spec1 c ⊢ _
    unfold Pipeline.ΦA; rw [scoped_split]
    iintro ⟨⟨HS, Hb⟩, Hg⟩
    isplitl [HS]; · iexact HS
    isplitl [Hb]; · iexact Hb
    iexact Hg
  | succ n =>
    rw [carried_succ]
    iintro ⟨HS, Hb, Hg⟩
    isplitl [HS]; · iexists _; iexact HS
    isplitl [Hb]; · iexact Hb
    iexact Hg

/-- And so gives back what the call was handed. -/
theorem carried_close (c : Dev nD) (n : ℕ) (h : n ≤ cfg1.N) : carried V c n h ⊢ (Pipeline.ΦA spec1 c : sProp 𝕄) := by
  refine (carried_forget V c n h).trans ?_
  unfold Pipeline.ΦA; rw [scoped_split]
  iintro ⟨HS, Hb, Hg⟩
  isplitl [HS Hb]
  · isplitl [HS]; · iexact HS
    iexact Hb
  iexact Hg

/-! ## The call's proof data -/

/-- The arrays as the call finds them; after the body at point `t` each input's buffer at its block and the output's at
    the running minimum (written back only at a row block's last tile, not consulted elsewhere); the invariant
    `carried`; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => runMin V c t.val t.isLt
  Φ t := carried V c t.val (Nat.le_of_lt_succ t.isLt)
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blockAt V c 0 t := by dsimp only [dat]
theorem after_1 (c : Dev nD) (t : Fin cfg1.N) : (dat V c).after 1 t = blockAt V c 1 t := by dsimp only [dat]
theorem after_2 (c : Dev nD) (t : Fin cfg1.N) : (dat V c).after 2 t = blockAt V c 2 t := by dsimp only [dat]
theorem after_3 (c : Dev nD) (t : Fin cfg1.N) : (dat V c).after 3 t = blockAt V c 3 t := by dsimp only [dat]
theorem after_4 (c : Dev nD) (t : Fin cfg1.N) : (dat V c).after 4 t = runMin V c t.val t.isLt := by dsimp only [dat]

theorem before_0 (c : Dev nD) (t : Fin cfg1.N) (d) : (dat V c).before 0 t d = blockAt V c 0 t :=
  found_rowPts V (dat V c) (A_eq V c 0) (after_0 V c) t d
theorem before_1 (c : Dev nD) (t : Fin cfg1.N) (d) : (dat V c).before 1 t d = blockAt V c 1 t :=
  found_colPts V (dat V c) (A_eq V c 1) (after_1 V c) t d
theorem before_2 (c : Dev nD) (t : Fin cfg1.N) (d) : (dat V c).before 2 t d = blockAt V c 2 t :=
  found_rowSq V (dat V c) (A_eq V c 2) (after_2 V c) t d
theorem before_3 (c : Dev nD) (t : Fin cfg1.N) (d) : (dat V c).before 3 t d = blockAt V c 3 t :=
  found_colSq V (dat V c) (A_eq V c 3) (after_3 V c) t d

theorem Phi_castSucc (c : Dev nD) (t : Fin cfg1.N) : (dat V c).Φ t.castSucc = carried V c t.val (Nat.le_of_lt t.isLt) := by
  dsimp only [dat]; simp only [Fin.coe_castSucc]

theorem Phi_zero (c : Dev nD) : (dat V c).Φ 0 = Pipeline.ΦA spec1 c := rfl

theorem Phi_last_close (c : Dev nD) : (dat V c).Φ (Fin.last cfg1.N) ⊢ (Pipeline.ΦA spec1 c : sProp 𝕄) := by
  rw [show (dat V c).Φ (Fin.last cfg1.N) = carried V c (Fin.last cfg1.N).val (Nat.le_of_lt_succ (Fin.last cfg1.N).isLt) from rfl]
  exact carried_close V c _ _

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves_0 (c : Dev nD) (t : Fin cfg1.N) :
    (dat V c).leavesExact 0 t = owns (c : Thread nD τ) (st1_0 t) fullShare (blockAt V c 0 t) := by
  unfold Dat.leavesExact; rw [live_0 t, after_0]
theorem leaves_1 (c : Dev nD) (t : Fin cfg1.N) :
    (dat V c).leavesExact 1 t = owns (c : Thread nD τ) (st1_1 t) fullShare (blockAt V c 1 t) := by
  unfold Dat.leavesExact; rw [live_1 t, after_1]
theorem leaves_2 (c : Dev nD) (t : Fin cfg1.N) :
    (dat V c).leavesExact 2 t = owns (c : Thread nD τ) (st1_2 t) fullShare (blockAt V c 2 t) := by
  unfold Dat.leavesExact; rw [live_2 t, after_2]
theorem leaves_3 (c : Dev nD) (t : Fin cfg1.N) :
    (dat V c).leavesExact 3 t = owns (c : Thread nD τ) (st1_3 t) fullShare (blockAt V c 3 t) := by
  unfold Dat.leavesExact; rw [live_3 t, after_3]

set_option maxHeartbeats 4000000 in
/-- The body at any point. Its inputs' buffers hold their blocks; the point's position in its row block says which case it
    is in. At a first tile the invariant is asked only for the scratch at some contents, elsewhere for the running
    minimum the point before left; either way it takes the scratch back at this point's running minimum. The output
    block is handed back untouched but at a last tile, where it is left at the running minimum. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl,
    show (dat V c).Φ t.succ = carried V c (t.val + 1) t.isLt from rfl, carried_succ,
    leaves_0, leaves_1, leaves_2, leaves_3, Phi_castSucc]
  have hN : t.val < 256 := lt_of_lt_of_eq t.isLt (show cfg1.N = 256 from N_1)
  by_cases hF : t.val % 16 = 0
  · -- a row block's first tile
    have hL : ¬t.val % 16 = 15 := by omega
    have hl : ¬atLast (grid1.coords t) := fun h => hL ((atLast_iff t).mp h)
    rw [Dat.leavesExact_idle (dat V c) 4 t (idle_out t hl) (noFlush_out t hl), runMin_first V c t hF]
    iintro ⟨HΦ, Ho, ⟨%d0, H0⟩, ⟨%d1, H1⟩, ⟨%d2, H2⟩, ⟨%d3, H3⟩, ⟨%d4, H4⟩⟩
    ihave HΦ' := (carried_forget V c t.val (Nat.le_of_lt t.isLt)) $$ HΦ
    icases HΦ' with ⟨HS, Hb, Hg⟩
    iapply (run_first c Set.univ (grid1.coords t) _ _ _ _ _ _ _ _ _ _ _ _ ((atFirst_iff t).mpr hF) hl (rowPts V c t) (colPts V c t) (rowSq V c t) (colSq V c t) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hb Hg]
    · isplitl [HS]; · iexact HS
      isplitl [Hb]; · iexact Hb
      iexact Hg
    isplitl [Ho]; · iexact Ho
    isplitl [H0]; · iexact H0
    isplitl [H1]; · iexact H1
    isplitl [H2]; · iexact H2
    isplitl [H3]; · iexact H3
    iexists _; iexact H4
  · have hf : ¬atFirst (grid1.coords t) := fun h => hF ((atFirst_iff t).mp h)
    have hz : t.val ≠ 0 := fun h => hF (by rw [h])
    rw [carried_pos V c _ _ hz, runMin_later V c t hF]
    by_cases hL : t.val % 16 = 15
    · -- a row block's last tile
      have hl : atLast (grid1.coords t) := (atLast_iff t).mpr hL
      rw [show (dat V c).leavesExact 4 t = owns (c : Thread nD τ) (st1_4 t) fullShare ((dat V c).after 4 t) from by
        unfold Dat.leavesExact; rw [live_out t hl], after_4, runMin_later V c t hF]
      iintro ⟨⟨HS, Hb, Hg⟩, Ho, ⟨%d0, H0⟩, ⟨%d1, H1⟩, ⟨%d2, H2⟩, ⟨%d3, H3⟩, ⟨%d4, H4⟩⟩
      iapply (run_last c Set.univ (grid1.coords t) _ _ _ _ _ _ _ _ _ _ _ _ hf hl (rowPts V c t) (colPts V c t) (rowSq V c t) (colSq V c t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hb Hg]
      · isplitl [HS]; · iexact HS
        isplitl [Hb]; · iexact Hb
        iexact Hg
      isplitl [Ho]; · iexact Ho
      isplitl [H0]; · iexact H0
      isplitl [H1]; · iexact H1
      isplitl [H2]; · iexact H2
      isplitl [H3]; · iexact H3
      iexact H4
    · -- a middle tile
      have hl : ¬atLast (grid1.coords t) := fun h => hL ((atLast_iff t).mp h)
      rw [Dat.leavesExact_idle (dat V c) 4 t (idle_out t hl) (noFlush_out t hl)]
      iintro ⟨⟨HS, Hb, Hg⟩, Ho, ⟨%d0, H0⟩, ⟨%d1, H1⟩, ⟨%d2, H2⟩, ⟨%d3, H3⟩, ⟨%d4, H4⟩⟩
      iapply (run_middle c Set.univ (grid1.coords t) _ _ _ _ _ _ _ _ _ _ _ _ hf hl (rowPts V c t) (colPts V c t) (rowSq V c t) (colSq V c t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hb Hg]
      · isplitl [HS]; · iexact HS
        isplitl [Hb]; · iexact Hb
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Call1

end
-- ==== Proof.TwoCalls.lean ====
/-
  The whole program: host operations, the first call, host operations, the second call, host operations. Each call is a
  record of the several-calls launch: its layout, its body obligation, and how the thread state "every unscoped buffer at
  known contents, the generator register at some state, nothing owed" passes into its invariant and out. The contents
  between items are the generated valuations `V0 … V5`, with what the two calls leave in their result arrays
  (`left0`, `left1`: the write-backs of their running minima) in the places of the unknowns. The launch then says that
  every execution ends with every unscoped buffer at `V5`: the arguments as launched (the frame), the result named.
-/
import proofs.«103544_j85478439125595_1_alg».proof.Proof.RunningMin0
import proofs.«103544_j85478439125595_1_alg».proof.Proof.RunningMin1
import proofs.«103544_j85478439125595_1_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (HostSeg RegionSeg Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two calls leave in their result arrays -/

/-- The buffers as the first call finds them: the launch memory after the first stretch of host operations. -/
abbrev entry0 : (c : Dev nD) → (b : Ref sig .tc) → Buf (Elt F) ((c : Thread nD τ).loc b) := fun c b => V1 m c b
/-- What the first call leaves in its result array: its output window's write-backs, folded. -/
def left0 (c : Dev nD) : Buf (Elt F) ((c : Thread nD τ).loc main_v6) := (Call0.dat (entry0 m) c).arrAt 4 cfg0.N
/-- The unknowns of the generated valuations with the first call's result in place. -/
def outs₀ : Outs (F := F) := fun _ r c => if h : r = main_v6 then h ▸ left0 m c else m ((c : Thread nD τ).loc r)
/-- The buffers as the second call finds them. -/
abbrev entry1 : (c : Dev nD) → (b : Ref sig .tc) → Buf (Elt F) ((c : Thread nD τ).loc b) := fun c b => V3 m (outs₀ m) c b
/-- What the second call leaves in its result array. -/
def left1 (c : Dev nD) : Buf (Elt F) ((c : Thread nD τ).loc main_v14) := (Call1.dat (entry1 m) c).arrAt 4 cfg1.N
/-- The unknowns with both results in place. -/
def outs : Outs (F := F) := fun j r c =>
  if j = 4 then (if h : r = main_v14 then h ▸ left1 m c else m ((c : Thread nD τ).loc r)) else outs₀ m j r c

theorem outs₀_at (j : ℕ) (c : Dev nD) : outs₀ m j main_v6 c = left0 m c := by
  unfold outs₀; exact dif_pos rfl
theorem outs_at2 (c : Dev nD) : outs m 2 main_v6 c = left0 m c := by
  unfold outs; rw [if_neg (by decide)]; exact outs₀_at m 2 c
theorem outs_at4 (c : Dev nD) : outs m 4 main_v14 c = left1 m c := by
  unfold outs; rw [if_pos rfl]; exact dif_pos rfl
/-- The second call's entry contents do not depend on what it will leave. -/
theorem V2_outs (c : Dev nD) : V2 m (outs m) c = V2 m (outs₀ m) c := by
  show Function.update (V1 m c) main_v6 (outs m 2 main_v6 c) = Function.update (V1 m c) main_v6 (outs₀ m 2 main_v6 c)
  rw [outs_at2, outs₀_at]
theorem V3_outs (c : Dev nD) : V3 m (outs m) c = V3 m (outs₀ m) c := by
  show StableHlo.after hostOps1 (V2 m (outs m) c) = StableHlo.after hostOps1 (V2 m (outs₀ m) c)
  rw [V2_outs]

/-! ## The proof data family and the thread state -/

/-- Every call's proof data, each at its entry contents. -/
def pdats : (p : Fin 2) → (c : Dev nD) → Dat τ (Elt F) Unit ℕ (UR sig nD τ) ℕ (cfgs p) c
  | ⟨0, _⟩ => fun c => Call0.dat (entry0 m) c
  | ⟨1, _⟩ => fun c => Call1.dat (entry1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)

/-! ## Each call's arrays at its exit -/

/-- After the first call each of its arrays holds what the write-backs leave: an input what it held, the result `left0`. -/
theorem left_by0 (c : Dev nD) (w : Fin cfg0.W) :
    (pdats m 0 c).arrAt w cfg0.N = (fun b : Ref sig .tc => V2 m (outs m) c b) (Pipeline.arrRef spec0 w) := by
  show (Call0.dat (entry0 m) c).arrAt w cfg0.N = _
  match w with
  | ⟨0, _⟩ => exact ((Call0.dat _ c).arrAt_in 0 rfl _).trans ((Call0.A_eq _ c 0).trans (V2_of m (outs m) c main_arg0 (by decide)).symm)
  | ⟨1, _⟩ => exact ((Call0.dat _ c).arrAt_in 1 rfl _).trans ((Call0.A_eq _ c 1).trans (V2_of m (outs m) c main_arg1 (by decide)).symm)
  | ⟨2, _⟩ => exact ((Call0.dat _ c).arrAt_in 2 rfl _).trans ((Call0.A_eq _ c 2).trans (V2_of m (outs m) c main_v2 (by decide)).symm)
  | ⟨3, _⟩ => exact ((Call0.dat _ c).arrAt_in 3 rfl _).trans ((Call0.A_eq _ c 3).trans (V2_of m (outs m) c main_v5 (by decide)).symm)
  | ⟨4, _⟩ =>
    show _ = Function.update (V1 m c) main_v6 (outs m 2 main_v6 c) main_v6
    rw [Function.update_self, outs_at2]; rfl
/-- and every other unscoped buffer what it held. -/
theorem kept_by0 (c : Dev nD) : ∀ b : Ref sig .tc, b ∉ Finset.univ.image (Pipeline.arrRef spec0) → V2 m (outs m) c b = entry0 m c b :=
  fun b hb => V2_of m (outs m) c b (by
    intro h; rw [List.mem_singleton] at h; subst h
    exact hb (Finset.mem_image.mpr ⟨4, Finset.mem_univ _, rfl⟩))

/-- The same for the second call. -/
theorem left_by1 (c : Dev nD) (w : Fin cfg1.W) :
    (pdats m 1 c).arrAt w cfg1.N = (fun b : Ref sig .tc => V4 m (outs m) c b) (Pipeline.arrRef spec1 w) := by
  show (Call1.dat (entry1 m) c).arrAt w cfg1.N = _
  match w with
  | ⟨0, _⟩ => exact ((Call1.dat _ c).arrAt_in 0 rfl _).trans ((Call1.A_eq _ c 0).trans (((V4_of m (outs m) c main_arg1 (by decide)).trans (congrFun (V3_outs m c) _)).symm))
  | ⟨1, _⟩ => exact ((Call1.dat _ c).arrAt_in 1 rfl _).trans ((Call1.A_eq _ c 1).trans (((V4_of m (outs m) c main_arg0 (by decide)).trans (congrFun (V3_outs m c) _)).symm))
  | ⟨2, _⟩ => exact ((Call1.dat _ c).arrAt_in 2 rfl _).trans ((Call1.A_eq _ c 2).trans (((V4_of m (outs m) c main_v10 (by decide)).trans (congrFun (V3_outs m c) _)).symm))
  | ⟨3, _⟩ => exact ((Call1.dat _ c).arrAt_in 3 rfl _).trans ((Call1.A_eq _ c 3).trans (((V4_of m (outs m) c main_v13 (by decide)).trans (congrFun (V3_outs m c) _)).symm))
  | ⟨4, _⟩ =>
    show _ = Function.update (V3 m (outs m) c) main_v14 (outs m 4 main_v14 c) main_v14
    rw [Function.update_self, outs_at4]; rfl
theorem kept_by1 (c : Dev nD) : ∀ b : Ref sig .tc, b ∉ Finset.univ.image (Pipeline.arrRef spec1) → V4 m (outs m) c b = entry1 m c b :=
  fun b hb => (V4_of m (outs m) c b (by
    intro h; rw [List.mem_singleton] at h; subst h
    exact hb (Finset.mem_image.mpr ⟨4, Finset.mem_univ _, rfl⟩))).trans (congrFun (V3_outs m c) _)

/-! ## The calls as segments -/

set_option backward.isDefEq.respectTransparency.types false in
/-- Call 0 as a segment of @main: entered with every unscoped buffer at `V1 m`, left with them at `V2 m (outs m)`. Its
    arrays are split out of the unscoped buffers and put back at what the write-backs leave; the generator register
    goes into the call's invariant and comes back; nothing is owed; the kernel has no semaphore of its own. -/
def call0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Call0.body_obligation (entry0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from Call0.Phi_last_close (entry0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b : Ref sig .tc => V2 m (outs m) c b) ((pdats m 0 c).arrAt · cfg0.N) (left_by0 m c) (kept_by0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of @main: entered with every unscoped buffer at `V3 m (outs₀ m)`, left with them at `V4 m (outs m)`. Its
    arrays are split out of the unscoped buffers and put back at what the write-backs leave; the generator register
    goes into the call's invariant and comes back; nothing is owed; the kernel has no semaphore of its own. -/
def call1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Call1.body_obligation (entry1 m) c).loose
  hwaits := Pipeline.hwaits_of_owed_zero _ _ _ _ L lv 1 fun _ _ => rfl
  pre c := iprop(StableHlo.held (c : Thread nD τ) (Pipeline.ucRefs τ sig) (V3 m (outs₀ m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from Call1.Phi_last_close (entry1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (fun b : Ref sig .tc => V4 m (outs m) c b) ((pdats m 1 c).arrAt · cfg1.N) (left_by1 m c) (kept_by1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The second call is entered from what the host operations before it leave: those contents do not depend on what the
    second call will leave. -/
theorem enter1_eq (c : Dev nD) :
    (iprop(StableHlo.held (c : Thread nD τ) (Pipeline.ucRefs τ sig) (V3 m (outs m) c) ∗ R c) : sProp 𝕄)
      = iprop(StableHlo.held (c : Thread nD τ) (Pipeline.ucRefs τ sig) (V3 m (outs₀ m) c) ∗ R c) := by
  rw [V3_outs m c]

set_option backward.isDefEq.respectTransparency.types false in
/-- From any memory with zero counters every weakly fair execution of @main terminates, nothing faulting, and ends with
    every unscoped buffer of every core at `V5`: the launch memory carried through the three stretches of host
    operations and the two calls. -/
theorem run_all : θ_run defs (onTc (τ := τ) (main (F := F))) ⟨m, fun _ => 0, ρ⟩
    (fun r => ∀ c : Dev nD, ∀ b ∈ Pipeline.ucRefs τ sig, r.2.mem (((c : Thread nD τ)).1, b) = V5 m (outs m) c b) :=
  Pipeline.θ_run_regions_kit_dev (pcfgs (F := F)) adm (pdats m) () cellOf_inj emb₁ defs₀ 𝒱₀ L lv m ρ main
    (segs m (outs m) 𝒱₀ L lv (fun _ => R) () (pdats m) (call0 m) (call1 m))
    (fun c Q => by
      rewrite [main_chain c, Seg.run_eq_chain,
        show (segs m (outs m) 𝒱₀ L lv (fun _ => R) () (pdats m) (call0 m) (call1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V5 m (outs m) c) ∗ ∃ r, prngReg c r))
    (hch := fun c => ⟨.rfl, .rfl, .rfl, BIBase.Entails.of_eq (enter1_eq m c), .rfl, by
      show (iprop(StableHlo.held (c : Thread nD τ) (Pipeline.ucRefs τ sig) (V5 m (outs m) c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V5 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V5 m (outs m) c) s')
      isplitl [Hh] <;> iassumption)
    (hQ := fun _ h => h)

/-- THE FRAME: the arguments end as launched — no host operation writes one and no call may change one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (V5_main_arg0 m (outs m) c),
      (h c _ (mem_uc main_arg1 (by decide))).trans (V5_main_arg1 m (outs m) c)⟩) (run_all m ρ)

/-- The same run with the result named: it ends at `V5`'s value of the result buffer, the arguments as launched. -/
theorem run_result : θ_run defs (onTc (τ := τ) (main (F := F))) ⟨m, fun _ => 0, ρ⟩ (fun r => ∀ c : Dev nD,
      r.2.mem ((c.tc : Thread nD τ).loc main_v20) = V5 m (outs m) c main_v20
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v20 (by decide)),
      (h c _ (mem_uc main_arg0 (by decide))).trans (V5_main_arg0 m (outs m) c),
      (h c _ (mem_uc main_arg1 (by decide))).trans (V5_main_arg1 m (outs m) c)⟩) (run_all m ρ)

end Cert.KernelIdeal.Whole

end
-- ==== Proof.NearestSpec.lean ====
/-
  The mathematics both programs compute, on the extended reals and over literal shapes.

  For two clouds of points `p, q : [4, 8192, 3]` (batch, point, coordinate):
    sqn p b n      = 0 + Σ_k p[b,n,k]²                         the squared norm of point n of batch b
    cross p q b n m = Σ_k p[b,n,k] · q[b,m,k]                   the inner product of p's point n and q's point m
    dist p q b n m  = max ((sqn p b n + sqn q b m) − 2 · cross p q b n m) 0
    nearRow p q b n = the minimum over m of dist p q b n m, from +∞     (the nearest q-point to p's point n)
    nearCol p q b m = the minimum over n of dist p q b n m, from +∞     (the nearest p-point to q's point m)
  and the result is (0 + Σ nearRow) / 32768 + (0 + Σ nearCol) / 32768.

  The four float words (0, 2, +∞, 32768) are kept as their bit patterns, the same on both sides: nothing here
  evaluates one. A minimum "from +∞" is a fold of `min` from that word; the one law used about it is its universal
  property (`c ≤ fold ↔ c ≤ start ∧ ∀ x, c ≤ f x`), which needs no fact about the word. Swapping the two clouds
  swaps the roles of n and m: `dist q p b m n = dist p q b n m` by commutativity of + and · on the extended reals
  (no finiteness is needed: neither law fails at an infinity).
-/
import Idealize.ShloMosaic.PureOps.Ideal.Laws
import Idealize.ShloMosaic.Lib.ValueIdx
import Mathlib.Data.Finset.Fold

noncomputable section

namespace Cert.Nearest

open Idealize.ShloMosaic Idealize.ShloMosaic.ValueIdx

/-- A cloud: 4 batches of 8192 points of 3 coordinates. -/
abbrev Cloud : Shape := ⟨3, ![4, 8192, 3]⟩
/-- One value per batch and point. -/
abbrev PerPoint : Shape := ⟨2, ![4, 8192]⟩
/-- The scalar shape. -/
abbrev Scalar0 : Shape := ⟨0, ![]⟩

/-- The four float words of the two programs, as the extended reals they denote (never evaluated). -/
abbrev wZero : EReal := Ideal.ofBits .f32 0x00000000#32
abbrev wTwo : EReal := Ideal.ofBits .f32 0x40000000#32
abbrev wInf : EReal := Ideal.ofBits .f32 0x7F800000#32

/-- The squared norm of point `n` of batch `b`, as the host sums it: from the zero word. -/
def sqn (p : Cloud.Idx → EReal) (b : Fin 4) (n : Fin 8192) : EReal :=
  wZero + ∑ k : Fin 3, p (ix3 b n k) * p (ix3 b n k)

/-- The inner product of `p`'s point `n` and `q`'s point `m` in batch `b`. -/
def cross (p q : Cloud.Idx → EReal) (b : Fin 4) (n m : Fin 8192) : EReal :=
  ∑ k : Fin 3, p (ix3 b n k) * q (ix3 b m k)

/-- The clamped squared distance between `p`'s point `n` and `q`'s point `m`. -/
def dist (p q : Cloud.Idx → EReal) (b : Fin 4) (n m : Fin 8192) : EReal :=
  max ((sqn p b n + sqn q b m) - wTwo * cross p q b n m) wZero

/-- The least clamped squared distance from `p`'s point `n` to any point of `q` (a fold of `min` from the +∞ word). -/
def nearRow (p q : Cloud.Idx → EReal) (b : Fin 4) (n : Fin 8192) : EReal :=
  (Finset.univ : Finset (Fin 8192)).fold min wInf fun m => dist p q b n m

/-- The least clamped squared distance from `q`'s point `m` to any point of `p`. -/
def nearCol (p q : Cloud.Idx → EReal) (b : Fin 4) (m : Fin 8192) : EReal :=
  (Finset.univ : Finset (Fin 8192)).fold min wInf fun n => dist p q b n m

/-- Swapping the clouds swaps the points' roles: + and · commute on the extended reals. -/
theorem cross_swap (p q : Cloud.Idx → EReal) (b : Fin 4) (n m : Fin 8192) : cross q p b m n = cross p q b n m := by
  unfold cross; exact Finset.sum_congr rfl fun k _ => mul_comm _ _

theorem dist_swap (p q : Cloud.Idx → EReal) (b : Fin 4) (n m : Fin 8192) : dist q p b m n = dist p q b n m := by
  unfold dist; rw [cross_swap, add_comm]

/-- So the second call's row minimum (clouds swapped) is the first's column minimum. -/
theorem nearRow_swap (p q : Cloud.Idx → EReal) (b : Fin 4) (m : Fin 8192) : nearRow q p b m = nearCol p q b m := by
  unfold nearRow nearCol
  rw [show (fun n => dist q p b m n) = fun n => dist p q b n m from funext fun n => dist_swap p q b n m]

/-- The two nearest-distance arrays as vectors over [4, 8192]. -/
def rowVec (p q : Cloud.Idx → EReal) : PerPoint.Idx → EReal :=
  fun i => nearRow p q ⟨(i 0).val, (i 0).isLt⟩ ⟨(i 1).val, (i 1).isLt⟩
def colVec (p q : Cloud.Idx → EReal) : PerPoint.Idx → EReal :=
  fun i => nearCol p q ⟨(i 0).val, (i 0).isLt⟩ ⟨(i 1).val, (i 1).isLt⟩

/-- What both programs do with the two nearest-distance arrays: each summed over every entry from the zero word and
    divided by the word 32768, the two quotients added. The same host operations on both sides, so it is carried as
    one function and never opened. -/
def meanSum (hred : PerPoint.ReducesTo [0, 1] Scalar0) (hpos : 0 < Scalar0.numel) (d1 d2 : FVec Ideal PerPoint .f32) :
    FVec Ideal Scalar0 .f32 :=
  addf (Host.divf (Host.reduceAdd (F := Ideal) d1 (constant (F := Ideal) Scalar0 .f32 0x00000000#32) hred hpos)
      (constant (F := Ideal) Scalar0 .f32 0x47000000#32))
    (Host.divf (Host.reduceAdd (F := Ideal) d2 (constant (F := Ideal) Scalar0 .f32 0x00000000#32) hred hpos)
      (constant (F := Ideal) Scalar0 .f32 0x47000000#32))

/-- The universal property of a minimum taken tile by tile: a running minimum over the first `k` tiles of 512, started
    at the +∞ word, is characterised by what lies below it. Stated for any function on `Fin 8192`. -/
def below (c : EReal) (f : Fin 8192 → EReal) (bound : Nat) : Prop :=
  c ≤ wInf ∧ ∀ m : Fin 8192, m.val < bound → c ≤ f m

theorem below_all (c : EReal) (f : Fin 8192 → EReal) :
    below c f 8192 ↔ c ≤ (Finset.univ : Finset (Fin 8192)).fold min wInf f := by
  unfold below
  rw [Finset.le_fold_min]
  exact ⟨fun ⟨h0, h⟩ => ⟨h0, fun x _ => h x x.isLt⟩, fun ⟨h0, h⟩ => ⟨h0, fun m _ => h m (Finset.mem_univ m)⟩⟩

end Cert.Nearest

end
-- ==== Proof.NearestTile.lean ====
/-
  What one grid point's body computes, at an index and on the extended reals: the running minimum it stores is the
  minimum of what it found and of the tile's 512 clamped distances, from the +∞ word. Stated by what lies below it, so
  that no fact about the +∞ word is needed.
-/
import proofs.«103544_j85478439125595_1_alg».proof.Proof.Gen.KernelIdeal.Skeleton
import proofs.«103544_j85478439125595_1_alg».proof.Proof.NearestSpec
import Idealize.ShloMosaic.PureOps.Reduce
import Idealize.ShloMosaic.PureOps.Ideal.Laws
import Idealize.ShloMosaic.Lib.Pipeline.Value
import Idealize.ShloMosaic.Lib.ValueLayout

noncomputable section

namespace Cert.KernelIdeal.Nearest

open Cert.KernelIdeal Cert.KernelIdeal.Gen Cert.Nearest
open Idealize.ShloMosaic Idealize.ShloMosaic.ValueIdx

/-- A tile's clamped distance from the row block's point `r` to the column block's point `j`, from the four blocks
    the body loads: the points `a`, `b` ([4,512,3]), the rows' squared norms `a2` ([4,512,1]) and the columns' `b2` ([4,1,512]). -/
def tileDist (a b : FVec Ideal S4x512x3 .f32) (a2 : FVec Ideal S4x512x1 .f32) (b2 : FVec Ideal S4x1x512 .f32)
    (β : Fin 4) (r j : Fin 512) : EReal :=
  max ((a2 (ix3 β r 0) + b2 (ix3 β 0 j)) - wTwo * ∑ k : Fin 3, a (ix3 β r k) * b (ix3 β j k)) wZero

/-! ## The product of the two point blocks, at an index

The matmul keeps the batch axis, and contracts the coordinate axis of both blocks: entry (β, r, j) is the inner product
of the row block's point r and the column block's point j in batch β. Each operand index is read off axis by axis. -/

private theorem lhs_axis0 (i : S4x512x512.Idx) (q : dot_S4x512x3_S4x512x3_S4x512x512_2_2_1_1_0_0.contr.Idx) :
    (dot_S4x512x3_S4x512x3_S4x512x512_2_2_1_1_0_0.lhsIdx i q 0).val = (i 0).val := by
  unfold DotDims.lhsIdx
  rw [dif_pos (show (0 : Fin S4x512x3.rank) ∈ dot_S4x512x3_S4x512x3_S4x512x512_2_2_1_1_0_0.lhsBatch by decide)]
  rfl
private theorem lhs_axis1 (i : S4x512x512.Idx) (q : dot_S4x512x3_S4x512x3_S4x512x512_2_2_1_1_0_0.contr.Idx) :
    (dot_S4x512x3_S4x512x3_S4x512x512_2_2_1_1_0_0.lhsIdx i q 1).val = (i 1).val := by
  unfold DotDims.lhsIdx
  rw [dif_neg (show ¬(1 : Fin S4x512x3.rank) ∈ dot_S4x512x3_S4x512x3_S4x512x512_2_2_1_1_0_0.lhsBatch by decide),
    dif_pos (show (1 : Fin S4x512x3.rank) ∈ dot_S4x512x3_S4x512x3_S4x512x512_2_2_1_1_0_0.lhsNonContracting by decide)]
  rfl
private theorem lhs_axis2 (i : S4x512x512.Idx) (q : dot_S4x512x3_S4x512x3_S4x512x512_2_2_1_1_0_0.contr.Idx) :
    (dot_S4x512x3_S4x512x3_S4x512x512_2_2_1_1_0_0.lhsIdx i q 2).val = (q ⟨0, by decide⟩).val :=
  dot_S4x512x3_S4x512x3_S4x512x512_2_2_1_1_0_0.lhsIdx_val_of_single rfl i q
private theorem rhs_axis0 (i : S4x512x512.Idx) (q : dot_S4x512x3_S4x512x3_S4x512x512_2_2_1_1_0_0.contr.Idx) :
    (dot_S4x512x3_S4x512x3_S4x512x512_2_2_1_1_0_0.rhsIdx i q 0).val = (i 0).val := by
  unfold DotDims.rhsIdx
  rw [dif_pos (show (0 : Fin S4x512x3.rank) ∈ dot_S4x512x3_S4x512x3_S4x512x512_2_2_1_1_0_0.rhsBatch by decide)]
  rfl
private theorem rhs_axis1 (i : S4x512x512.Idx) (q : dot_S4x512x3_S4x512x3_S4x512x512_2_2_1_1_0_0.contr.Idx) :
    (dot_S4x512x3_S4x512x3_S4x512x512_2_2_1_1_0_0.rhsIdx i q 1).val = (i 2).val := by
  unfold DotDims.rhsIdx
  rw [dif_neg (show ¬(1 : Fin S4x512x3.rank) ∈ dot_S4x512x3_S4x512x3_S4x512x512_2_2_1_1_0_0.rhsBatch by decide),
    dif_pos (show (1 : Fin S4x512x3.rank) ∈ dot_S4x512x3_S4x512x3_S4x512x512_2_2_1_1_0_0.rhsNonContracting by decide)]
  rfl
private theorem rhs_axis2 (i : S4x512x512.Idx) (q : dot_S4x512x3_S4x512x3_S4x512x512_2_2_1_1_0_0.contr.Idx) :
    (dot_S4x512x3_S4x512x3_S4x512x512_2_2_1_1_0_0.rhsIdx i q 2).val = (q ⟨0, by decide⟩).val :=
  dot_S4x512x3_S4x512x3_S4x512x512_2_2_1_1_0_0.rhsIdx_val_of_single rfl i q

/-- The product into the zero splat, at (β, r, j): the sum over the three coordinates. -/
private theorem product_apply (a b : FVec Ideal S4x512x3 .f32) (β : Fin 4) (r j : Fin 512) :
    matmul dot_S4x512x3_S4x512x3_S4x512x512_2_2_1_1_0_0 (some .fp32) a b (constant (F := Ideal) S4x512x512 .f32 0x00000000#32)
        (ix3 β r j)
      = ∑ k : Fin 3, a (ix3 β r k) * b (ix3 β j k) := by
  simp only [matmul]
  rw [Ideal.matmul_constant_zero_apply,
    ← Equiv.sum_comp (contrEquiv1 dot_S4x512x3_S4x512x3_S4x512x512_2_2_1_1_0_0 3 rfl rfl).symm]
  refine Finset.sum_congr rfl fun k _ => ?_
  have hk := contrEquiv1_symm_val dot_S4x512x3_S4x512x3_S4x512x512_2_2_1_1_0_0 3 rfl rfl k
  have el : dot_S4x512x3_S4x512x3_S4x512x512_2_2_1_1_0_0.lhsIdx (ix3 β r j)
      ((contrEquiv1 dot_S4x512x3_S4x512x3_S4x512x512_2_2_1_1_0_0 3 rfl rfl).symm k) = ix3 β r k := funext fun x => Fin.ext (by
    match x with
    | ⟨0, _⟩ => exact lhs_axis0 _ _
    | ⟨1, _⟩ => exact lhs_axis1 _ _
    | ⟨2, _⟩ => exact (lhs_axis2 _ _).trans hk)
  have er : dot_S4x512x3_S4x512x3_S4x512x512_2_2_1_1_0_0.rhsIdx (ix3 β r j)
      ((contrEquiv1 dot_S4x512x3_S4x512x3_S4x512x512_2_2_1_1_0_0 3 rfl rfl).symm k) = ix3 β j k := funext fun x => Fin.ext (by
    match x with
    | ⟨0, _⟩ => exact rhs_axis0 _ _
    | ⟨1, _⟩ => exact rhs_axis1 _ _
    | ⟨2, _⟩ => exact (rhs_axis2 _ _).trans hk)
  rw [el, er]

/-! ## The two squared-norm blocks, spread over the tile -/

/-- The rows' squared norms [4,512,1] broadcast to the tile read, at (β, r, j), row r's. -/
private theorem rowNorms_apply (a2 : FVec Ideal S4x512x1 .f32) (β : Fin 4) (r j : Fin 512) :
    broadcastTo S4x512x512 a2 broadcasts_S4x512x1_S4x512x512 (ix3 β r j) = a2 (ix3 β r 0) :=
  broadcastTo_apply a2 broadcasts_S4x512x1_S4x512x512 (ix3 β r j) (ix3 β r 0) (fun x => match x with
    | ⟨0, _⟩ => by show β.val = if (4 : Nat) = 1 then 0 else β.val; rw [if_neg (by decide)]
    | ⟨1, _⟩ => by show r.val = if (512 : Nat) = 1 then 0 else r.val; rw [if_neg (by decide)]
    | ⟨2, _⟩ => by show 0 = if (1 : Nat) = 1 then 0 else j.val; rw [if_pos rfl])

/-- The columns' squared norms [4,1,512] broadcast to the tile read, at (β, r, j), column j's. -/
private theorem colNorms_apply (b2 : FVec Ideal S4x1x512 .f32) (β : Fin 4) (r j : Fin 512) :
    broadcastTo S4x512x512 b2 broadcasts_S4x1x512_S4x512x512 (ix3 β r j) = b2 (ix3 β 0 j) :=
  broadcastTo_apply b2 broadcasts_S4x1x512_S4x512x512 (ix3 β r j) (ix3 β 0 j) (fun x => match x with
    | ⟨0, _⟩ => by show β.val = if (4 : Nat) = 1 then 0 else β.val; rw [if_neg (by decide)]
    | ⟨1, _⟩ => by show 0 = if (1 : Nat) = 1 then 0 else r.val; rw [if_pos rfl]
    | ⟨2, _⟩ => by show j.val = if (512 : Nat) = 1 then 0 else j.val; rw [if_neg (by decide)])

/-! ## The tile of clamped distances -/

/-- The [4,512,512] tile the body reduces: the clamp at the zero word of the norms' sum less twice the product. -/
private def tileVec (a b : FVec Ideal S4x512x3 .f32) (a2 : FVec Ideal S4x512x1 .f32) (b2 : FVec Ideal S4x1x512 .f32) :
    FVec Ideal S4x512x512 .f32 :=
  maximumf
    (subf
      (addf (broadcastTo S4x512x512 a2 broadcasts_S4x512x1_S4x512x512) (broadcastTo S4x512x512 b2 broadcasts_S4x1x512_S4x512x512))
      (mulf (broadcast S4x512x512 (Scalar.ofBits (F := Ideal) .f32 0x40000000#32))
        (matmul dot_S4x512x3_S4x512x3_S4x512x512_2_2_1_1_0_0 (some .fp32) a b (constant (F := Ideal) S4x512x512 .f32 0x00000000#32))))
    (broadcast S4x512x512 (Scalar.ofBits (F := Ideal) .f32 0x00000000#32))

/-- Entry (β, r, j) of the tile is the clamped distance of the row block's point r and the column block's point j. -/
private theorem tileVec_apply (a b : FVec Ideal S4x512x3 .f32) (a2 : FVec Ideal S4x512x1 .f32) (b2 : FVec Ideal S4x1x512 .f32)
    (β : Fin 4) (r j : Fin 512) : tileVec a b a2 b2 (ix3 β r j) = tileDist a b a2 b2 β r j := by
  unfold tileVec tileDist
  rw [maximumf_apply, subf_apply, addf_apply, mulf_apply, rowNorms_apply, colNorms_apply, product_apply]
  rfl

/-! ## The minimum along the tile's columns, and the unit axis put back -/

/-- The index over (β, r) with j put on the reduced axis is (β, r, j). -/
private theorem lift_row (β : Fin 4) (r j : Fin 512) : reduces_S4x512x512_S4x512.lift (ix2 β r) j = ix3 β r j :=
  funext fun x => Fin.ext (by match x with | ⟨0, _⟩ => rfl | ⟨1, _⟩ => rfl | ⟨2, _⟩ => rfl)

/-- Below the row minimum of a [4,512,512] vector, taken from the +∞ word, lies what is below that word and below
    every entry of the row. -/
private theorem rowMin_le_iff (v : FVec Ideal S4x512x512 .f32) (hφ : FKind.Formats .f32)
    (hacc : (0x7F800000#32 : BitVec 32) = FKind.minimumf.neutral .f32 hφ) (β : Fin 4) (r : Fin 512) (c : EReal) :
    c ≤ multiReduction .minimumf [2] S4x512 v 0x7F800000#32 reduces_S4x512x512_S4x512 hφ hacc (ix2 β r)
      ↔ c ≤ wInf ∧ ∀ j : Fin 512, c ≤ v (ix3 β r j) := by
  rw [multiReduction_minimumf_eq_fold, reduces_S4x512x512_S4x512.fold_filter_drop_single]
  show c ≤ Finset.fold min wInf _ _ ↔ _
  rw [Finset.le_fold_min]
  refine and_congr_right fun _ => ⟨fun h j => ?_, fun h k _ => ?_⟩
  · exact (congrArg (fun i => c ≤ v i) (lift_row β r j)).mp (h j (Finset.mem_univ _))
  · exact (congrArg (fun i => c ≤ v i) (lift_row β r k)).mpr (h k)

/-- A [4,512] vector viewed [4,512,1] reads, at (β, r, ·), its entry (β, r). -/
private theorem keepdims_apply (w : FVec Ideal S4x512 .f32) (β : Fin 4) (r : Fin 512) (z : Fin 1) :
    shapeCast S4x512x1 w shapeCasts_S4x512_S4x512x1 (ix3 β r z) = w (ix2 β r) :=
  shapeCast_apply w shapeCasts_S4x512_S4x512x1 (ix3 β r z) (ix2 β r) (by
    have hz : z.val = 0 := by omega
    rw [Shape.rowMajor_val_three, Shape.rowMajor_val_two]
    show β.val * 512 + r.val = (β.val * 512 + r.val) * 1 + z.val
    rw [hz, Nat.mul_one, Nat.add_zero])

/-! ## One grid point's update of the running minimum -/

/-- The body's update with its identity shape casts dropped: the minimum of the running minimum and of the tile's row
    minima (from the +∞ word), the unit axis put back. -/
private def stepVec (a b : FVec Ideal S4x512x3 .f32) (a2 : FVec Ideal S4x512x1 .f32) (b2 : FVec Ideal S4x1x512 .f32)
    (s : FVec Ideal S4x512x1 .f32) : FVec Ideal S4x512x1 .f32 :=
  minimumf s
    (shapeCast S4x512x1
      (multiReduction .minimumf [2] S4x512 (tileVec a b a2 b2) 0x7F800000#32 reduces_S4x512x512_S4x512 (.inl rfl) rfl)
      shapeCasts_S4x512_S4x512x1)

/-- Below the update lies what is below the running minimum, the +∞ word and every distance of the tile's row. -/
private theorem stepVec_le_iff (a b : FVec Ideal S4x512x3 .f32) (a2 : FVec Ideal S4x512x1 .f32) (b2 : FVec Ideal S4x1x512 .f32)
    (s : FVec Ideal S4x512x1 .f32) (β : Fin 4) (r : Fin 512) (z : Fin 1) (c : EReal) :
    c ≤ stepVec a b a2 b2 s (ix3 β r z) ↔
      c ≤ s (ix3 β r z) ∧ c ≤ wInf ∧ ∀ j : Fin 512, c ≤ tileDist a b a2 b2 β r j := by
  unfold stepVec
  rw [minimumf_apply, le_min_iff, keepdims_apply]
  refine and_congr_right fun _ => ?_
  refine (rowMin_le_iff (tileVec a b a2 b2) (.inl rfl) rfl β r c).trans ?_
  simp only [tileVec_apply]

private theorem k0_pay2_eq (a b : FVec Ideal S4x512x3 .f32) (a2 : FVec Ideal S4x512x1 .f32) (b2 : FVec Ideal S4x1x512 .f32)
    (s : FVec Ideal S4x512x1 .f32) : k0_pay2 (F := Ideal) a b a2 b2 s = stepVec a b a2 b2 s := by
  unfold k0_pay2 stepVec tileVec
  simp only [shapeCast_self]

private theorem k1_pay2_eq (a b : FVec Ideal S4x512x3 .f32) (a2 : FVec Ideal S4x512x1 .f32) (b2 : FVec Ideal S4x1x512 .f32)
    (s : FVec Ideal S4x512x1 .f32) : k1_pay2 (F := Ideal) a b a2 b2 s = stepVec a b a2 b2 s := by
  unfold k1_pay2 stepVec tileVec
  simp only [shapeCast_self]

/-- The first call's body: below the stored running minimum lies exactly what is below the minimum found, the +∞ word and every distance of the tile. -/
theorem step0_le_iff (a b : FVec Ideal S4x512x3 .f32) (a2 : FVec Ideal S4x512x1 .f32) (b2 : FVec Ideal S4x1x512 .f32)
    (s : FVec Ideal S4x512x1 .f32) (β : Fin 4) (r : Fin 512) (z : Fin 1) (c : EReal) :
    c ≤ k0_pay2 (F := Ideal) a b a2 b2 s (ix3 β r z) ↔
      c ≤ s (ix3 β r z) ∧ c ≤ wInf ∧ ∀ j : Fin 512, c ≤ tileDist a b a2 b2 β r j := by
  rw [k0_pay2_eq]
  exact stepVec_le_iff a b a2 b2 s β r z c

/-- What the first call's body resets the running minimum to at the first tile of a row block: the +∞ word everywhere. -/
theorem start0_apply (i : S4x512x1.Idx) : k0_pay1 (F := Ideal) i = wInf := by
  unfold k0_pay1
  rw [shapeCast_self]
  rfl

/-- The second call's body is the same text. -/
theorem step1_le_iff (a b : FVec Ideal S4x512x3 .f32) (a2 : FVec Ideal S4x512x1 .f32) (b2 : FVec Ideal S4x1x512 .f32)
    (s : FVec Ideal S4x512x1 .f32) (β : Fin 4) (r : Fin 512) (z : Fin 1) (c : EReal) :
    c ≤ k1_pay2 (F := Ideal) a b a2 b2 s (ix3 β r z) ↔
      c ≤ s (ix3 β r z) ∧ c ≤ wInf ∧ ∀ j : Fin 512, c ≤ tileDist a b a2 b2 β r j := by
  rw [k1_pay2_eq]
  exact stepVec_le_iff a b a2 b2 s β r z c

theorem start1_apply (i : S4x512x1.Idx) : k1_pay1 (F := Ideal) i = wInf := by
  unfold k1_pay1
  rw [shapeCast_self]
  rfl

end Cert.KernelIdeal.Nearest

end
-- ==== Proof.NearestHost.lean ====
/-
  The host operations of the kernel's program, read at `Ideal`: before each call they leave the squared norms of the two
  clouds in the arrays the call's third and fourth windows stage; after the second call they apply `meanSum` to the two
  calls' results, each reshaped from [4, 8192, 1] to [4, 8192]. The arguments are never written.
-/
import proofs.«103544_j85478439125595_1_alg».proof.Proof.Gen.KernelIdeal.Regions
import proofs.«103544_j85478439125595_1_alg».proof.Proof.NearestSpec
import Idealize.ShloMosaic.PureOps.Ideal.Laws
import Idealize.ShloMosaic.Lib.Pipeline.Value
import Idealize.ShloMosaic.Lib.ValueLayout
import Idealize.ShloMosaic.Lib.StableHlo.Run

noncomputable section

namespace Cert.KernelIdeal.Nearest

open Cert.KernelIdeal Cert.KernelIdeal.Gen Cert.Nearest
open Idealize.ShloMosaic Idealize.ShloMosaic.TcCoe Idealize.ShloMosaic.ValueIdx Idealize.SL.Sem

variable (m : (ℓ : Loc nD τ sig) → Buf (Elt Ideal) ℓ) (outs : Outs (F := Ideal))

/-- The two clouds as launched, on core `c`. -/
abbrev cloudP (c : Dev nD) : FVec Ideal S4x8192x3 .f32 := m ((c : Thread nD τ).loc main_arg0)
abbrev cloudQ (c : Dev nD) : FVec Ideal S4x8192x3 .f32 := m ((c : Thread nD τ).loc main_arg1)

/-- Squared norms laid out as a column [4, 8192, 1] and as a row [4, 1, 8192]. -/
def sqnCol (p : FVec Ideal S4x8192x3 .f32) : FVec Ideal S4x8192x1 .f32 :=
  fun i => sqn p ⟨(i 0).val, (i 0).isLt⟩ ⟨(i 1).val, (i 1).isLt⟩
def sqnRow (p : FVec Ideal S4x8192x3 .f32) : FVec Ideal S4x1x8192 .f32 :=
  fun i => sqn p ⟨(i 0).val, (i 0).isLt⟩ ⟨(i 2).val, (i 2).isLt⟩

/-- A call's result [4, 8192, 1] read as [4, 8192]. -/
def dropLast (x : FVec Ideal S4x8192x1 .f32) : FVec Ideal S4x8192 .f32 :=
  fun i => x (ix3 ⟨(i 0).val, (i 0).isLt⟩ ⟨(i 1).val, (i 1).isLt⟩ (0 : Fin 1))

/-! The operations read at an index -/

/-- The host's sum of squares over the coordinate axis, from the zero word, read at (b, n): the squared norm of point n
    of batch b. The inserted index of the single reduced axis is (b, n, k). -/
private theorem reduceSq_apply (p : FVec Ideal S4x8192x3 .f32) (j : S4x8192.Idx) :
    Host.reduceAdd (F := Ideal) (mulf p p) (constant (F := Ideal) S_ .f32 0x00000000#32) reducesTo_S4x8192x3_S4x8192_d2 h_S_ j
      = sqn p ⟨(j 0).val, (j 0).isLt⟩ ⟨(j 1).val, (j 1).isLt⟩ := by
  simp only [Host.reduceAdd, Ideal.hostReduceAdd_def]
  rw [Ideal.hostReduceAdd_single reducesTo_S4x8192x3_S4x8192_d2 (by decide)]
  unfold sqn
  refine congrArg₂ (· + ·) rfl (Finset.sum_congr rfl fun k _ => ?_)
  have e : ∀ h : S4x8192x3.Reduces [2] S4x8192,
      h.lift j k = ix3 (⟨(j 0).val, (j 0).isLt⟩ : Fin 4) (⟨(j 1).val, (j 1).isLt⟩ : Fin 8192) (k : Fin 3) := fun h =>
    funext fun a => Fin.ext (by match a with | ⟨0, _⟩ => rfl | ⟨1, _⟩ => rfl | ⟨2, _⟩ => rfl)
  exact congrArg (fun i => p i * p i) (e _)

/-- The squared norms broadcast along a trailing unit axis: entry (b, n, 0) is the squared norm of point n. -/
private theorem sqnCol_eq (x p : FVec Ideal S4x8192x3 .f32) (hx : x = p) :
    broadcastInDim S4x8192x1 ![0, 1] bcast_S4x8192_S4x8192x1_0_1
      (Host.reduceAdd (F := Ideal) (mulf x x) (constant (F := Ideal) S_ .f32 0x00000000#32) reducesTo_S4x8192x3_S4x8192_d2 h_S_)
      = sqnCol p := by
  subst hx
  funext i
  refine (broadcastInDim_apply _ bcast_S4x8192_S4x8192x1_0_1 _ i (ix2 ⟨(i 0).val, (i 0).isLt⟩ ⟨(i 1).val, (i 1).isLt⟩)
    (fun a => match a with
      | ⟨0, _⟩ => by show (i 0).val = if (4 : Nat) = 1 then 0 else (i 0).val; rw [if_neg (by decide)]
      | ⟨1, _⟩ => by show (i 1).val = if (8192 : Nat) = 1 then 0 else (i 1).val; rw [if_neg (by decide)])).trans ?_
  exact reduceSq_apply x _

/-- The squared norms broadcast along a middle unit axis: entry (b, 0, n) is the squared norm of point n. -/
private theorem sqnRow_eq (x p : FVec Ideal S4x8192x3 .f32) (hx : x = p) :
    broadcastInDim S4x1x8192 ![0, 2] bcast_S4x8192_S4x1x8192_0_2
      (Host.reduceAdd (F := Ideal) (mulf x x) (constant (F := Ideal) S_ .f32 0x00000000#32) reducesTo_S4x8192x3_S4x8192_d2 h_S_)
      = sqnRow p := by
  subst hx
  funext i
  refine (broadcastInDim_apply _ bcast_S4x8192_S4x1x8192_0_2 _ i (ix2 ⟨(i 0).val, (i 0).isLt⟩ ⟨(i 2).val, (i 2).isLt⟩)
    (fun a => match a with
      | ⟨0, _⟩ => by show (i 0).val = if (4 : Nat) = 1 then 0 else (i 0).val; rw [if_neg (by decide)]
      | ⟨1, _⟩ => by show (i 2).val = if (8192 : Nat) = 1 then 0 else (i 2).val; rw [if_neg (by decide)])).trans ?_
  exact reduceSq_apply x _

/-- A [4, 8192, 1] array cast to [4, 8192] reads, at (b, n), the operand at (b, n, 0): the same row-major position,
    (b · 8192 + n) · 1 + 0 = b · 8192 + n. -/
private theorem shapeCast_dropLast (x : FVec Ideal S4x8192x1 .f32) :
    shapeCast S4x8192 x shapeCasts_S4x8192x1_S4x8192 = dropLast x := by
  funext i
  refine shapeCast_apply x shapeCasts_S4x8192x1_S4x8192 i _ ?_
  rw [Shape.rowMajor_val_three, Shape.rowMajor_val_two]
  show ((i 0).val * 8192 + (i 1).val) * 1 + 0 = (i 0).val * 8192 + (i 1).val
  omega

/-- The closing operations on two arrays, the second still laid out as [4, 8192, 1], are `meanSum` of the two read as
    [4, 8192]: the same sums, quotients and addition on both sides. -/
private theorem tail_eq_meanSum (a d1 : FVec Ideal S4x8192 .f32) (b d2 : FVec Ideal S4x8192x1 .f32) (ha : a = d1) (hb : b = d2) :
    addf (Host.divf (Host.reduceAdd (F := Ideal) a (constant (F := Ideal) S_ .f32 0x00000000#32) reducesTo_S4x8192_S_d0_1 h_S_)
        (constant (F := Ideal) S_ .f32 0x47000000#32))
      (Host.divf (Host.reduceAdd (F := Ideal) (shapeCast S4x8192 b shapeCasts_S4x8192x1_S4x8192)
          (constant (F := Ideal) S_ .f32 0x00000000#32) reducesTo_S4x8192_S_d0_1 h_S_)
        (constant (F := Ideal) S_ .f32 0x47000000#32))
      = meanSum reducesTo_S4x8192_S_d0_1 h_S_ d1 (dropLast d2) := by
  subst ha hb
  rw [shapeCast_dropLast]
  rfl

/-! Before the first call (`V1`) -/
theorem V1_arg0 (c : Dev nD) : V1 m c main_arg0 = cloudP m c := (V1_of m c main_arg0 (by decide)).trans rfl
theorem V1_arg1 (c : Dev nD) : V1 m c main_arg1 = cloudQ m c := (V1_of m c main_arg1 (by decide)).trans rfl
theorem V1_v2 (c : Dev nD) : (V1 m c main_v2 : FVec Ideal S4x8192x1 .f32) = sqnCol (cloudP m c) := by
  show StableHlo.after hostOps0 _ (Proc.devRef .tc main_v2) = _
  after_results
  exact sqnCol_eq _ (cloudP m c) rfl
theorem V1_v5 (c : Dev nD) : (V1 m c main_v5 : FVec Ideal S4x1x8192 .f32) = sqnRow (cloudQ m c) := by
  show StableHlo.after hostOps0 _ (Proc.devRef .tc main_v5) = _
  after_results
  exact sqnRow_eq _ (cloudQ m c) rfl

/-! Before the second call (`V3`), whatever the first call left -/

/-- The first call writes neither cloud. -/
private theorem V2_arg0 (c : Dev nD) : V2 m outs c main_arg0 = cloudP m c :=
  (V2_of m outs c main_arg0 (by decide)).trans (V1_arg0 m c)
private theorem V2_arg1 (c : Dev nD) : V2 m outs c main_arg1 = cloudQ m c :=
  (V2_of m outs c main_arg1 (by decide)).trans (V1_arg1 m c)

theorem V3_arg0 (c : Dev nD) : V3 m outs c main_arg0 = cloudP m c :=
  (V3_of m outs c main_arg0 (by decide)).trans (V2_arg0 m outs c)
theorem V3_arg1 (c : Dev nD) : V3 m outs c main_arg1 = cloudQ m c :=
  (V3_of m outs c main_arg1 (by decide)).trans (V2_arg1 m outs c)
theorem V3_v10 (c : Dev nD) : (V3 m outs c main_v10 : FVec Ideal S4x8192x1 .f32) = sqnCol (cloudQ m c) := by
  show StableHlo.after hostOps1 _ (Proc.devRef .tc main_v10) = _
  after_results
  exact sqnCol_eq _ (cloudQ m c) (V2_arg1 m outs c)
theorem V3_v13 (c : Dev nD) : (V3 m outs c main_v13 : FVec Ideal S4x1x8192 .f32) = sqnRow (cloudP m c) := by
  show StableHlo.after hostOps1 _ (Proc.devRef .tc main_v13) = _
  after_results
  exact sqnRow_eq _ (cloudP m c) (V2_arg0 m outs c)

/-- The first call's result, reshaped before the second call, read as [4, 8192]. -/
private theorem V3_v7 (c : Dev nD) : (V3 m outs c main_v7 : FVec Ideal S4x8192 .f32) = dropLast (outs 2 main_v6 c) := by
  show StableHlo.after hostOps1 _ (Proc.devRef .tc main_v7) = _
  after_results
  have e : V2 m outs c main_v6 = outs 2 main_v6 c := Function.update_self ..
  exact (congrArg (fun x : FVec Ideal S4x8192x1 .f32 => shapeCast S4x8192 x shapeCasts_S4x8192x1_S4x8192) e).trans
    (shapeCast_dropLast _)

/-! At the end (`V5`) -/
theorem V5_v20 (c : Dev nD) :
    (V5 m outs c main_v20 : FVec Ideal S_ .f32)
      = meanSum reducesTo_S4x8192_S_d0_1 h_S_ (dropLast (outs 2 main_v6 c)) (dropLast (outs 4 main_v14 c)) := by
  show StableHlo.after hostOps2 _ (Proc.devRef .tc main_v20) = _
  after_results
  have e7 : (V4 m outs c main_v7 : FVec Ideal S4x8192 .f32) = dropLast (outs 2 main_v6 c) :=
    (V4_of m outs c main_v7 (by decide)).trans (V3_v7 m outs c)
  have e14 : V4 m outs c main_v14 = outs 4 main_v14 c := Function.update_self ..
  exact tail_eq_meanSum _ _ _ _ e7 e14

end Cert.KernelIdeal.Nearest

end
-- ==== Proof.NearestCall0.lean ====
/-
  What the first call leaves in its result array, on the extended reals. The call is handed two clouds (the "row" cloud at
  its first window, the "column" cloud at its second) and their squared norms (a column of the row cloud's at its third
  window, a row of the column cloud's at its fourth). Point t = 16·q + k of the grid works on row block q (rows
  512·q … 512·q + 511) against column tile k (columns 512·k … 512·k + 511); after it the scratch's entry for row r lies
  above exactly what lies below the +∞ word and below every clamped distance from row 512·q + r to the columns before
  512·(k + 1) — by induction on k, the reset at k = 0 and one update per tile. At k = 15 that is every column, the scratch
  is written back as block q of the result, and the 16 blocks cover it: entry (b, n, 0) of the result is the least
  clamped distance from point n of the row cloud to the column cloud.
-/
import proofs.«103544_j85478439125595_1_alg».proof.Proof.RunningMin0
import proofs.«103544_j85478439125595_1_alg».proof.Proof.NearestTile
import proofs.«103544_j85478439125595_1_alg».proof.Proof.NearestHost
import proofs.«103544_j85478439125595_1_alg».proof.Proof.NearestSpec
import Idealize.ShloMosaic.Lib.Pipeline.Value
import Idealize.ShloMosaic.Lib.ValueIdx

set_option maxRecDepth 16384

noncomputable section

namespace Cert.KernelIdeal.Nearest

open Cert.KernelIdeal Cert.KernelIdeal.Gen Cert.Nearest
open Idealize.ShloMosaic Idealize.ShloMosaic.TcCoe Idealize.ShloMosaic.ValueIdx Idealize.SL.Sem
open Idealize.ShloMosaic.Pipeline (Dat)

/-! ## Where the blocks sit -/

/-- Where each window's block sits at point t: row block t / 16 for the row cloud, its norms and the result, column tile
    t % 16 for the column cloud and its norms; decided over the 256 points. -/
private theorem idx_facts : ∀ t : Fin cfg0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val % 16 ∧ win0_1.index t (2 : Fin 3) = 0
    ∧ win0_2.index t (0 : Fin 3) = 0 ∧ win0_2.index t (1 : Fin 3) = t.val / 16 ∧ win0_2.index t (2 : Fin 3) = 0
    ∧ win0_3.index t (0 : Fin 3) = 0 ∧ win0_3.index t (1 : Fin 3) = 0 ∧ win0_3.index t (2 : Fin 3) = t.val % 16
    ∧ win0_4.index t (0 : Fin 3) = 0 ∧ win0_4.index t (1 : Fin 3) = t.val / 16 ∧ win0_4.index t (2 : Fin 3) = 0 :=
  (by decide +kernel : ∀ t : Fin grid0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val % 16 ∧ win0_1.index t (2 : Fin 3) = 0
    ∧ win0_2.index t (0 : Fin 3) = 0 ∧ win0_2.index t (1 : Fin 3) = t.val / 16 ∧ win0_2.index t (2 : Fin 3) = 0
    ∧ win0_3.index t (0 : Fin 3) = 0 ∧ win0_3.index t (1 : Fin 3) = 0 ∧ win0_3.index t (2 : Fin 3) = t.val % 16
    ∧ win0_4.index t (0 : Fin 3) = 0 ∧ win0_4.index t (1 : Fin 3) = t.val / 16 ∧ win0_4.index t (2 : Fin 3) = 0)

/-- Row r of row block q, and column j of column tile k, among the 8192 points. -/
private def rowIx (q : Fin 16) (r : Fin 512) : Fin 8192 := ⟨512 * q.val + r.val, by omega⟩
private def colIx (k : Fin 16) (j : Fin 512) : Fin 8192 := ⟨512 * k.val + j.val, by omega⟩

section
variable (V : (c : Dev nD) → (b : Ref sig .tc) → Buf (Elt Ideal) ((c : Thread nD τ).loc b)) (c : Dev nD)

/-! ## The four blocks point t = 16·q + k loads, read off the arrays -/

private theorem rowPts_apply (A : FVec Ideal S4x8192x3 .f32) (hA : (V c (Pipeline.arrRef spec0 0) : FVec Ideal S4x8192x3 .f32) = A)
    (t : Fin cfg0.N) (q k : Fin 16) (ht : t.val = 16 * q.val + k.val) (b : Fin 4) (r : Fin 512) (d : Fin 3) :
    Call0.rowPts V c t (ix3 b r d) = A (ix3 b (rowIx q r) d) := by
  subst hA
  obtain ⟨e0, e1, e2, -⟩ := idx_facts t
  unfold Call0.rowPts Call0.blockAt
  rw [View.read_apply]
  show (V c (Pipeline.arrRef spec0 0) : FVec Ideal S4x8192x3 .f32) _ = _
  refine congrArg _ (funext fun a => Fin.ext ?_)
  match a with
  | ⟨0, _⟩ => show win0_0.index t (0 : Fin 3) * 4 + 1 * b.val = b.val; rw [e0]; omega
  | ⟨1, _⟩ => show win0_0.index t (1 : Fin 3) * 512 + 1 * r.val = 512 * q.val + r.val; rw [e1]; omega
  | ⟨2, _⟩ => show win0_0.index t (2 : Fin 3) * 3 + 1 * d.val = d.val; rw [e2]; omega

private theorem colPts_apply (A : FVec Ideal S4x8192x3 .f32) (hA : (V c (Pipeline.arrRef spec0 1) : FVec Ideal S4x8192x3 .f32) = A)
    (t : Fin cfg0.N) (q k : Fin 16) (ht : t.val = 16 * q.val + k.val) (b : Fin 4) (j : Fin 512) (d : Fin 3) :
    Call0.colPts V c t (ix3 b j d) = A (ix3 b (colIx k j) d) := by
  subst hA
  obtain ⟨-, -, -, e0, e1, e2, -⟩ := idx_facts t
  unfold Call0.colPts Call0.blockAt
  rw [View.read_apply]
  show (V c (Pipeline.arrRef spec0 1) : FVec Ideal S4x8192x3 .f32) _ = _
  refine congrArg _ (funext fun a => Fin.ext ?_)
  match a with
  | ⟨0, _⟩ => show win0_1.index t (0 : Fin 3) * 4 + 1 * b.val = b.val; rw [e0]; omega
  | ⟨1, _⟩ => show win0_1.index t (1 : Fin 3) * 512 + 1 * j.val = 512 * k.val + j.val; rw [e1]; omega
  | ⟨2, _⟩ => show win0_1.index t (2 : Fin 3) * 3 + 1 * d.val = d.val; rw [e2]; omega

private theorem rowSq_apply (A : FVec Ideal S4x8192x1 .f32) (hA : (V c (Pipeline.arrRef spec0 2) : FVec Ideal S4x8192x1 .f32) = A)
    (t : Fin cfg0.N) (q k : Fin 16) (ht : t.val = 16 * q.val + k.val) (b : Fin 4) (r : Fin 512) (z : Fin 1) :
    Call0.rowSq V c t (ix3 b r z) = A (ix3 b (rowIx q r) z) := by
  subst hA
  obtain ⟨-, -, -, -, -, -, e0, e1, e2, -⟩ := idx_facts t
  unfold Call0.rowSq Call0.blockAt
  rw [View.read_apply]
  show (V c (Pipeline.arrRef spec0 2) : FVec Ideal S4x8192x1 .f32) _ = _
  refine congrArg _ (funext fun a => Fin.ext ?_)
  match a with
  | ⟨0, _⟩ => show win0_2.index t (0 : Fin 3) * 4 + 1 * b.val = b.val; rw [e0]; omega
  | ⟨1, _⟩ => show win0_2.index t (1 : Fin 3) * 512 + 1 * r.val = 512 * q.val + r.val; rw [e1]; omega
  | ⟨2, _⟩ => show win0_2.index t (2 : Fin 3) * 1 + 1 * z.val = z.val; rw [e2]; omega

private theorem colSq_apply (A : FVec Ideal S4x1x8192 .f32) (hA : (V c (Pipeline.arrRef spec0 3) : FVec Ideal S4x1x8192 .f32) = A)
    (t : Fin cfg0.N) (q k : Fin 16) (ht : t.val = 16 * q.val + k.val) (b : Fin 4) (z : Fin 1) (j : Fin 512) :
    Call0.colSq V c t (ix3 b z j) = A (ix3 b z (colIx k j)) := by
  subst hA
  obtain ⟨-, -, -, -, -, -, -, -, -, e0, e1, e2, -⟩ := idx_facts t
  unfold Call0.colSq Call0.blockAt
  rw [View.read_apply]
  show (V c (Pipeline.arrRef spec0 3) : FVec Ideal S4x1x8192 .f32) _ = _
  refine congrArg _ (funext fun a => Fin.ext ?_)
  match a with
  | ⟨0, _⟩ => show win0_3.index t (0 : Fin 3) * 4 + 1 * b.val = b.val; rw [e0]; omega
  | ⟨1, _⟩ => show win0_3.index t (1 : Fin 3) * 1 + 1 * z.val = z.val; rw [e1]; omega
  | ⟨2, _⟩ => show win0_3.index t (2 : Fin 3) * 512 + 1 * j.val = 512 * k.val + j.val; rw [e2]; omega

end

section
variable (V : (c : Dev nD) → (b : Ref sig .tc) → Buf (Elt Ideal) ((c : Thread nD τ).loc b)) (c : Dev nD)
  (P Q : FVec Ideal S4x8192x3 .f32)
  (hP : (V c (Pipeline.arrRef spec0 0) : FVec Ideal S4x8192x3 .f32) = P)
  (hQ : (V c (Pipeline.arrRef spec0 1) : FVec Ideal S4x8192x3 .f32) = Q)
  (hP2 : (V c (Pipeline.arrRef spec0 2) : FVec Ideal S4x8192x1 .f32) = sqnCol P)
  (hQ2 : (V c (Pipeline.arrRef spec0 3) : FVec Ideal S4x1x8192 .f32) = sqnRow Q)
include hP hQ hP2 hQ2

/-! ## One tile's distances are the clouds' -/

/-- At point t = 16·q + k the tile's clamped distance at (r, j) is the clouds' from row 512·q + r to column 512·k + j. -/
private theorem tile_eq (t : Fin cfg0.N) (q k : Fin 16) (ht : t.val = 16 * q.val + k.val) (b : Fin 4) (r j : Fin 512) :
    tileDist (Call0.rowPts V c t) (Call0.colPts V c t) (Call0.rowSq V c t) (Call0.colSq V c t) b r j
      = Cert.Nearest.dist P Q b (rowIx q r) (colIx k j) := by
  unfold tileDist Cert.Nearest.dist cross
  rw [rowSq_apply V c _ hP2 t q k ht, colSq_apply V c _ hQ2 t q k ht]
  simp only [rowPts_apply V c _ hP t q k ht, colPts_apply V c _ hQ t q k ht]
  rfl

/-- So one point's update of a running minimum s, from below. -/
private theorem update_le_iff (t : Fin cfg0.N) (q k : Fin 16) (ht : t.val = 16 * q.val + k.val) (s : FVec Ideal S4x512x1 .f32)
    (b : Fin 4) (r : Fin 512) (z : Fin 1) (c' : EReal) :
    c' ≤ Call0.update V c t s (ix3 b r z)
      ↔ c' ≤ s (ix3 b r z) ∧ c' ≤ wInf ∧ ∀ j : Fin 512, c' ≤ Cert.Nearest.dist P Q b (rowIx q r) (colIx k j) := by
  unfold Call0.update
  refine (step0_le_iff _ _ _ _ s b r z c').trans ?_
  simp only [tile_eq V c P Q hP hQ hP2 hQ2 t q k ht]

omit hP hQ hP2 hQ2 in
/-- The columns before 512·(k + 1) are those before 512·k and tile k's. -/
private theorem below_step (c' : EReal) (f : Fin 8192 → EReal) (k : ℕ) (hk : k < 16) :
    below c' f (512 * (k + 1)) ↔ below c' f (512 * k) ∧ ∀ j : Fin 512, c' ≤ f (colIx ⟨k, hk⟩ j) := by
  unfold below
  constructor
  · rintro ⟨h0, h⟩
    exact ⟨⟨h0, fun m hm => h m (by omega)⟩, fun j => h (colIx ⟨k, hk⟩ j) (by show 512 * k + j.val < 512 * (k + 1); omega)⟩
  · rintro ⟨⟨h0, h⟩, h'⟩
    refine ⟨h0, fun m hm => ?_⟩
    by_cases hlt : m.val < 512 * k
    · exact h m hlt
    · have e : colIx ⟨k, hk⟩ ⟨m.val - 512 * k, by omega⟩ = m := Fin.ext (by show 512 * k + (m.val - 512 * k) = m.val; omega)
      exact e ▸ h' ⟨m.val - 512 * k, by omega⟩

omit hP hQ hP2 hQ2 in
private theorem runMin_at_first (n : ℕ) (hn : n < cfg0.N) (h0 : n % 16 = 0) :
    Call0.runMin V c n hn = Call0.update V c ⟨n, hn⟩ (k0_pay1 (F := Ideal)) :=
  Call0.runMin_first V c ⟨n, hn⟩ h0

omit hP hQ hP2 hQ2 in
private theorem runMin_at_later (n : ℕ) (hn : n + 1 < cfg0.N) (h : ¬(n + 1) % 16 = 0) :
    Call0.runMin V c (n + 1) hn = Call0.update V c ⟨n + 1, hn⟩ (Call0.runMin V c n (Nat.lt_of_succ_lt hn)) :=
  Call0.runMin_later V c ⟨n + 1, hn⟩ h

/-! ## The running minimum over a row block's tiles -/

/-- After tile k of row block q, below the scratch's entry for row r lies exactly what is below the +∞ word and below
    every clamped distance from row 512·q + r to the columns before 512·(k + 1). -/
private theorem runMin_le_iff (q : Fin 16) : ∀ (k : ℕ) (hk : k < 16) (hn : 16 * q.val + k < cfg0.N) (b : Fin 4) (r : Fin 512)
    (z : Fin 1) (c' : EReal),
    c' ≤ Call0.runMin V c (16 * q.val + k) hn (ix3 b r z)
      ↔ below c' (fun m => Cert.Nearest.dist P Q b (rowIx q r) m) (512 * (k + 1))
  | 0, hk, hn, b, r, z, c' => by
    have e : Call0.runMin V c (16 * q.val + 0) hn = Call0.update V c ⟨16 * q.val + 0, hn⟩ (k0_pay1 (F := Ideal)) :=
      runMin_at_first V c _ hn (by omega)
    refine (iff_of_eq (congrArg (fun s : FVec Ideal S4x512x1 .f32 => c' ≤ s (ix3 b r z)) e)).trans ?_
    refine (update_le_iff V c P Q hP hQ hP2 hQ2 ⟨_, hn⟩ q ⟨0, hk⟩ rfl _ b r z c').trans ?_
    rw [start0_apply]
    refine Iff.trans ?_ (below_step c' _ 0 hk).symm
    exact ⟨fun ⟨h0, _, hj⟩ => ⟨⟨h0, fun m hm => absurd hm (by omega)⟩, hj⟩, fun ⟨hb, hj⟩ => ⟨hb.1, hb.1, hj⟩⟩
  | k + 1, hk, hn, b, r, z, c' => by
    have ih := runMin_le_iff q k (by omega) (Nat.lt_of_succ_lt hn) b r z c'
    have e : Call0.runMin V c (16 * q.val + (k + 1)) hn
        = Call0.update V c ⟨16 * q.val + (k + 1), hn⟩ (Call0.runMin V c (16 * q.val + k) (Nat.lt_of_succ_lt hn)) :=
      runMin_at_later V c (16 * q.val + k) hn (by omega)
    refine (iff_of_eq (congrArg (fun s : FVec Ideal S4x512x1 .f32 => c' ≤ s (ix3 b r z)) e)).trans ?_
    refine (update_le_iff V c P Q hP hQ hP2 hQ2 ⟨_, hn⟩ q ⟨k + 1, hk⟩ rfl _ b r z c').trans ?_
    refine Iff.trans ?_ (below_step c' _ (k + 1) hk).symm
    exact ⟨fun ⟨hs, _, hj⟩ => ⟨ih.mp hs, hj⟩, fun ⟨hb, hj⟩ => ⟨ih.mpr hb, hb.1, hj⟩⟩

/-- After a row block's last tile the scratch's entry for row r is the least clamped distance from row 512·q + r. -/
private theorem runMin_last (q : Fin 16) (hn : 16 * q.val + 15 < cfg0.N) (b : Fin 4) (r : Fin 512) (z : Fin 1) :
    Call0.runMin V c (16 * q.val + 15) hn (ix3 b r z) = nearRow P Q b (rowIx q r) :=
  eq_of_forall_le_iff fun c' =>
    (runMin_le_iff V c P Q hP hQ hP2 hQ2 q 15 (by omega) hn b r z c').trans (below_all c' fun m => Cert.Nearest.dist P Q b (rowIx q r) m)

end

/-! ## The result array -/

/-- The result the call should leave: entry (b, n, ·) is the least clamped distance from point n of the row cloud. -/
private def nearArr (P Q : FVec Ideal S4x8192x3 .f32) : FVec Ideal S4x8192x1 .f32 :=
  fun i => nearRow P Q ⟨(i 0).val, (i 0).isLt⟩ ⟨(i 1).val, (i 1).isLt⟩

section
variable (V : (c : Dev nD) → (b : Ref sig .tc) → Buf (Elt Ideal) ((c : Thread nD τ).loc b)) (c : Dev nD)

private theorem runMin_congr (n n' : ℕ) (h : n = n') (hn : n < cfg0.N) (hn' : n' < cfg0.N) :
    Call0.runMin V c n hn = Call0.runMin V c n' hn' := by
  subst h; rfl

/-- Every entry of the result lies in the block some row block's last tile writes back. -/
private theorem covered (i : S4x8192x1.Idx) :
    ∃ t : Fin cfg0.N, (cfg0.win 4).flush t = true ∧ i ∈ ((cfg0.win 4).blk t).view.set := by
  have h0 : (i 0).val < 4 := (i 0).isLt
  have h1 : (i 1).val < 8192 := (i 1).isLt
  have h2 : (i 2).val < 1 := (i 2).isLt
  have hN : cfg0.N = 256 := N_0
  obtain ⟨t, htv⟩ : ∃ t : Fin cfg0.N, t.val = 16 * ((i 1).val / 512) + 15 := ⟨⟨16 * ((i 1).val / 512) + 15, by rw [hN]; omega⟩, rfl⟩
  refine ⟨t, (flush0_4 t).mpr (by omega), ?_⟩
  obtain ⟨-, -, -, -, -, -, -, -, -, -, -, -, e0, e1, e2⟩ := idx_facts t
  show i ∈ ((View.whole main_v6).slice (win0_4.rect t)).set
  rw [View.set_slice_whole, Rect.mem_set_unit]
  intro a
  match a with
  | ⟨0, _⟩ => show win0_4.index t (0 : Fin 3) * 4 ≤ (i 0).val ∧ (i 0).val < win0_4.index t (0 : Fin 3) * 4 + 4; rw [e0]; omega
  | ⟨1, _⟩ => show win0_4.index t (1 : Fin 3) * 512 ≤ (i 1).val ∧ (i 1).val < win0_4.index t (1 : Fin 3) * 512 + 512; rw [e1]; omega
  | ⟨2, _⟩ => show win0_4.index t (2 : Fin 3) * 1 ≤ (i 2).val ∧ (i 2).val < win0_4.index t (2 : Fin 3) * 1 + 1; rw [e2]; omega

variable (P Q : FVec Ideal S4x8192x3 .f32)
  (hP : (V c (Pipeline.arrRef spec0 0) : FVec Ideal S4x8192x3 .f32) = P)
  (hQ : (V c (Pipeline.arrRef spec0 1) : FVec Ideal S4x8192x3 .f32) = Q)
  (hP2 : (V c (Pipeline.arrRef spec0 2) : FVec Ideal S4x8192x1 .f32) = sqnCol P)
  (hQ2 : (V c (Pipeline.arrRef spec0 3) : FVec Ideal S4x1x8192 .f32) = sqnRow Q)
include hP hQ hP2 hQ2

/-- What a row block's last tile writes back is its block of the result. -/
private theorem flushed_eq (t : Fin cfg0.N) (hf : (cfg0.win 4).flush t = true) :
    (Call0.dat V c).flushed 4 t = ((cfg0.win 4).blk t).view.read (Elt Ideal) (nearArr P Q) := by
  have h15 : t.val % 16 = 15 := (flush0_4 t).mp hf
  have hN : t.val < 256 := lt_of_lt_of_eq t.isLt N_0
  have ht : t.val = 16 * (t.val / 16) + 15 := by omega
  have hq : t.val / 16 < 16 := by omega
  obtain ⟨-, -, -, -, -, -, -, -, -, -, -, -, e0, e1, e2⟩ := idx_facts t
  show (cfg0.win 4).cut (grid0.coords t) ((Call0.dat V c).after 4 t) = _
  rw [Call0.after_4]
  funext y
  obtain ⟨b, r, z, rfl⟩ : ∃ (b : Fin 4) (r : Fin 512) (z : Fin 1), y = ix3 b r z := ⟨y 0, y 1, y 2, eq_ix3 y⟩
  rw [View.read_apply]
  show Call0.runMin V c t.val t.isLt (ix3 b r z) = nearArr P Q _
  have hn' : 16 * (⟨t.val / 16, hq⟩ : Fin 16).val + 15 < cfg0.N := by show 16 * (t.val / 16) + 15 < cfg0.N; rw [← ht]; exact t.isLt
  rw [runMin_congr V c t.val _ ht t.isLt hn', runMin_last V c P Q hP hQ hP2 hQ2 ⟨t.val / 16, hq⟩ hn' b r z]
  unfold nearArr
  refine congrArg₂ (nearRow P Q) (Fin.ext ?_) (Fin.ext ?_)
  · show b.val = win0_4.index t (0 : Fin 3) * 4 + 1 * b.val; rw [e0]; omega
  · show 512 * (t.val / 16) + r.val = win0_4.index t (1 : Fin 3) * 512 + 1 * r.val; rw [e1]; omega

/-- So the result array ends at it. -/
private theorem result_eq : ((Call0.dat V c).arrAt 4 cfg0.N : FVec Ideal S4x8192x1 .f32) = nearArr P Q :=
  (Call0.dat V c).arrAt_eq_of_cover 4 (nearArr P Q) (flushed_eq V c P Q hP hQ hP2 hQ2) covered

end

/-- If the first call finds the row cloud `P` and the column cloud `Q` at its first two windows' arrays, and `P`'s squared
    norms as a column and `Q`'s as a row at the other two, then its result array, read as [4, 8192], is `rowVec P Q`. -/
theorem call0_result (V : (c : Dev nD) → (b : Ref sig .tc) → Buf (Elt Ideal) ((c : Thread nD τ).loc b)) (c : Dev nD)
    (P Q : FVec Ideal S4x8192x3 .f32)
    (hP : (V c (Pipeline.arrRef spec0 0) : FVec Ideal S4x8192x3 .f32) = P)
    (hQ : (V c (Pipeline.arrRef spec0 1) : FVec Ideal S4x8192x3 .f32) = Q)
    (hP2 : (V c (Pipeline.arrRef spec0 2) : FVec Ideal S4x8192x1 .f32) = sqnCol P)
    (hQ2 : (V c (Pipeline.arrRef spec0 3) : FVec Ideal S4x1x8192 .f32) = sqnRow Q) :
    dropLast ((Call0.dat V c).arrAt 4 cfg0.N : FVec Ideal S4x8192x1 .f32) = rowVec P Q := by
  rw [result_eq V c P Q hP hQ hP2 hQ2]
  rfl

end Cert.KernelIdeal.Nearest

end
-- ==== Proof.NearestCall1.lean ====
/-
  What the second call leaves in its result array, on the extended reals. The call is handed two clouds (the "row" cloud at
  its first window, the "column" cloud at its second) and their squared norms (a column of the row cloud's at its third
  window, a row of the column cloud's at its fourth). Point t = 16·q + k of the grid works on row block q (rows
  512·q … 512·q + 511) against column tile k (columns 512·k … 512·k + 511); after it the scratch's entry for row r lies
  above exactly what lies below the +∞ word and below every clamped distance from row 512·q + r to the columns before
  512·(k + 1) — by induction on k, the reset at k = 0 and one update per tile. At k = 15 that is every column, the scratch
  is written back as block q of the result, and the 16 blocks cover it: entry (b, n, 0) of the result is the least
  clamped distance from point n of the row cloud to the column cloud.
-/
import proofs.«103544_j85478439125595_1_alg».proof.Proof.RunningMin1
import proofs.«103544_j85478439125595_1_alg».proof.Proof.NearestTile
import proofs.«103544_j85478439125595_1_alg».proof.Proof.NearestHost
import proofs.«103544_j85478439125595_1_alg».proof.Proof.NearestSpec
import Idealize.ShloMosaic.Lib.Pipeline.Value
import Idealize.ShloMosaic.Lib.ValueIdx

set_option maxRecDepth 16384

noncomputable section

namespace Cert.KernelIdeal.Nearest

open Cert.KernelIdeal Cert.KernelIdeal.Gen Cert.Nearest
open Idealize.ShloMosaic Idealize.ShloMosaic.TcCoe Idealize.ShloMosaic.ValueIdx Idealize.SL.Sem
open Idealize.ShloMosaic.Pipeline (Dat)

/-! ## Where the blocks sit -/

/-- Where each window's block sits at point t: row block t / 16 for the row cloud, its norms and the result, column tile
    t % 16 for the column cloud and its norms; decided over the 256 points. -/
private theorem idx_facts : ∀ t : Fin cfg1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0
    ∧ win1_2.index t (0 : Fin 3) = 0 ∧ win1_2.index t (1 : Fin 3) = t.val / 16 ∧ win1_2.index t (2 : Fin 3) = 0
    ∧ win1_3.index t (0 : Fin 3) = 0 ∧ win1_3.index t (1 : Fin 3) = 0 ∧ win1_3.index t (2 : Fin 3) = t.val % 16
    ∧ win1_4.index t (0 : Fin 3) = 0 ∧ win1_4.index t (1 : Fin 3) = t.val / 16 ∧ win1_4.index t (2 : Fin 3) = 0 :=
  (by decide +kernel : ∀ t : Fin grid1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0
    ∧ win1_2.index t (0 : Fin 3) = 0 ∧ win1_2.index t (1 : Fin 3) = t.val / 16 ∧ win1_2.index t (2 : Fin 3) = 0
    ∧ win1_3.index t (0 : Fin 3) = 0 ∧ win1_3.index t (1 : Fin 3) = 0 ∧ win1_3.index t (2 : Fin 3) = t.val % 16
    ∧ win1_4.index t (0 : Fin 3) = 0 ∧ win1_4.index t (1 : Fin 3) = t.val / 16 ∧ win1_4.index t (2 : Fin 3) = 0)

/-- Row r of row block q, and column j of column tile k, among the 8192 points. -/
private def rowIx (q : Fin 16) (r : Fin 512) : Fin 8192 := ⟨512 * q.val + r.val, by omega⟩
private def colIx (k : Fin 16) (j : Fin 512) : Fin 8192 := ⟨512 * k.val + j.val, by omega⟩

section
variable (V : (c : Dev nD) → (b : Ref sig .tc) → Buf (Elt Ideal) ((c : Thread nD τ).loc b)) (c : Dev nD)

/-! ## The four blocks point t = 16·q + k loads, read off the arrays -/

private theorem rowPts_apply (A : FVec Ideal S4x8192x3 .f32) (hA : (V c (Pipeline.arrRef spec1 0) : FVec Ideal S4x8192x3 .f32) = A)
    (t : Fin cfg1.N) (q k : Fin 16) (ht : t.val = 16 * q.val + k.val) (b : Fin 4) (r : Fin 512) (d : Fin 3) :
    Call1.rowPts V c t (ix3 b r d) = A (ix3 b (rowIx q r) d) := by
  subst hA
  obtain ⟨e0, e1, e2, -⟩ := idx_facts t
  unfold Call1.rowPts Call1.blockAt
  rw [View.read_apply]
  show (V c (Pipeline.arrRef spec1 0) : FVec Ideal S4x8192x3 .f32) _ = _
  refine congrArg _ (funext fun a => Fin.ext ?_)
  match a with
  | ⟨0, _⟩ => show win1_0.index t (0 : Fin 3) * 4 + 1 * b.val = b.val; rw [e0]; omega
  | ⟨1, _⟩ => show win1_0.index t (1 : Fin 3) * 512 + 1 * r.val = 512 * q.val + r.val; rw [e1]; omega
  | ⟨2, _⟩ => show win1_0.index t (2 : Fin 3) * 3 + 1 * d.val = d.val; rw [e2]; omega

private theorem colPts_apply (A : FVec Ideal S4x8192x3 .f32) (hA : (V c (Pipeline.arrRef spec1 1) : FVec Ideal S4x8192x3 .f32) = A)
    (t : Fin cfg1.N) (q k : Fin 16) (ht : t.val = 16 * q.val + k.val) (b : Fin 4) (j : Fin 512) (d : Fin 3) :
    Call1.colPts V c t (ix3 b j d) = A (ix3 b (colIx k j) d) := by
  subst hA
  obtain ⟨-, -, -, e0, e1, e2, -⟩ := idx_facts t
  unfold Call1.colPts Call1.blockAt
  rw [View.read_apply]
  show (V c (Pipeline.arrRef spec1 1) : FVec Ideal S4x8192x3 .f32) _ = _
  refine congrArg _ (funext fun a => Fin.ext ?_)
  match a with
  | ⟨0, _⟩ => show win1_1.index t (0 : Fin 3) * 4 + 1 * b.val = b.val; rw [e0]; omega
  | ⟨1, _⟩ => show win1_1.index t (1 : Fin 3) * 512 + 1 * j.val = 512 * k.val + j.val; rw [e1]; omega
  | ⟨2, _⟩ => show win1_1.index t (2 : Fin 3) * 3 + 1 * d.val = d.val; rw [e2]; omega

private theorem rowSq_apply (A : FVec Ideal S4x8192x1 .f32) (hA : (V c (Pipeline.arrRef spec1 2) : FVec Ideal S4x8192x1 .f32) = A)
    (t : Fin cfg1.N) (q k : Fin 16) (ht : t.val = 16 * q.val + k.val) (b : Fin 4) (r : Fin 512) (z : Fin 1) :
    Call1.rowSq V c t (ix3 b r z) = A (ix3 b (rowIx q r) z) := by
  subst hA
  obtain ⟨-, -, -, -, -, -, e0, e1, e2, -⟩ := idx_facts t
  unfold Call1.rowSq Call1.blockAt
  rw [View.read_apply]
  show (V c (Pipeline.arrRef spec1 2) : FVec Ideal S4x8192x1 .f32) _ = _
  refine congrArg _ (funext fun a => Fin.ext ?_)
  match a with
  | ⟨0, _⟩ => show win1_2.index t (0 : Fin 3) * 4 + 1 * b.val = b.val; rw [e0]; omega
  | ⟨1, _⟩ => show win1_2.index t (1 : Fin 3) * 512 + 1 * r.val = 512 * q.val + r.val; rw [e1]; omega
  | ⟨2, _⟩ => show win1_2.index t (2 : Fin 3) * 1 + 1 * z.val = z.val; rw [e2]; omega

private theorem colSq_apply (A : FVec Ideal S4x1x8192 .f32) (hA : (V c (Pipeline.arrRef spec1 3) : FVec Ideal S4x1x8192 .f32) = A)
    (t : Fin cfg1.N) (q k : Fin 16) (ht : t.val = 16 * q.val + k.val) (b : Fin 4) (z : Fin 1) (j : Fin 512) :
    Call1.colSq V c t (ix3 b z j) = A (ix3 b z (colIx k j)) := by
  subst hA
  obtain ⟨-, -, -, -, -, -, -, -, -, e0, e1, e2, -⟩ := idx_facts t
  unfold Call1.colSq Call1.blockAt
  rw [View.read_apply]
  show (V c (Pipeline.arrRef spec1 3) : FVec Ideal S4x1x8192 .f32) _ = _
  refine congrArg _ (funext fun a => Fin.ext ?_)
  match a with
  | ⟨0, _⟩ => show win1_3.index t (0 : Fin 3) * 4 + 1 * b.val = b.val; rw [e0]; omega
  | ⟨1, _⟩ => show win1_3.index t (1 : Fin 3) * 1 + 1 * z.val = z.val; rw [e1]; omega
  | ⟨2, _⟩ => show win1_3.index t (2 : Fin 3) * 512 + 1 * j.val = 512 * k.val + j.val; rw [e2]; omega

end

section
variable (V : (c : Dev nD) → (b : Ref sig .tc) → Buf (Elt Ideal) ((c : Thread nD τ).loc b)) (c : Dev nD)
  (P Q : FVec Ideal S4x8192x3 .f32)
  (hP : (V c (Pipeline.arrRef spec1 0) : FVec Ideal S4x8192x3 .f32) = P)
  (hQ : (V c (Pipeline.arrRef spec1 1) : FVec Ideal S4x8192x3 .f32) = Q)
  (hP2 : (V c (Pipeline.arrRef spec1 2) : FVec Ideal S4x8192x1 .f32) = sqnCol P)
  (hQ2 : (V c (Pipeline.arrRef spec1 3) : FVec Ideal S4x1x8192 .f32) = sqnRow Q)
include hP hQ hP2 hQ2

/-! ## One tile's distances are the clouds' -/

/-- At point t = 16·q + k the tile's clamped distance at (r, j) is the clouds' from row 512·q + r to column 512·k + j. -/
private theorem tile_eq (t : Fin cfg1.N) (q k : Fin 16) (ht : t.val = 16 * q.val + k.val) (b : Fin 4) (r j : Fin 512) :
    tileDist (Call1.rowPts V c t) (Call1.colPts V c t) (Call1.rowSq V c t) (Call1.colSq V c t) b r j
      = Cert.Nearest.dist P Q b (rowIx q r) (colIx k j) := by
  unfold tileDist Cert.Nearest.dist cross
  rw [rowSq_apply V c _ hP2 t q k ht, colSq_apply V c _ hQ2 t q k ht]
  simp only [rowPts_apply V c _ hP t q k ht, colPts_apply V c _ hQ t q k ht]
  rfl

/-- So one point's update of a running minimum s, from below. -/
private theorem update_le_iff (t : Fin cfg1.N) (q k : Fin 16) (ht : t.val = 16 * q.val + k.val) (s : FVec Ideal S4x512x1 .f32)
    (b : Fin 4) (r : Fin 512) (z : Fin 1) (c' : EReal) :
    c' ≤ Call1.update V c t s (ix3 b r z)
      ↔ c' ≤ s (ix3 b r z) ∧ c' ≤ wInf ∧ ∀ j : Fin 512, c' ≤ Cert.Nearest.dist P Q b (rowIx q r) (colIx k j) := by
  unfold Call1.update
  refine (step1_le_iff _ _ _ _ s b r z c').trans ?_
  simp only [tile_eq V c P Q hP hQ hP2 hQ2 t q k ht]

omit hP hQ hP2 hQ2 in
/-- The columns before 512·(k + 1) are those before 512·k and tile k's. -/
private theorem below_step (c' : EReal) (f : Fin 8192 → EReal) (k : ℕ) (hk : k < 16) :
    below c' f (512 * (k + 1)) ↔ below c' f (512 * k) ∧ ∀ j : Fin 512, c' ≤ f (colIx ⟨k, hk⟩ j) := by
  unfold below
  constructor
  · rintro ⟨h0, h⟩
    exact ⟨⟨h0, fun m hm => h m (by omega)⟩, fun j => h (colIx ⟨k, hk⟩ j) (by show 512 * k + j.val < 512 * (k + 1); omega)⟩
  · rintro ⟨⟨h0, h⟩, h'⟩
    refine ⟨h0, fun m hm => ?_⟩
    by_cases hlt : m.val < 512 * k
    · exact h m hlt
    · have e : colIx ⟨k, hk⟩ ⟨m.val - 512 * k, by omega⟩ = m := Fin.ext (by show 512 * k + (m.val - 512 * k) = m.val; omega)
      exact e ▸ h' ⟨m.val - 512 * k, by omega⟩

omit hP hQ hP2 hQ2 in
private theorem runMin_at_first (n : ℕ) (hn : n < cfg1.N) (h0 : n % 16 = 0) :
    Call1.runMin V c n hn = Call1.update V c ⟨n, hn⟩ (k1_pay1 (F := Ideal)) :=
  Call1.runMin_first V c ⟨n, hn⟩ h0

omit hP hQ hP2 hQ2 in
private theorem runMin_at_later (n : ℕ) (hn : n + 1 < cfg1.N) (h : ¬(n + 1) % 16 = 0) :
    Call1.runMin V c (n + 1) hn = Call1.update V c ⟨n + 1, hn⟩ (Call1.runMin V c n (Nat.lt_of_succ_lt hn)) :=
  Call1.runMin_later V c ⟨n + 1, hn⟩ h

/-! ## The running minimum over a row block's tiles -/

/-- After tile k of row block q, below the scratch's entry for row r lies exactly what is below the +∞ word and below
    every clamped distance from row 512·q + r to the columns before 512·(k + 1). -/
private theorem runMin_le_iff (q : Fin 16) : ∀ (k : ℕ) (hk : k < 16) (hn : 16 * q.val + k < cfg1.N) (b : Fin 4) (r : Fin 512)
    (z : Fin 1) (c' : EReal),
    c' ≤ Call1.runMin V c (16 * q.val + k) hn (ix3 b r z)
      ↔ below c' (fun m => Cert.Nearest.dist P Q b (rowIx q r) m) (512 * (k + 1))
  | 0, hk, hn, b, r, z, c' => by
    have e : Call1.runMin V c (16 * q.val + 0) hn = Call1.update V c ⟨16 * q.val + 0, hn⟩ (k1_pay1 (F := Ideal)) :=
      runMin_at_first V c _ hn (by omega)
    refine (iff_of_eq (congrArg (fun s : FVec Ideal S4x512x1 .f32 => c' ≤ s (ix3 b r z)) e)).trans ?_
    refine (update_le_iff V c P Q hP hQ hP2 hQ2 ⟨_, hn⟩ q ⟨0, hk⟩ rfl _ b r z c').trans ?_
    rw [start1_apply]
    refine Iff.trans ?_ (below_step c' _ 0 hk).symm
    exact ⟨fun ⟨h0, _, hj⟩ => ⟨⟨h0, fun m hm => absurd hm (by omega)⟩, hj⟩, fun ⟨hb, hj⟩ => ⟨hb.1, hb.1, hj⟩⟩
  | k + 1, hk, hn, b, r, z, c' => by
    have ih := runMin_le_iff q k (by omega) (Nat.lt_of_succ_lt hn) b r z c'
    have e : Call1.runMin V c (16 * q.val + (k + 1)) hn
        = Call1.update V c ⟨16 * q.val + (k + 1), hn⟩ (Call1.runMin V c (16 * q.val + k) (Nat.lt_of_succ_lt hn)) :=
      runMin_at_later V c (16 * q.val + k) hn (by omega)
    refine (iff_of_eq (congrArg (fun s : FVec Ideal S4x512x1 .f32 => c' ≤ s (ix3 b r z)) e)).trans ?_
    refine (update_le_iff V c P Q hP hQ hP2 hQ2 ⟨_, hn⟩ q ⟨k + 1, hk⟩ rfl _ b r z c').trans ?_
    refine Iff.trans ?_ (below_step c' _ (k + 1) hk).symm
    exact ⟨fun ⟨hs, _, hj⟩ => ⟨ih.mp hs, hj⟩, fun ⟨hb, hj⟩ => ⟨ih.mpr hb, hb.1, hj⟩⟩

/-- After a row block's last tile the scratch's entry for row r is the least clamped distance from row 512·q + r. -/
private theorem runMin_last (q : Fin 16) (hn : 16 * q.val + 15 < cfg1.N) (b : Fin 4) (r : Fin 512) (z : Fin 1) :
    Call1.runMin V c (16 * q.val + 15) hn (ix3 b r z) = nearRow P Q b (rowIx q r) :=
  eq_of_forall_le_iff fun c' =>
    (runMin_le_iff V c P Q hP hQ hP2 hQ2 q 15 (by omega) hn b r z c').trans (below_all c' fun m => Cert.Nearest.dist P Q b (rowIx q r) m)

end

/-! ## The result array -/

/-- The result the call should leave: entry (b, n, ·) is the least clamped distance from point n of the row cloud. -/
private def nearArr (P Q : FVec Ideal S4x8192x3 .f32) : FVec Ideal S4x8192x1 .f32 :=
  fun i => nearRow P Q ⟨(i 0).val, (i 0).isLt⟩ ⟨(i 1).val, (i 1).isLt⟩

section
variable (V : (c : Dev nD) → (b : Ref sig .tc) → Buf (Elt Ideal) ((c : Thread nD τ).loc b)) (c : Dev nD)

private theorem runMin_congr (n n' : ℕ) (h : n = n') (hn : n < cfg1.N) (hn' : n' < cfg1.N) :
    Call1.runMin V c n hn = Call1.runMin V c n' hn' := by
  subst h; rfl

/-- Every entry of the result lies in the block some row block's last tile writes back. -/
private theorem covered (i : S4x8192x1.Idx) :
    ∃ t : Fin cfg1.N, (cfg1.win 4).flush t = true ∧ i ∈ ((cfg1.win 4).blk t).view.set := by
  have h0 : (i 0).val < 4 := (i 0).isLt
  have h1 : (i 1).val < 8192 := (i 1).isLt
  have h2 : (i 2).val < 1 := (i 2).isLt
  have hN : cfg1.N = 256 := N_1
  obtain ⟨t, htv⟩ : ∃ t : Fin cfg1.N, t.val = 16 * ((i 1).val / 512) + 15 := ⟨⟨16 * ((i 1).val / 512) + 15, by rw [hN]; omega⟩, rfl⟩
  refine ⟨t, (flush1_4 t).mpr (by omega), ?_⟩
  obtain ⟨-, -, -, -, -, -, -, -, -, -, -, -, e0, e1, e2⟩ := idx_facts t
  show i ∈ ((View.whole main_v14).slice (win1_4.rect t)).set
  rw [View.set_slice_whole, Rect.mem_set_unit]
  intro a
  match a with
  | ⟨0, _⟩ => show win1_4.index t (0 : Fin 3) * 4 ≤ (i 0).val ∧ (i 0).val < win1_4.index t (0 : Fin 3) * 4 + 4; rw [e0]; omega
  | ⟨1, _⟩ => show win1_4.index t (1 : Fin 3) * 512 ≤ (i 1).val ∧ (i 1).val < win1_4.index t (1 : Fin 3) * 512 + 512; rw [e1]; omega
  | ⟨2, _⟩ => show win1_4.index t (2 : Fin 3) * 1 ≤ (i 2).val ∧ (i 2).val < win1_4.index t (2 : Fin 3) * 1 + 1; rw [e2]; omega

variable (P Q : FVec Ideal S4x8192x3 .f32)
  (hP : (V c (Pipeline.arrRef spec1 0) : FVec Ideal S4x8192x3 .f32) = P)
  (hQ : (V c (Pipeline.arrRef spec1 1) : FVec Ideal S4x8192x3 .f32) = Q)
  (hP2 : (V c (Pipeline.arrRef spec1 2) : FVec Ideal S4x8192x1 .f32) = sqnCol P)
  (hQ2 : (V c (Pipeline.arrRef spec1 3) : FVec Ideal S4x1x8192 .f32) = sqnRow Q)
include hP hQ hP2 hQ2

/-- What a row block's last tile writes back is its block of the result. -/
private theorem flushed_eq (t : Fin cfg1.N) (hf : (cfg1.win 4).flush t = true) :
    (Call1.dat V c).flushed 4 t = ((cfg1.win 4).blk t).view.read (Elt Ideal) (nearArr P Q) := by
  have h15 : t.val % 16 = 15 := (flush1_4 t).mp hf
  have hN : t.val < 256 := lt_of_lt_of_eq t.isLt N_1
  have ht : t.val = 16 * (t.val / 16) + 15 := by omega
  have hq : t.val / 16 < 16 := by omega
  obtain ⟨-, -, -, -, -, -, -, -, -, -, -, -, e0, e1, e2⟩ := idx_facts t
  show (cfg1.win 4).cut (grid1.coords t) ((Call1.dat V c).after 4 t) = _
  rw [Call1.after_4]
  funext y
  obtain ⟨b, r, z, rfl⟩ : ∃ (b : Fin 4) (r : Fin 512) (z : Fin 1), y = ix3 b r z := ⟨y 0, y 1, y 2, eq_ix3 y⟩
  rw [View.read_apply]
  show Call1.runMin V c t.val t.isLt (ix3 b r z) = nearArr P Q _
  have hn' : 16 * (⟨t.val / 16, hq⟩ : Fin 16).val + 15 < cfg1.N := by show 16 * (t.val / 16) + 15 < cfg1.N; rw [← ht]; exact t.isLt
  rw [runMin_congr V c t.val _ ht t.isLt hn', runMin_last V c P Q hP hQ hP2 hQ2 ⟨t.val / 16, hq⟩ hn' b r z]
  unfold nearArr
  refine congrArg₂ (nearRow P Q) (Fin.ext ?_) (Fin.ext ?_)
  · show b.val = win1_4.index t (0 : Fin 3) * 4 + 1 * b.val; rw [e0]; omega
  · show 512 * (t.val / 16) + r.val = win1_4.index t (1 : Fin 3) * 512 + 1 * r.val; rw [e1]; omega

/-- So the result array ends at it. -/
private theorem result_eq : ((Call1.dat V c).arrAt 4 cfg1.N : FVec Ideal S4x8192x1 .f32) = nearArr P Q :=
  (Call1.dat V c).arrAt_eq_of_cover 4 (nearArr P Q) (flushed_eq V c P Q hP hQ hP2 hQ2) covered

end

/-- If the second call finds the row cloud `P` and the column cloud `Q` at its first two windows' arrays, and `P`'s squared
    norms as a column and `Q`'s as a row at the other two, then its result array, read as [4, 8192], is `rowVec P Q`. -/
theorem call1_result (V : (c : Dev nD) → (b : Ref sig .tc) → Buf (Elt Ideal) ((c : Thread nD τ).loc b)) (c : Dev nD)
    (P Q : FVec Ideal S4x8192x3 .f32)
    (hP : (V c (Pipeline.arrRef spec1 0) : FVec Ideal S4x8192x3 .f32) = P)
    (hQ : (V c (Pipeline.arrRef spec1 1) : FVec Ideal S4x8192x3 .f32) = Q)
    (hP2 : (V c (Pipeline.arrRef spec1 2) : FVec Ideal S4x8192x1 .f32) = sqnCol P)
    (hQ2 : (V c (Pipeline.arrRef spec1 3) : FVec Ideal S4x1x8192 .f32) = sqnRow Q) :
    dropLast ((Call1.dat V c).arrAt 4 cfg1.N : FVec Ideal S4x8192x1 .f32) = rowVec P Q := by
  rw [result_eq V c P Q hP hQ hP2 hQ2]
  rfl

end Cert.KernelIdeal.Nearest

end
-- ==== Proof.NearestRef.lean ====
/-
  The reference's side of the value claim. Its run, read back one operation at a time, ends at
  `meanSum` of its two minimum arrays; the minimum over the last axis of its distance array is the
  specification's row minimum `rowVec`, the minimum over the middle axis its column minimum `colVec`.
-/
import proofs.«103544_j85478439125595_1_alg».proof.Proof.Gen.ReferenceIdeal.Read
import proofs.«103544_j85478439125595_1_alg».proof.Proof.NearestSpec
import Idealize.ShloMosaic.PureOps.Reduce
import Idealize.ShloMosaic.PureOps.Ideal.Laws

noncomputable section

namespace Cert.ReferenceIdeal.Nearest

open Cert.ReferenceIdeal Cert.ReferenceIdeal.Gen Cert.ReferenceIdeal.Read Cert.Nearest
open Idealize.ShloMosaic Idealize.ShloMosaic.ValueIdx

/-! ## Where each operand is read

At entry (b, n, m) of the distance array the two broadcasts and the sum over the coordinate axis read the
first cloud's squares at (b, n, k) and the second's at (b, m, k); the inner product reads the first cloud at
(b, n, k) and the second at (b, m, k). Each identity holds coordinate by coordinate. -/

/-- The squared norm broadcast along the last axis reads the first cloud at (b, n, k). -/
private theorem idx_sq0 (b : Fin 4) (n m : Fin 8192) (k : Fin 3) :
    idx_main_v1 (idx_main_v5 (idx_main_v7 (ix3 b n m))) k = ix3 b n k :=
  funext fun a => Fin.ext (by match a with | ⟨0, _⟩ => rfl | ⟨1, _⟩ => rfl | ⟨2, _⟩ => rfl)

/-- The squared norm broadcast along the middle axis reads the second cloud at (b, m, k). -/
private theorem idx_sq1 (b : Fin 4) (n m : Fin 8192) (k : Fin 3) :
    idx_main_v3 (idx_main_v6 (idx_main_v8 (ix3 b n m))) k = ix3 b m k :=
  funext fun a => Fin.ext (by match a with | ⟨0, _⟩ => rfl | ⟨1, _⟩ => rfl | ⟨2, _⟩ => rfl)

/-- The inner product's left factor is the first cloud at (b, n, k). -/
private theorem idx_dotl (b : Fin 4) (n m : Fin 8192) (k : Fin 3) :
    lidx_main_v4 (ix3 b n m) k = ix3 b n k :=
  funext fun a => Fin.ext (by match a with | ⟨0, _⟩ => rfl | ⟨1, _⟩ => rfl | ⟨2, _⟩ => rfl)

/-- The inner product's right factor is the second cloud at (b, m, k). -/
private theorem idx_dotr (b : Fin 4) (n m : Fin 8192) (k : Fin 3) :
    ridx_main_v4 (ix3 b n m) k = ix3 b m k :=
  funext fun a => Fin.ext (by match a with | ⟨0, _⟩ => rfl | ⟨1, _⟩ => rfl | ⟨2, _⟩ => rfl)

/-- The reference's distance array at (b, n, m) is the specification's `dist`. -/
theorem dist_apply (x0 x1 : FVec Ideal S4x8192x3 .f32) (b : Fin 4) (n m : Fin 8192) :
    val_main_v14 (F := Ideal) x0 x1 (ix3 b n m) = dist x0 x1 b n m := by
  -- read the maximum, the difference, the sum of the two broadcast norms and the doubled inner product, outermost
  -- first, down to the two clouds at an index
  rw [val_main_v14_apply, val_main_v12_apply, val_main_v13_apply, val_main_cst_2_apply, val_main_v9_apply,
    val_main_v11_apply, val_main_v10_apply, val_main_cst_1_apply, val_main_v7_apply, val_main_v8_apply,
    val_main_v5_apply, val_main_v6_apply, val_main_v1_apply, val_main_v3_apply, val_main_v4_apply,
    val_main_cst_apply, val_main_cst_0_apply]
  -- name the indices by coordinates; on the extended reals the operations are max, −, +, · and the three words stay
  -- as their bit patterns: what is left is max ((sqn + sqn) − 2 · cross) 0 term for term
  simp only [val_main_v0_apply, val_main_v2_apply, idx_sq0, idx_sq1, idx_dotl, idx_dotr,
    Ideal.ofBits_def, Ideal.addf_def, Ideal.subf_def, Ideal.mulf_def, Ideal.maximumf_def]
  rfl

/-! ## The two minima as folds over one axis

A minimum over one axis of the [4, 8192, 8192] array is, at (b, j), the fold of `min` from the +∞ word over that
axis's 8192 coordinates, the source index being (b, j) with the coordinate inserted on the dropped axis. -/

/-- Dropping the last axis, and dropping the middle one, of [4, 8192, 8192] leaves [4, 8192]. -/
private theorem reduces_last : S4x8192x8192.Reduces [2] S4x8192 := by decide
private theorem reduces_mid : S4x8192x8192.Reduces [1] S4x8192 := by decide

/-- Inserting `m` on the last axis of (b, n) gives (b, n, m). -/
private theorem lift_last (i : S4x8192.Idx) (m : Fin 8192) :
    reduces_last.lift i m = ix3 (⟨(i 0).val, (i 0).isLt⟩ : Fin 4) (⟨(i 1).val, (i 1).isLt⟩ : Fin 8192) m :=
  funext fun a => Fin.ext (by match a with | ⟨0, _⟩ => rfl | ⟨1, _⟩ => rfl | ⟨2, _⟩ => rfl)

/-- Inserting `n` on the middle axis of (b, m) gives (b, n, m). -/
private theorem lift_mid (i : S4x8192.Idx) (n : Fin 8192) :
    reduces_mid.lift i n = ix3 (⟨(i 0).val, (i 0).isLt⟩ : Fin 4) n (⟨(i 1).val, (i 1).isLt⟩ : Fin 8192) :=
  funext fun a => Fin.ext (by match a with | ⟨0, _⟩ => rfl | ⟨1, _⟩ => rfl | ⟨2, _⟩ => rfl)

/-- Its minimum over the last axis: the nearest point of the second cloud to each point of the first. -/
theorem minRow_eq (x0 x1 : FVec Ideal S4x8192x3 .f32) : val_main_v15 (F := Ideal) x0 x1 = rowVec x0 x1 := by
  funext i
  unfold val_main_v15
  -- min commutes and associates, so the reduction at (b, n) is the fold over m of the array at (b, n, m) …
  rw [Host.reduce_eq_fold_single _ _ _ reducesTo_S4x8192x8192_S4x8192_d2 reduces_last h_S_ i, val_main_cst_3_apply]
  unfold rowVec nearRow
  -- … and entry (b, n, m) is dist p q b n m: the same fold from the same word, term by term
  exact Finset.fold_congr fun m _ =>
    (congrArg (val_main_v14 (F := Ideal) x0 x1) (lift_last i m)).trans (dist_apply x0 x1 _ _ m)

/-- Its minimum over the middle axis: the nearest point of the first cloud to each point of the second. -/
theorem minCol_eq (x0 x1 : FVec Ideal S4x8192x3 .f32) : val_main_v16 (F := Ideal) x0 x1 = colVec x0 x1 := by
  funext i
  unfold val_main_v16
  -- the reduction at (b, m) is the fold over n of the array at (b, n, m) …
  rw [Host.reduce_eq_fold_single _ _ _ reducesTo_S4x8192x8192_S4x8192_d1 reduces_mid h_S_ i, val_main_cst_4_apply]
  unfold colVec nearCol
  -- … and entry (b, n, m) is dist p q b n m
  exact Finset.fold_congr fun n _ =>
    (congrArg (val_main_v14 (F := Ideal) x0 x1) (lift_mid i n)).trans (dist_apply x0 x1 _ n _)

/-- The reference's result is `meanSum` of the two. -/
theorem result_eq (x0 x1 : FVec Ideal S4x8192x3 .f32) :
    val_main_v21 (F := Ideal) x0 x1 = meanSum reducesTo_S4x8192_S_d0_1 h_S_ (rowVec x0 x1) (colVec x0 x1) := by
  -- the last five operations are the two total sums from the zero word, the two divisions by the word 32768 and the
  -- addition: exactly meanSum's, applied to the two minimum arrays
  unfold val_main_v21 val_main_v18 val_main_v20 val_main_v17 val_main_v19
  rw [minRow_eq, minCol_eq]
  rfl

end Cert.ReferenceIdeal.Nearest

end
-- ==== Proof.lean ====
/-
  The certificate of a two-sided nearest-neighbour distance of two point clouds `p, q : [4, 8192, 3]`.

  Both programs compute, on the extended reals, the clamped squared distances
      dist b n m = max ((|p[b,n]|² + |q[b,m]|²) − 2 · ⟨p[b,n], q[b,m]⟩) 0,
  their minimum over m for every n (the nearest q-point to each p-point) and over n for every m, each from the +∞ word,
  and add the two means. The reference forms the whole [4, 8192, 8192] array of distances and reduces it twice. The
  kernel never forms it: a first call walks a 16 × 16 grid of 512 × 512 tiles, keeps a running minimum per row of the
  current row block in a scratch buffer — reset at the block's first tile, lowered by each tile's row minima, written
  back at the last —, and a second call does the same with the clouds exchanged. A minimum taken tile by tile from +∞
  is the minimum over all columns (both are characterised by what lies below them), and exchanging the clouds exchanges
  rows and columns because + and · commute on the extended reals; no finiteness is used. The sums, quotients and the
  final addition are the same host operations on both sides.

  The frames: each program of two calls runs as five items — host operations, a call, host operations, a call, host
  operations — each call a record of the several-calls launch whose invariant carries the scratch's running minimum
  from grid point to grid point; the arguments are written by no item. The reference is a host program: its frame is its
  run with the result dropped.
-/
import proofs.«103544_j85478439125595_1_alg».proof.Defs
import proofs.«103544_j85478439125595_1_alg».proof.Proof.Gen.Kernel
import proofs.«103544_j85478439125595_1_alg».proof.Proof.Gen.KernelIdeal
import proofs.«103544_j85478439125595_1_alg».proof.Proof.Gen.ReferenceIdeal
import proofs.«103544_j85478439125595_1_alg».proof.Proof.Gen.ReferenceIdeal.Run
import proofs.«103544_j85478439125595_1_alg».proof.Proof.Gen.Pre_finite_inputs
import proofs.«103544_j85478439125595_1_alg».proof.Proof.Bits.TwoCalls
import proofs.«103544_j85478439125595_1_alg».proof.Proof.TwoCalls
import proofs.«103544_j85478439125595_1_alg».proof.Proof.NearestCall0
import proofs.«103544_j85478439125595_1_alg».proof.Proof.NearestCall1
import proofs.«103544_j85478439125595_1_alg».proof.Proof.NearestHost
import proofs.«103544_j85478439125595_1_alg».proof.Proof.NearestRef
import Idealize.ShloMosaic.Adequacy
import Idealize.ShloMosaic.Init

noncomputable section

namespace Cert.Proof

open Idealize.ShloMosaic Idealize.ShloMosaic.TcCoe Idealize.SL.Sem Cert.Nearest

/-- The word-level kernel program runs and leaves its arguments as launched. -/
theorem frame_kernel : Cert.frame_Kernel := fun m ρ _ => Cert.Kernel.Whole.frame m ρ

/-- So does its idealization. -/
theorem frame_kernelIdeal : Cert.frame_KernelIdeal := fun m ρ _ => Cert.KernelIdeal.Whole.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- At `Ideal` both programs end at `meanSum` of the row minima and the column minima of the clamped squared distances. -/
theorem algebraic : Cert.algebraic_KernelIdeal_ReferenceIdeal := by
  intro m ρ m' ρ' _ hagree
  refine ⟨fun c => meanSum Cert.KernelIdeal.Facts₀.reducesTo_S4x8192_S_d0_1 Cert.KernelIdeal.Facts₀.h_S_
      (rowVec (Cert.KernelIdeal.Nearest.cloudP m c) (Cert.KernelIdeal.Nearest.cloudQ m c))
      (colVec (Cert.KernelIdeal.Nearest.cloudP m c) (Cert.KernelIdeal.Nearest.cloudQ m c)), ?_, ?_⟩
  · -- the kernel: the result buffer after the last stretch of host operations, the two calls' results read off their proof data
    refine (θ_run Cert.KernelIdeal.defs _ _).mono (fun r h c => ⟨(h c).1.trans ?_, (h c).2⟩) (Cert.KernelIdeal.Whole.run_result m ρ)
    have e0 := Cert.KernelIdeal.Nearest.call0_result (Cert.KernelIdeal.Whole.entry0 m) c
      (Cert.KernelIdeal.Nearest.cloudP m c) (Cert.KernelIdeal.Nearest.cloudQ m c)
      (Cert.KernelIdeal.Nearest.V1_arg0 m c) (Cert.KernelIdeal.Nearest.V1_arg1 m c)
      (Cert.KernelIdeal.Nearest.V1_v2 m c) (Cert.KernelIdeal.Nearest.V1_v5 m c)
    have e1 := Cert.KernelIdeal.Nearest.call1_result (Cert.KernelIdeal.Whole.entry1 m) c
      (Cert.KernelIdeal.Nearest.cloudQ m c) (Cert.KernelIdeal.Nearest.cloudP m c)
      (Cert.KernelIdeal.Nearest.V3_arg1 m _ c) (Cert.KernelIdeal.Nearest.V3_arg0 m _ c)
      (Cert.KernelIdeal.Nearest.V3_v10 m _ c) (Cert.KernelIdeal.Nearest.V3_v13 m _ c)
    rw [Cert.KernelIdeal.Nearest.V5_v20, Cert.KernelIdeal.Whole.outs_at2, Cert.KernelIdeal.Whole.outs_at4]
    unfold Cert.KernelIdeal.Whole.left0 Cert.KernelIdeal.Whole.left1
    rw [e0, e1]
    -- the second call's row minima, the clouds exchanged, are the column minima
    have hswap : rowVec (Cert.KernelIdeal.Nearest.cloudQ m c) (Cert.KernelIdeal.Nearest.cloudP m c)
        = colVec (Cert.KernelIdeal.Nearest.cloudP m c) (Cert.KernelIdeal.Nearest.cloudQ m c) :=
      funext fun i => nearRow_swap _ _ _ _
    rw [hswap]
  · -- the reference: its run's term is the last stage, which is `meanSum` of its two minimum arrays
    refine (θ_run Cert.ReferenceIdeal.defs _ _).mono (fun _ h c => ⟨?_, (h c).2⟩) (Cert.ReferenceIdeal.Value.run (F := Ideal) m' ρ')
    rw [(h c).1, Cert.ReferenceIdeal.Read.val_main_v21_eq, Cert.ReferenceIdeal.Nearest.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
